-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x300 : Shape := ⟨2, ![16384, 300]⟩
abbrev S16384x50 : Shape := ⟨2, ![16384, 50]⟩
abbrev S16384x512 : Shape := ⟨2, ![16384, 512]⟩
abbrev S5x512x300 : Shape := ⟨3, ![5, 512, 300]⟩
abbrev S5x512 : Shape := ⟨2, ![5, 512]⟩
abbrev S5x512x50 : Shape := ⟨3, ![5, 512, 50]⟩
abbrev S5x512x512 : Shape := ⟨3, ![5, 512, 512]⟩
abbrev S_ : Shape := ⟨0, ![]⟩

class Facts : Prop where
  bcast_S_S16384x300 : S_.BroadcastsInDim S16384x300 (![] : Fin 0 → Fin S16384x300.rank)
  reducesTo_S16384x300_S_d0_1 : S16384x300.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_
  bcast_S_S16384x512 : S_.BroadcastsInDim S16384x512 (![] : Fin 0 → Fin S16384x512.rank)
  reducesTo_S16384x512_S_d0_1 : S16384x512.ReducesTo [0, 1] S_
  bcast_S_S5x512x300 : S_.BroadcastsInDim S5x512x300 (![] : Fin 0 → Fin S5x512x300.rank)
  reducesTo_S5x512x300_S_d0_1_2 : S5x512x300.ReducesTo [0, 1, 2] S_
  bcast_S_S5x512 : S_.BroadcastsInDim S5x512 (![] : Fin 0 → Fin S5x512.rank)
  reducesTo_S5x512_S_d0_1 : S5x512.ReducesTo [0, 1] S_
  bcast_S_S5x512x50 : S_.BroadcastsInDim S5x512x50 (![] : Fin 0 → Fin S5x512x50.rank)
  reducesTo_S5x512x50_S_d0_1_2 : S5x512x50.ReducesTo [0, 1, 2] S_
  bcast_S_S5x512x512 : S_.BroadcastsInDim S5x512x512 (![] : Fin 0 → Fin S5x512x512.rank)
  reducesTo_S5x512x512_S_d0_1_2 : S5x512x512.ReducesTo [0, 1, 2] S_

variable [Facts]

def fn_part6 {F : FTy → Type} [FloatOps F] (main_v98 : IVec S_ 1) (main_v101 : IVec S5x512 1) (main_c_39 : IVec S_ 1) : IVec S_ 1 :=
  let main_v102 : IVec S_ 1 := (fun x v => Host.reduce IntOp.andi x v reducesTo_S5x512_S_d0_1 h_S_) main_v101 main_c_39
  let main_v103 : IVec S_ 1 := andi main_v98 main_v102
  main_v103

def fn_part5 {F : FTy → Type} [FloatOps F] (main_arg18 : FVec F S5x512 .f32) (main_arg19 : FVec F S5x512x512 .f32) (main_arg20 : FVec F S5x512 .f32) (main_v83 : IVec S_ 1) (main_v84 : FVec F S5x512x512 .f32) (main_cst_32 : FVec F S_ .f32) : IVec S_ 1 :=
  let main_v85 : FVec F S5x512x512 .f32 := broadcastInDim S5x512x512 ![] bcast_S_S5x512x512 main_cst_32
  let main_v86 : IVec S5x512x512 1 := cmpf .olt main_v84 main_v85
  let main_c_33 : IVec S_ 1 := constantI S_ 1 1#1
  let main_v87 : IVec S_ 1 := (fun x v => Host.reduce IntOp.andi x v reducesTo_S5x512x512_S_d0_1_2 h_S_) main_v86 main_c_33
  let main_v88 : IVec S_ 1 := andi main_v83 main_v87
  let main_v89 : FVec F S5x512 .f32 := Host.absf main_arg18
  let main_cst_34 : FVec F S_ .f32 := constant S_ .f32 0x7F800000#32
  let main_v90 : FVec F S5x512 .f32 := broadcastInDim S5x512 ![] bcast_S_S5x512 main_cst_34
  let main_v91 : IVec S5x512 1 := cmpf .olt main_v89 main_v90
  let main_c_35 : IVec S_ 1 := constantI S_ 1 1#1
  let main_v92 : IVec S_ 1 := (fun x v => Host.reduce IntOp.andi x v reducesTo_S5x512_S_d0_1 h_S_) main_v91 main_c_35
  let main_v93 : IVec S_ 1 := andi main_v88 main_v92
  let main_v94 : FVec F S5x512x512 .f32 := Host.absf main_arg19
  let main_cst_36 : FVec F S_ .f32 := constant S_ .f32 0x7F800000#32
  let main_v95 : FVec F S5x512x512 .f32 := broadcastInDim S5x512x512 ![] bcast_S_S5x512x512 main_cst_36
  let main_v96 : IVec S5x512x512 1 := cmpf .olt main_v94 main_v95
  let main_c_37 : IVec S_ 1 := constantI S_ 1 1#1
  let main_v97 : IVec S_ 1 := (fun x v => Host.reduce IntOp.andi x v reducesTo_S5x512x512_S_d0_1_2 h_S_) main_v96 main_c_37
  let main_v98 : IVec S_ 1 := andi main_v93 main_v97
  let main_v99 : FVec F S5x512 .f32 := Host.absf main_arg20
  let main_cst_38 : FVec F S_ .f32 := constant S_ .f32 0x7F800000#32
  let main_v100 : FVec F S5x512 .f32 := broadcastInDim S5x512 ![] bcast_S_S5x512 main_cst_38
  let main_v101 : IVec S5x512 1 := cmpf .olt main_v99 main_v100
  let main_c_39 : IVec S_ 1 := constantI S_ 1 1#1
  fn_part6 (F := F) main_v98 main_v101 main_c_39

def fn_part4 {F : FTy → Type} [FloatOps F] (main_arg14 : FVec F S5x512 .f32) (main_arg15 : FVec F S5x512x512 .f32) (main_arg16 : FVec F S5x512 .f32) (main_arg17 : FVec F S5x512x512 .f32) (main_arg18 : FVec F S5x512 .f32) (main_arg19 : FVec F S5x512x512 .f32) (main_arg20 : FVec F S5x512 .f32) (main_v63 : IVec S_ 1) (main_v67 : IVec S_ 1) : IVec S_ 1 :=
  let main_v68 : IVec S_ 1 := andi main_v63 main_v67
  let main_v69 : FVec F S5x512 .f32 := Host.absf main_arg14
  let main_cst_26 : FVec F S_ .f32 := constant S_ .f32 0x7F800000#32
  let main_v70 : FVec F S5x512 .f32 := broadcastInDim S5x512 ![] bcast_S_S5x512 main_cst_26
  let main_v71 : IVec S5x512 1 := cmpf .olt main_v69 main_v70
  let main_c_27 : IVec S_ 1 := constantI S_ 1 1#1
  let main_v72 : IVec S_ 1 := (fun x v => Host.reduce IntOp.andi x v reducesTo_S5x512_S_d0_1 h_S_) main_v71 main_c_27
  let main_v73 : IVec S_ 1 := andi main_v68 main_v72
  let main_v74 : FVec F S5x512x512 .f32 := Host.absf main_arg15
  let main_cst_28 : FVec F S_ .f32 := constant S_ .f32 0x7F800000#32
  let main_v75 : FVec F S5x512x512 .f32 := broadcastInDim S5x512x512 ![] bcast_S_S5x512x512 main_cst_28
  let main_v76 : IVec S5x512x512 1 := cmpf .olt main_v74 main_v75
  let main_c_29 : IVec S_ 1 := constantI S_ 1 1#1
  let main_v77 : IVec S_ 1 := (fun x v => Host.reduce IntOp.andi x v reducesTo_S5x512x512_S_d0_1_2 h_S_) main_v76 main_c_29
  let main_v78 : IVec S_ 1 := andi main_v73 main_v77
  let main_v79 : FVec F S5x512 .f32 := Host.absf main_arg16
  let main_cst_30 : FVec F S_ .f32 := constant S_ .f32 0x7F800000#32
  let main_v80 : FVec F S5x512 .f32 := broadcastInDim S5x512 ![] bcast_S_S5x512 main_cst_30
  let main_v81 : IVec S5x512 1 := cmpf .olt main_v79 main_v80
  let main_c_31 : IVec S_ 1 := constantI S_ 1 1#1
  let main_v82 : IVec S_ 1 := (fun x v => Host.reduce IntOp.andi x v reducesTo_S5x512_S_d0_1 h_S_) main_v81 main_c_31
  let main_v83 : IVec S_ 1 := andi main_v78 main_v82
  let main_v84 : FVec F S5x512x512 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S5x512x50 .f32) (main_arg12 : FVec F S5x512 .f32) (main_arg13 : FVec F S5x512x512 .f32) (main_arg14 : FVec F S5x512 .f32) (main_arg15 : FVec F S5x512x512 .f32) (main_arg16 : FVec F S5x512 .f32) (main_arg17 : FVec F S5x512x512 .f32) (main_arg18 : FVec F S5x512 .f32) (main_arg19 : FVec F S5x512x512 .f32) (main_arg20 : FVec F S5x512 .f32) (main_v48 : IVec S_ 1) (main_v49 : FVec F S5x512 .f32) (main_v50 : FVec F S5x512 .f32) : IVec S_ 1 :=
  let main_v51 : IVec S5x512 1 := cmpf .olt main_v49 main_v50
  let main_c_19 : IVec S_ 1 := constantI S_ 1 1#1
  let main_v52 : IVec S_ 1 := (fun x v => Host.reduce IntOp.andi x v reducesTo_S5x512_S_d0_1 h_S_) main_v51 main_c_19
  let main_v53 : IVec S_ 1 := andi main_v48 main_v52
  let main_v54 : FVec F S5x512x50 .f32 := Host.absf main_arg11
  let main_cst_20 : FVec F S_ .f32 := constant S_ .f32 0x7F800000#32
  let main_v55 : FVec F S5x512x50 .f32 := broadcastInDim S5x512x50 ![] bcast_S_S5x512x50 main_cst_20
  let main_v56 : IVec S5x512x50 1 := cmpf .olt main_v54 main_v55
  let main_c_21 : IVec S_ 1 := constantI S_ 1 1#1
  let main_v57 : IVec S_ 1 := (fun x v => Host.reduce IntOp.andi x v reducesTo_S5x512x50_S_d0_1_2 h_S_) main_v56 main_c_21
  let main_v58 : IVec S_ 1 := andi main_v53 main_v57
  let main_v59 : FVec F S5x512 .f32 := Host.absf main_arg12
  let main_cst_22 : FVec F S_ .f32 := constant S_ .f32 0x7F800000#32
  let main_v60 : FVec F S5x512 .f32 := broadcastInDim S5x512 ![] bcast_S_S5x512 main_cst_22
  let main_v61 : IVec S5x512 1 := cmpf .olt main_v59 main_v60
  let main_c_23 : IVec S_ 1 := constantI S_ 1 1#1
  let main_v62 : IVec S_ 1 := (fun x v => Host.reduce IntOp.andi x v reducesTo_S5x512_S_d0_1 h_S_) main_v61 main_c_23
  let main_v63 : IVec S_ 1 := andi main_v58 main_v62
  let main_v64 : FVec F S5x512x512 .f32 := Host.absf main_arg13
  let main_cst_24 : FVec F S_ .f32 := constant S_ .f32 0x7F800000#32
  let main_v65 : FVec F S5x512x512 .f32 := broadcastInDim S5x512x512 ![] bcast_S_S5x512x512 main_cst_24
  let main_v66 : IVec S5x512x512 1 := cmpf .olt main_v64 main_v65
  let main_c_25 : IVec S_ 1 := constantI S_ 1 1#1
  let main_v67 : IVec S_ 1 := (fun x v => Host.reduce IntOp.andi x v reducesTo_S5x512x512_S_d0_1_2 h_S_) main_v66 main_c_25
  fn_part4 (F := F) main_arg14 main_arg15 main_arg16 main_arg17 main_arg18 main_arg19 main_arg20 main_v63 main_v67

def fn_part2 {F : FTy → Type} [FloatOps F] (main_arg7 : FVec F S5x512x300 .f32) (main_arg8 : FVec F S5x512 .f32) (main_arg9 : FVec F S5x512x50 .f32) (main_arg10 : FVec F S5x512 .f32) (main_arg11 : FVec F S5x512x50 .f32) (main_arg12 : FVec F S5x512 .f32) (main_arg13 : FVec F S5x512x512 .f32) (main_arg14 : FVec F S5x512 .f32) (main_arg15 : FVec F S5x512x512 .f32) (main_arg16 : FVec F S5x512 .f32) (main_arg17 : FVec F S5x512x512 .f32) (main_arg18 : FVec F S5x512 .f32) (main_arg19 : FVec F S5x512x512 .f32) (main_arg20 : FVec F S5x512 .f32) (main_v33 : IVec S_ 1) : IVec S_ 1 :=
  let main_v34 : FVec F S5x512x300 .f32 := Host.absf main_arg7
  let main_cst_12 : FVec F S_ .f32 := constant S_ .f32 0x7F800000#32
  let main_v35 : FVec F S5x512x300 .f32 := broadcastInDim S5x512x300 ![] bcast_S_S5x512x300 main_cst_12
  let main_v36 : IVec S5x512x300 1 := cmpf .olt main_v34 main_v35
  let main_c_13 : IVec S_ 1 := constantI S_ 1 1#1
  let main_v37 : IVec S_ 1 := (fun x v => Host.reduce IntOp.andi x v reducesTo_S5x512x300_S_d0_1_2 h_S_) main_v36 main_c_13
  let main_v38 : IVec S_ 1 := andi main_v33 main_v37
  let main_v39 : FVec F S5x512 .f32 := Host.absf main_arg8
  let main_cst_14 : FVec F S_ .f32 := constant S_ .f32 0x7F800000#32
  let main_v40 : FVec F S5x512 .f32 := broadcastInDim S5x512 ![] bcast_S_S5x512 main_cst_14
  let main_v41 : IVec S5x512 1 := cmpf .olt main_v39 main_v40
  let main_c_15 : IVec S_ 1 := constantI S_ 1 1#1
  let main_v42 : IVec S_ 1 := (fun x v => Host.reduce IntOp.andi x v reducesTo_S5x512_S_d0_1 h_S_) main_v41 main_c_15
  let main_v43 : IVec S_ 1 := andi main_v38 main_v42
  let main_v44 : FVec F S5x512x50 .f32 := Host.absf main_arg9
  let main_cst_16 : FVec F S_ .f32 := constant S_ .f32 0x7F800000#32
  let main_v45 : FVec F S5x512x50 .f32 := broadcastInDim S5x512x50 ![] bcast_S_S5x512x50 main_cst_16
  let main_v46 : IVec S5x512x50 1 := cmpf .olt main_v44 main_v45
  let main_c_17 : IVec S_ 1 := constantI S_ 1 1#1
  let main_v47 : IVec S_ 1 := (fun x v => Host.reduce IntOp.andi x v reducesTo_S5x512x50_S_d0_1_2 h_S_) main_v46 main_c_17
  let main_v48 : IVec S_ 1 := andi main_v43 main_v47
  let main_v49 : FVec F S5x512 .f32 := Host.absf main_arg10
  let main_cst_18 : FVec F S_ .f32 := constant S_ .f32 0x7F800000#32
  let main_v50 : FVec F S5x512 .f32 := broadcastInDim S5x512 ![] bcast_S_S5x512 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S16384x512 .f32) (main_arg5 : FVec F S16384x512 .f32) (main_arg6 : FVec F S16384x512 .f32) (main_arg7 : FVec F S5x512x300 .f32) (main_arg8 : FVec F S5x512 .f32) (main_arg9 : FVec F S5x512x50 .f32) (main_arg10 : FVec F S5x512 .f32) (main_arg11 : FVec F S5x512x50 .f32) (main_arg12 : FVec F S5x512 .f32) (main_arg13 : FVec F S5x512x512 .f32) (main_arg14 : FVec F S5x512 .f32) (main_arg15 : FVec F S5x512x512 .f32) (main_arg16 : FVec F S5x512 .f32) (main_arg17 : FVec F S5x512x512 .f32) (main_arg18 : FVec F S5x512 .f32) (main_arg19 : FVec F S5x512x512 .f32) (main_arg20 : FVec F S5x512 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x512 .f32 := Host.absf main_arg4
  let main_cst_6 : FVec F S_ .f32 := constant S_ .f32 0x7F800000#32
  let main_v20 : FVec F S16384x512 .f32 := broadcastInDim S16384x512 ![] bcast_S_S16384x512 main_cst_6
  let main_v21 : IVec S16384x512 1 := cmpf .olt main_v19 main_v20
  let main_c_7 : IVec S_ 1 := constantI S_ 1 1#1
  let main_v22 : IVec S_ 1 := (fun x v => Host.reduce IntOp.andi x v reducesTo_S16384x512_S_d0_1 h_S_) main_v21 main_c_7
  let main_v23 : IVec S_ 1 := andi main_v18 main_v22
  let main_v24 : FVec F S16384x512 .f32 := Host.absf main_arg5
  let main_cst_8 : FVec F S_ .f32 := constant S_ .f32 0x7F800000#32
  let main_v25 : FVec F S16384x512 .f32 := broadcastInDim S16384x512 ![] bcast_S_S16384x512 main_cst_8
  let main_v26 : IVec S16384x512 1 := cmpf .olt main_v24 main_v25
  let main_c_9 : IVec S_ 1 := constantI S_ 1 1#1
  let main_v27 : IVec S_ 1 := (fun x v => Host.reduce IntOp.andi x v reducesTo_S16384x512_S_d0_1 h_S_) main_v26 main_c_9
  let main_v28 : IVec S_ 1 := andi main_v23 main_v27
  let main_v29 : FVec F S16384x512 .f32 := Host.absf main_arg6
  let main_cst_10 : FVec F S_ .f32 := constant S_ .f32 0x7F800000#32
  let main_v30 : FVec F S16384x512 .f32 := broadcastInDim S16384x512 ![] bcast_S_S16384x512 main_cst_10
  let main_v31 : IVec S16384x512 1 := cmpf .olt main_v29 main_v30
  let main_c_11 : IVec S_ 1 := constantI S_ 1 1#1
  let main_v32 : IVec S_ 1 := (fun x v => Host.reduce IntOp.andi x v reducesTo_S16384x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S16384x300 .f32) (main_arg1 : FVec F S16384x50 .f32) (main_arg2 : FVec F S16384x50 .f32) (main_arg3 : FVec F S16384x512 .f32) (main_arg4 : FVec F S16384x512 .f32) (main_arg5 : FVec F S16384x512 .f32) (main_arg6 : FVec F S16384x512 .f32) (main_arg7 : FVec F S5x512x300 .f32) (main_arg8 : FVec F S5x512 .f32) (main_arg9 : FVec F S5x512x50 .f32) (main_arg10 : FVec F S5x512 .f32) (main_arg11 : FVec F S5x512x50 .f32) (main_arg12 : FVec F S5x512 .f32) (main_arg13 : FVec F S5x512x512 .f32) (main_arg14 : FVec F S5x512 .f32) (main_arg15 : FVec F S5x512x512 .f32) (main_arg16 : FVec F S5x512 .f32) (main_arg17 : FVec F S5x512x512 .f32) (main_arg18 : FVec F S5x512 .f32) (main_arg19 : FVec F S5x512x512 .f32) (main_arg20 : FVec F S5x512 .f32) : IVec S_ 1 :=
  let main_v0 : FVec F S16384x300 .f32 := Host.absf main_arg0
  let main_cst : FVec F S_ .f32 := constant S_ .f32 0x7F800000#32
  let main_v1 : FVec F S16384x300 .f32 := broadcastInDim S16384x300 ![] bcast_S_S16384x300 main_cst
  let main_v2 : IVec S16384x300 1 := cmpf .olt main_v0 main_v1
  let main_c : IVec S_ 1 := constantI S_ 1 1#1
  let main_v3 : IVec S_ 1 := (fun x v => Host.reduce IntOp.andi x v reducesTo_S16384x300_S_d0_1 h_S_) main_v2 main_c
  let main_v4 : FVec F S16384x50 .f32 := Host.absf main_arg1
  let main_cst_0 : FVec F S_ .f32 := constant S_ .f32 0x7F800000#32
  let main_v5 : FVec F S16384x50 .f32 := broadcastInDim S16384x50 ![] bcast_S_S16384x50 main_cst_0
  let main_v6 : IVec S16384x50 1 := cmpf .olt main_v4 main_v5
  let main_c_1 : IVec S_ 1 := constantI S_ 1 1#1
  let main_v7 : IVec S_ 1 := (fun x v => Host.reduce IntOp.andi x v reducesTo_S16384x50_S_d0_1 h_S_) main_v6 main_c_1
  let main_v8 : IVec S_ 1 := andi main_v3 main_v7
  let main_v9 : FVec F S16384x50 .f32 := Host.absf main_arg2
  let main_cst_2 : FVec F S_ .f32 := constant S_ .f32 0x7F800000#32
  let main_v10 : FVec F S16384x50 .f32 := broadcastInDim S16384x50 ![] bcast_S_S16384x50 main_cst_2
  let main_v11 : IVec S16384x50 1 := cmpf .olt main_v9 main_v10
  let main_c_3 : IVec S_ 1 := constantI S_ 1 1#1
  let main_v12 : IVec S_ 1 := (fun x v => Host.reduce IntOp.andi x v reducesTo_S16384x50_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16384x300 : Shape := ⟨2, ![16384, 300]⟩
abbrev S16384x50 : Shape := ⟨2, ![16384, 50]⟩
abbrev S16384x512 : Shape := ⟨2, ![16384, 512]⟩
abbrev S5x512x300 : Shape := ⟨3, ![5, 512, 300]⟩
abbrev S5x512 : Shape := ⟨2, ![5, 512]⟩
abbrev S5x512x50 : Shape := ⟨3, ![5, 512, 50]⟩
abbrev S5x512x512 : Shape := ⟨3, ![5, 512, 512]⟩
abbrev S5x300x512 : Shape := ⟨3, ![5, 300, 512]⟩
abbrev S5x50x512 : Shape := ⟨3, ![5, 50, 512]⟩
abbrev S512x300 : Shape := ⟨2, ![512, 300]⟩
abbrev S512x50 : Shape := ⟨2, ![512, 50]⟩
abbrev S512x512 : Shape := ⟨2, ![512, 512]⟩
abbrev S1x300x512 : Shape := ⟨3, ![1, 300, 512]⟩
abbrev S300x512 : Shape := ⟨2, ![300, 512]⟩
abbrev S1x50x512 : Shape := ⟨3, ![1, 50, 512]⟩
abbrev S50x512 : Shape := ⟨2, ![50, 512]⟩
abbrev S1x512 : Shape := ⟨2, ![1, 512]⟩
abbrev S512 : Shape := ⟨1, ![512]⟩
abbrev S1x512x512 : Shape := ⟨3, ![1, 512, 512]⟩

abbrev nBuf : Space → Nat
  | .hbm => 39
  | .vmem => 30
  | .smem => 0
  | _ => 0

abbrev bufTy : (tb : Table) → Fin (tcTables nBuf tb) → BufTy
  | .hbm, ⟨0, _⟩ => ⟨S16384x300, .f32⟩
  | .hbm, ⟨1, _⟩ => ⟨S16384x50, .f32⟩
  | .hbm, ⟨2, _⟩ => ⟨S16384x50, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S5x512x300, .f32⟩
  | .hbm, ⟨8, _⟩ => ⟨S5x512, .f32⟩
  | .hbm, ⟨9, _⟩ => ⟨S5x512x50, .f32⟩
  | .hbm, ⟨10, _⟩ => ⟨S5x512, .f32⟩
  | .hbm, ⟨11, _⟩ => ⟨S5x512x50, .f32⟩
  | .hbm, ⟨12, _⟩ => ⟨S5x512, .f32⟩
  | .hbm, ⟨13, _⟩ => ⟨S5x512x512, .f32⟩
  | .hbm, ⟨14, _⟩ => ⟨S5x512, .f32⟩
  | .hbm, ⟨15, _⟩ => ⟨S5x512x512, .f32⟩
  | .hbm, ⟨16, _⟩ => ⟨S5x512, .f32⟩
  | .hbm, ⟨17, _⟩ => ⟨S5x512x512, .f32⟩
  | .hbm, ⟨18, _⟩ => ⟨S5x512, .f32⟩
  | .hbm, ⟨19, _⟩ => ⟨S5x512x512, .f32⟩
  | .hbm, ⟨20, _⟩ => ⟨S5x512, .f32⟩
  | .hbm, ⟨21, _⟩ => ⟨S5x512, .f32⟩
  | .hbm, ⟨22, _⟩ => ⟨S5x512, .f32⟩
  | .hbm, ⟨23, _⟩ => ⟨S5x300x512, .f32⟩
  | .hbm, ⟨24, _⟩ => ⟨S5x300x512, .bf16⟩
  | .hbm, ⟨25, _⟩ => ⟨S5x50x512, .f32⟩
  | .hbm, ⟨26, _⟩ => ⟨S5x50x512, .bf16⟩
  | .hbm, ⟨27, _⟩ => ⟨S5x50x512, .f32⟩
  | .hbm, ⟨28, _⟩ => ⟨S5x50x512, .bf16⟩
  | .hbm, ⟨29, _⟩ => ⟨S5x512x512, .f32⟩
  | .hbm, ⟨30, _⟩ => ⟨S5x512x512, .bf16⟩
  | .hbm, ⟨31, _⟩ => ⟨S5x512x512, .f32⟩
  | .hbm, ⟨32, _⟩ => ⟨S5x512x512, .bf16⟩
  | .hbm, ⟨33, _⟩ => ⟨S5x512x512, .f32⟩
  | .hbm, ⟨34, _⟩ => ⟨S5x512x512, .bf16⟩
  | .hbm, ⟨35, _⟩ => ⟨S5x512x512, .f32⟩
  | .hbm, ⟨36, _⟩ => ⟨S5x512x512, .bf16⟩
  | .hbm, ⟨37, _⟩ => ⟨S16384x512, .f32⟩
  | .hbm, ⟨38, _⟩ => ⟨S16384x512, .f32⟩
  | .local _ .vmem, ⟨0, _⟩ => ⟨S512x300, .f32⟩
  | .local _ .vmem, ⟨1, _⟩ => ⟨S512x300, .f32⟩
  | .local _ .vmem, ⟨2, _⟩ => ⟨S512x50, .f32⟩
  | .local _ .vmem, ⟨3, _⟩ => ⟨S512x50, .f32⟩
  | .local _ .vmem, ⟨4, _⟩ => ⟨S512x50, .f32⟩
  | .local _ .vmem, ⟨5, _⟩ => ⟨S512x50, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S5x300x512, .bf16⟩
  | .local _ .vmem, ⟨15, _⟩ => ⟨S5x50x512, .bf16⟩
  | .local _ .vmem, ⟨16, _⟩ => ⟨S5x50x512, .bf16⟩
  | .local _ .vmem, ⟨17, _⟩ => ⟨S5x512x512, .bf16⟩
  | .local _ .vmem, ⟨18, _⟩ => ⟨S5x512x512, .bf16⟩
  | .local _ .vmem, ⟨19, _⟩ => ⟨S5x512x512, .bf16⟩
  | .local _ .vmem, ⟨20, _⟩ => ⟨S5x512x512, .bf16⟩
  | .local _ .vmem, ⟨21, _⟩ => ⟨S5x512, .f32⟩
  | .local _ .vmem, ⟨22, _⟩ => ⟨S5x512, .f32⟩
  | .local _ .vmem, ⟨23, _⟩ => ⟨S5x512, .f32⟩
  | .local _ .vmem, ⟨24, _⟩ => ⟨S5x512, .f32⟩
  | .local _ .vmem, ⟨25, _⟩ => ⟨S5x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S16384x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16_0 : Ref sig .tc := ⟨.hbm, 37, rfl⟩
abbrev main_v16_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S5x300x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x50x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x50x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S5x512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S5x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S5x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S5x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S5x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S5x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  transposes_S5x512x300_S5x300x512_0_2_1 : S5x512x300.Transposes [0, 2, 1] S5x300x512
  bitsLt_bf16_f32 : FTy.bits .bf16 < FTy.bits .f32
  transposes_S5x512x50_S5x50x512_0_2_1 : S5x512x50.Transposes [0, 2, 1] S5x50x512
  transposes_S5x512x512_S5x512x512_0_2_1 : S5x512x512.Transposes [0, 2, 1] S5x512x512
  inb_S512x300_S512x300_0_0 : ∀ a, (![0, 0] : Fin 2 → Nat) a + S512x300.size a ≤ S512x300.size a
  h_S512x300 : 0 < S512x300.numel
  inb_S512x50_S512x50_0_0 : ∀ a, (![0, 0] : Fin 2 → Nat) a + S512x50.size a ≤ S512x50.size a
  h_S512x50 : 0 < S512x50.numel
  inb_S512x512_S512x512_0_0 : ∀ a, (![0, 0] : Fin 2 → Nat) a + S512x512.size a ≤ S512x512.size a
  h_S512x512 : 0 < S512x512.numel
  inb_S5x300x512_S1x300x512_0_0_0 : ∀ a, (![0, 0, 0] : Fin 3 → Nat) a + S1x300x512.size a ≤ S5x300x512.size a
  h_S1x300x512 : 0 < S1x300x512.numel
  shapeCasts_S1x300x512_S300x512 : S1x300x512.ShapeCasts S300x512
  inb_S5x50x512_S1x50x512_0_0_0 : ∀ a, (![0, 0, 0] : Fin 3 → Nat) a + S1x50x512.size a ≤ S5x50x512.size a
  h_S1x50x512 : 0 < S1x50x512.numel
  shapeCasts_S1x50x512_S50x512 : S1x50x512.ShapeCasts S50x512
  inb_S5x512_S1x512_0_0 : ∀ a, (![0, 0] : Fin 2 → Nat) a + S1x512.size a ≤ S5x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  inb_S5x512x512_S1x512x512_0_0_0 : ∀ a, (![0, 0, 0] : Fin 3 → Nat) a + S1x512x512.size a ≤ S5x512x512.size a
  h_S1x512x512 : 0 < S1x512x512.numel
  shapeCasts_S1x512x512_S512x512 : S1x512x512.ShapeCasts S512x512
  inb_S5x300x512_S1x300x512_1_0_0 : ∀ a, (![1, 0, 0] : Fin 3 → Nat) a + S1x300x512.size a ≤ S5x300x512.size a
  inb_S5x50x512_S1x50x512_1_0_0 : ∀ a, (![1, 0, 0] : Fin 3 → Nat) a + S1x50x512.size a ≤ S5x50x512.size a
  inb_S5x512_S1x512_1_0 : ∀ a, (![1, 0] : Fin 2 → Nat) a + S1x512.size a ≤ S5x512.size a
  inb_S5x512x512_S1x512x512_1_0_0 : ∀ a, (![1, 0, 0] : Fin 3 → Nat) a + S1x512x512.size a ≤ S5x512x512.size a
  inb_S5x300x512_S1x300x512_2_0_0 : ∀ a, (![2, 0, 0] : Fin 3 → Nat) a + S1x300x512.size a ≤ S5x300x512.size a
  inb_S5x50x512_S1x50x512_2_0_0 : ∀ a, (![2, 0, 0] : Fin 3 → Nat) a + S1x50x512.size a ≤ S5x50x512.size a
  inb_S5x512_S1x512_2_0 : ∀ a, (![2, 0] : Fin 2 → Nat) a + S1x512.size a ≤ S5x512.size a
  inb_S5x512x512_S1x512x512_2_0_0 : ∀ a, (![2, 0, 0] : Fin 3 → Nat) a + S1x512x512.size a ≤ S5x512x512.size a
  inb_S5x300x512_S1x300x512_3_0_0 : ∀ a, (![3, 0, 0] : Fin 3 → Nat) a + S1x300x512.size a ≤ S5x300x512.size a
  inb_S5x50x512_S1x50x512_3_0_0 : ∀ a, (![3, 0, 0] : Fin 3 → Nat) a + S1x50x512.size a ≤ S5x50x512.size a
  inb_S5x512_S1x512_3_0 : ∀ a, (![3, 0] : Fin 2 → Nat) a + S1x512.size a ≤ S5x512.size a
  inb_S5x512x512_S1x512x512_3_0_0 : ∀ a, (![3, 0, 0] : Fin 3 → Nat) a + S1x512x512.size a ≤ S5x512x512.size a
  inb_S5x300x512_S1x300x512_4_0_0 : ∀ a, (![4, 0, 0] : Fin 3 → Nat) a + S1x300x512.size a ≤ S5x300x512.size a
  inb_S5x50x512_S1x50x512_4_0_0 : ∀ a, (![4, 0, 0] : Fin 3 → Nat) a + S1x50x512.size a ≤ S5x50x512.size a
  inb_S5x512_S1x512_4_0 : ∀ a, (![4, 0] : Fin 2 → Nat) a + S1x512.size a ≤ S5x512.size a
  inb_S5x512x512_S1x512x512_4_0_0 : ∀ a, (![4, 0, 0] : Fin 3 → Nat) a + S1x512x512.size a ≤ S5x512x512.size a
  dot_S512x300_S300x512_S512x512_1_0_0_1_n_n_wf : DotDims.WF S512x300 S300x512 S512x512 [1] [0] [0] [1] [] []
  dot_S512x50_S50x512_S512x512_1_0_0_1_n_n_wf : DotDims.WF S512x50 S50x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x300.size a ≤ S16384x300.size a
  hwx0_0 : ∀ i : grid0.Coords, EltTy.bits .f32 = 32 ∨ (Rect.block (s := S16384x300) S512x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x50.size a ≤ S16384x50.size a
  hwx0_1 : ∀ i : grid0.Coords, EltTy.bits .f32 = 32 ∨ (Rect.block (s := S16384x50) S512x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x50.size a ≤ S16384x50.size a
  hwx0_2 : ∀ i : grid0.Coords, EltTy.bits .f32 = 32 ∨ (Rect.block (s := S16384x50) S512x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S16384x512.size a
  hwx0_4 : ∀ i : grid0.Coords, EltTy.bits .f32 = 32 ∨ (Rect.block (s := S16384x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x300x512.size a ≤ S5x300x512.size a
  hwx0_7 : ∀ i : grid0.Coords, EltTy.bits .bf16 = 32 ∨ (Rect.block (s := S5x300x512) S5x300x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5x50x512.size a ≤ S5x50x512.size a
  hwx0_8 : ∀ i : grid0.Coords, EltTy.bits .bf16 = 32 ∨ (Rect.block (s := S5x50x512) S5x50x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x50x512.size a ≤ S5x50x512.size a
  hwx0_9 : ∀ i : grid0.Coords, EltTy.bits .bf16 = 32 ∨ (Rect.block (s := S5x50x512) S5x50x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S5x512x512.size a ≤ S5x512x512.size a
  hwx0_10 : ∀ i : grid0.Coords, EltTy.bits .bf16 = 32 ∨ (Rect.block (s := S5x512x512) S5x512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S5x512x512.size a ≤ S5x512x512.size a
  hwx0_11 : ∀ i : grid0.Coords, EltTy.bits .bf16 = 32 ∨ (Rect.block (s := S5x512x512) S5x512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S5x512x512.size a ≤ S5x512x512.size a
  hwx0_12 : ∀ i : grid0.Coords, EltTy.bits .bf16 = 32 ∨ (Rect.block (s := S5x512x512) S5x512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S5x512x512.size a ≤ S5x512x512.size a
  hwx0_13 : ∀ i : grid0.Coords, EltTy.bits .bf16 = 32 ∨ (Rect.block (s := S5x512x512) S5x512x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S5x512.size a ≤ S5x512.size a
  hwx0_14 : ∀ i : grid0.Coords, EltTy.bits .f32 = 32 ∨ (Rect.block (s := S5x512) S5x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S5x512.size a ≤ S5x512.size a
  hwx0_15 : ∀ i : grid0.Coords, EltTy.bits .f32 = 32 ∨ (Rect.block (s := S5x512) S5x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S5x512.size a ≤ S5x512.size a
  hwx0_16 : ∀ i : grid0.Coords, EltTy.bits .f32 = 32 ∨ (Rect.block (s := S5x512) S5x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S5x512.size a ≤ S5x512.size a
  hwx0_17 : ∀ i : grid0.Coords, EltTy.bits .f32 = 32 ∨ (Rect.block (s := S5x512) S5x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S5x512.size a ≤ S5x512.size a
  hwx0_18 : ∀ i : grid0.Coords, EltTy.bits .f32 = 32 ∨ (Rect.block (s := S5x512) S5x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S16384x512.size a
  hwx0_19 : ∀ i : grid0.Coords, EltTy.bits .f32 = 32 ∨ (Rect.block (s := S16384x512) S512x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S16384x512.size a
  hwx0_20 : ∀ i : grid0.Coords, EltTy.bits .f32 = 32 ∨ (Rect.block (s := S16384x512) S512x512.size (cc0_transform_20 i) (hinb0_20 i)).WholeWords (EltTy.packing .f32)

variable [Facts₀]

def dot_S512x300_S300x512_S512x512_1_0_0_1_n_n : DotDims S512x300 S300x512 S512x512 where
  lhsContracting := [1]
  rhsContracting := [0]
  lhsNonContracting := [0]
  rhsNonContracting := [1]
  lhsBatch := []
  rhsBatch := []
  wf := dot_S512x300_S300x512_S512x512_1_0_0_1_n_n_wf
def dot_S512x50_S50x512_S512x512_1_0_0_1_n_n : DotDims S512x50 S50x512 S512x512 where
  lhsContracting := [1]
  rhsContracting := [0]
  lhsNonContracting := [0]
  rhsNonContracting := [1]
  lhsBatch := []
  rhsBatch := []
  wf := dot_S512x50_S50x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S5x300x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S5x50x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S5x50x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S5x512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S5x512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S5x512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S5x512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v1) S5x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S5x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S5x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg18) S5x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S5x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v16_0) S512x512.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v16_1) S512x512.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S16384x300 : Shape := ⟨2, ![16384, 300]⟩
abbrev S16384x50 : Shape := ⟨2, ![16384, 50]⟩
abbrev S16384x512 : Shape := ⟨2, ![16384, 512]⟩
abbrev S5x512x300 : Shape := ⟨3, ![5, 512, 300]⟩
abbrev S5x512 : Shape := ⟨2, ![5, 512]⟩
abbrev S5x512x50 : Shape := ⟨3, ![5, 512, 50]⟩
abbrev S5x512x512 : Shape := ⟨3, ![5, 512, 512]⟩
abbrev S5x512x16384 : Shape := ⟨3, ![5, 512, 16384]⟩
abbrev S5x16384x512 : Shape := ⟨3, ![5, 16384, 512]⟩
abbrev S5x1x512 : Shape := ⟨3, ![5, 1, 512]⟩
abbrev S1x16384x512 : Shape := ⟨3, ![1, 16384, 512]⟩
abbrev S_ : Shape := ⟨0, ![]⟩

abbrev nBuf : Space → Nat
  | .hbm => 107
  | .vmem => 0
  | .smem => 0
  | _ => 0

abbrev bufTy : (tb : Table) → Fin (tcTables nBuf tb) → BufTy
  | .hbm, ⟨0, _⟩ => ⟨S16384x300, .f32⟩
  | .hbm, ⟨1, _⟩ => ⟨S16384x50, .f32⟩
  | .hbm, ⟨2, _⟩ => ⟨S16384x50, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S5x512x300, .f32⟩
  | .hbm, ⟨8, _⟩ => ⟨S5x512, .f32⟩
  | .hbm, ⟨9, _⟩ => ⟨S5x512x50, .f32⟩
  | .hbm, ⟨10, _⟩ => ⟨S5x512, .f32⟩
  | .hbm, ⟨11, _⟩ => ⟨S5x512x50, .f32⟩
  | .hbm, ⟨12, _⟩ => ⟨S5x512, .f32⟩
  | .hbm, ⟨13, _⟩ => ⟨S5x512x512, .f32⟩
  | .hbm, ⟨14, _⟩ => ⟨S5x512, .f32⟩
  | .hbm, ⟨15, _⟩ => ⟨S5x512x512, .f32⟩
  | .hbm, ⟨16, _⟩ => ⟨S5x512, .f32⟩
  | .hbm, ⟨17, _⟩ => ⟨S5x512x512, .f32⟩
  | .hbm, ⟨18, _⟩ => ⟨S5x512, .f32⟩
  | .hbm, ⟨19, _⟩ => ⟨S5x512x512, .f32⟩
  | .hbm, ⟨20, _⟩ => ⟨S5x512, .f32⟩
  | .hbm, ⟨21, _⟩ => ⟨S5x512x16384, .f32⟩
  | .hbm, ⟨22, _⟩ => ⟨S5x16384x512, .f32⟩
  | .hbm, ⟨23, _⟩ => ⟨S5x512x16384, .f32⟩
  | .hbm, ⟨24, _⟩ => ⟨S5x16384x512, .f32⟩
  | .hbm, ⟨25, _⟩ => ⟨S5x16384x512, .f32⟩
  | .hbm, ⟨26, _⟩ => ⟨S5x512x16384, .f32⟩
  | .hbm, ⟨27, _⟩ => ⟨S5x16384x512, .f32⟩
  | .hbm, ⟨28, _⟩ => ⟨S5x16384x512, .f32⟩
  | .hbm, ⟨29, _⟩ => ⟨S5x512, .f32⟩
  | .hbm, ⟨30, _⟩ => ⟨S5x512, .f32⟩
  | .hbm, ⟨31, _⟩ => ⟨S5x1x512, .f32⟩
  | .hbm, ⟨32, _⟩ => ⟨S5x16384x512, .f32⟩
  | .hbm, ⟨33, _⟩ => ⟨S5x16384x512, .f32⟩
  | .hbm, ⟨34, _⟩ => ⟨S5x16384x512, .f32⟩
  | .hbm, ⟨35, _⟩ => ⟨S5x16384x512, .f32⟩
  | .hbm, ⟨36, _⟩ => ⟨S5x1x512, .f32⟩
  | .hbm, ⟨37, _⟩ => ⟨S5x16384x512, .f32⟩
  | .hbm, ⟨38, _⟩ => ⟨S5x16384x512, .f32⟩
  | .hbm, ⟨39, _⟩ => ⟨S5x16384x512, .f32⟩
  | .hbm, ⟨40, _⟩ => ⟨S5x16384x512, .f32⟩
  | .hbm, ⟨41, _⟩ => ⟨S5x1x512, .f32⟩
  | .hbm, ⟨42, _⟩ => ⟨S5x16384x512, .f32⟩
  | .hbm, ⟨43, _⟩ => ⟨S5x16384x512, .f32⟩
  | .hbm, ⟨44, _⟩ => ⟨S5x16384x512, .f32⟩
  | .hbm, ⟨45, _⟩ => ⟨S5x512x16384, .f32⟩
  | .hbm, ⟨46, _⟩ => ⟨S5x16384x512, .f32⟩
  | .hbm, ⟨47, _⟩ => ⟨S5x16384x512, .f32⟩
  | .hbm, ⟨48, _⟩ => ⟨S5x1x512, .f32⟩
  | .hbm, ⟨49, _⟩ => ⟨S5x16384x512, .f32⟩
  | .hbm, ⟨50, _⟩ => ⟨S5x16384x512, .f32⟩
  | .hbm, ⟨51, _⟩ => ⟨S5x512x16384, .f32⟩
  | .hbm, ⟨52, _⟩ => ⟨S5x16384x512, .f32⟩
  | .hbm, ⟨53, _⟩ => ⟨S5x16384x512, .f32⟩
  | .hbm, ⟨54, _⟩ => ⟨S5x1x512, .f32⟩
  | .hbm, ⟨55, _⟩ => ⟨S5x16384x512, .f32⟩
  | .hbm, ⟨56, _⟩ => ⟨S5x16384x512, .f32⟩
  | .hbm, ⟨57, _⟩ => ⟨S1x16384x512, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S_, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S16384x512, .f32⟩
  | .hbm, ⟨67, _⟩ => ⟨S1x16384x512, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S_, .f32⟩
  | .hbm, ⟨72, _⟩ => ⟨S16384x512, .f32⟩
  | .hbm, ⟨73, _⟩ => ⟨S16384x512, .f32⟩
  | .hbm, ⟨74, _⟩ => ⟨S_, .f32⟩
  | .hbm, ⟨75, _⟩ => ⟨S16384x512, .f32⟩
  | .hbm, ⟨76, _⟩ => ⟨S16384x512, .f32⟩
  | .hbm, ⟨77, _⟩ => ⟨S1x16384x512, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S_, .f32⟩
  | .hbm, ⟨82, _⟩ => ⟨S16384x512, .f32⟩
  | .hbm, ⟨83, _⟩ => ⟨S16384x512, .f32⟩
  | .hbm, ⟨84, _⟩ => ⟨S_, .f32⟩
  | .hbm, ⟨85, _⟩ => ⟨S16384x512, .f32⟩
  | .hbm, ⟨86, _⟩ => ⟨S16384x512, .f32⟩
  | .hbm, ⟨87, _⟩ => ⟨S1x16384x512, .f32⟩
  | .hbm, ⟨88, _⟩ => ⟨S16384x512, .f32⟩
  | .hbm, ⟨89, _⟩ => ⟨S16384x512, .f32⟩
  | .hbm, ⟨90, _⟩ => ⟨S16384x512, .f32⟩
  | .hbm, ⟨91, _⟩ => ⟨S_, .f32⟩
  | .hbm, ⟨92, _⟩ => ⟨S16384x512, .f32⟩
  | .hbm, ⟨93, _⟩ => ⟨S16384x512, .f32⟩
  | .hbm, ⟨94, _⟩ => ⟨S_, .f32⟩
  | .hbm, ⟨95, _⟩ => ⟨S16384x512, .f32⟩
  | .hbm, ⟨96, _⟩ => ⟨S16384x512, .f32⟩
  | .hbm, ⟨97, _⟩ => ⟨S1x16384x512, .f32⟩
  | .hbm, ⟨98, _⟩ => ⟨S16384x512, .f32⟩
  | .hbm, ⟨99, _⟩ => ⟨S16384x512, .f32⟩
  | .hbm, ⟨100, _⟩ => ⟨S16384x512, .f32⟩
  | .hbm, ⟨101, _⟩ => ⟨S16384x512, .f32⟩
  | .hbm, ⟨102, _⟩ => ⟨S16384x512, .f32⟩
  | .hbm, ⟨103, _⟩ => ⟨S16384x512, .f32⟩
  | .hbm, ⟨104, _⟩ => ⟨S16384x512, .f32⟩
  | .hbm, ⟨105, _⟩ => ⟨S16384x512, .f32⟩
  | .hbm, ⟨106, _⟩ => ⟨S16384x512, .f32⟩
  | _, _ => ⟨S16384x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst : Ref sig .tc := ⟨.hbm, 61, rfl⟩
abbrev main_v40 : Ref sig .tc := ⟨.hbm, 62, rfl⟩
abbrev main_v41 : Ref sig .tc := ⟨.hbm, 63, rfl⟩
abbrev main_cst_0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_1 : Ref sig .tc := ⟨.hbm, 71, rfl⟩
abbrev main_v48 : Ref sig .tc := ⟨.hbm, 72, rfl⟩
abbrev main_v49 : Ref sig .tc := ⟨.hbm, 73, rfl⟩
abbrev main_cst_2 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_3 : Ref sig .tc := ⟨.hbm, 81, rfl⟩
abbrev main_v56 : Ref sig .tc := ⟨.hbm, 82, rfl⟩
abbrev main_v57 : Ref sig .tc := ⟨.hbm, 83, rfl⟩
abbrev main_cst_4 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_5 : Ref sig .tc := ⟨.hbm, 91, rfl⟩
abbrev main_v64 : Ref sig .tc := ⟨.hbm, 92, rfl⟩
abbrev main_v65 : Ref sig .tc := ⟨.hbm, 93, rfl⟩
abbrev main_cst_6 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  transposes_S5x512x16384_S5x16384x512_0_2_1 : S5x512x16384.Transposes [0, 2, 1] S5x16384x512
  bcast_S5x512_S5x1x512_0_2 : S5x512.BroadcastsInDim S5x1x512 (![0, 2] : Fin 2 → Fin S5x1x512.rank)
  bcast_S5x1x512_S5x16384x512_0_1_2 : S5x1x512.BroadcastsInDim S5x16384x512 (![0, 1, 2] : Fin 3 → Fin S5x16384x512.rank)
  slices_S5x16384x512_S1x16384x512_0_0_0 : S5x16384x512.Slices ![0, 0, 0] S1x16384x512
  shapeCasts_S1x16384x512_S16384x512 : S1x16384x512.ShapeCasts S16384x512
  bcast_S_S16384x512 : S_.BroadcastsInDim S16384x512 (![] : Fin 0 → Fin S16384x512.rank)
  slices_S5x16384x512_S1x16384x512_1_0_0 : S5x16384x512.Slices ![1, 0, 0] S1x16384x512
  slices_S5x16384x512_S1x16384x512_2_0_0 : S5x16384x512.Slices ![2, 0, 0] S1x16384x512
  slices_S5x16384x512_S1x16384x512_3_0_0 : S5x16384x512.Slices ![3, 0, 0] S1x16384x512
  slices_S5x16384x512_S1x16384x512_4_0_0 : S5x16384x512.Slices ![4, 0, 0] S1x16384x512
  dot_S5x512x300_S16384x300_S5x512x16384_2_1_01_0_n_n_wf : DotDims.WF S5x512x300 S16384x300 S5x512x16384 [2] [1] [0, 1] [0] [] []
  dot_S5x512x50_S16384x50_S5x512x16384_2_1_01_0_n_n_wf : DotDims.WF S5x512x50 S16384x50 S5x512x16384 [2] [1] [0, 1] [0] [] []
  dot_S5x16384x512_S5x512x512_S5x16384x512_2_2_1_1_0_0_wf : DotDims.WF S5x16384x512 S5x512x512 S5x16384x512 [2] [2] [1] [1] [0] [0]
  dot_S5x512x512_S16384x512_S5x512x16384_2_1_01_0_n_n_wf : DotDims.WF S5x512x512 S16384x512 S5x512x16384 [2] [1] [0, 1] [0] [] []

variable [Facts₀]

def dot_S5x512x300_S16384x300_S5x512x16384_2_1_01_0_n_n : DotDims S5x512x300 S16384x300 S5x512x16384 where
  lhsContracting := [2]
  rhsContracting := [1]
  lhsNonContracting := [0, 1]
  rhsNonContracting := [0]
  lhsBatch := []
  rhsBatch := []
  wf := dot_S5x512x300_S16384x300_S5x512x16384_2_1_01_0_n_n_wf
def dot_S5x512x50_S16384x50_S5x512x16384_2_1_01_0_n_n : DotDims S5x512x50 S16384x50 S5x512x16384 where
  lhsContracting := [2]
  rhsContracting := [1]
  lhsNonContracting := [0, 1]
  rhsNonContracting := [0]
  lhsBatch := []
  rhsBatch := []
  wf := dot_S5x512x50_S16384x50_S5x512x16384_2_1_01_0_n_n_wf
def dot_S5x16384x512_S5x512x512_S5x16384x512_2_2_1_1_0_0 : DotDims S5x16384x512 S5x512x512 S5x16384x512 where
  lhsContracting := [2]
  rhsContracting := [2]
  lhsNonContracting := [1]
  rhsNonContracting := [1]
  lhsBatch := [0]
  rhsBatch := [0]
  wf := dot_S5x16384x512_S5x512x512_S5x16384x512_2_2_1_1_0_0_wf
def dot_S5x512x512_S16384x512_S5x512x16384_2_1_01_0_n_n : DotDims S5x512x512 S16384x512 S5x512x16384 where
  lhsContracting := [2]
  rhsContracting := [1]
  lhsNonContracting := [0, 1]
  rhsNonContracting := [0]
  lhsBatch := []
  rhsBatch := []
  wf := dot_S5x512x512_S16384x512_S5x512x16384_2_1_01_0_n_n_wf

class Facts : Prop extends Facts₀ where

variable [Facts]
-- ==== Proof.Spec.lean ====
/-
  The tree-composition LSTM cell as mathematics on the extended reals, with no array layout in it.

  A node has a word vector (300 entries), a tag and a relation vector (50 each) and four memory vectors of 512 entries:
  k, q, the previous hidden state and the previous cell state. Each of the five gates g (input, down-forget,
  left-forget, output, update) owns a three-layer perceptron and two more linear maps:
    h0 g = tanh (word·Ww g + tag·Wt g + rel·Wr g + bi g)
    h1 g = tanh (h0 g·Wh g + bh g)
    mlp g = tanh (h1 g·Wl g + bl g)
    pre g = mlp g + hp·Wp g + bp g + k·Wk g + bk g
  every matrix stored as [gate][output][input]. With s the logistic function,
    cell = s (pre 1) * q + s (pre 2) * cp + s (pre 0) * tanh (pre 4),   hid = s (pre 3) * tanh cell.
  The sums are grouped exactly as written (left to right); the extended reals' addition and multiplication are
  commutative and associative, which is all that relates the two programs' arrangements (`cell_comm`, `dot_comm`).

  Below the mathematics: the same parameters and the same node read out of arrays in the two layouts the programs
  use: the reference's ([gate, out, in] weights, three input biases still separate, nodes as rows of [16384, ·] arrays)
  and the kernel's ([gate, in, out] weights, the input biases already summed, nodes as rows of a [512, ·] block).
-/
import Idealize.ShloMosaic.PureOps.Ideal
import Idealize.ShloMosaic.Lib.ValueIdx

noncomputable section

open scoped BigOperators

namespace Cert.TreeLstm

open Idealize.ShloMosaic Idealize.ShloMosaic.ValueIdx

/-- The five gates' matrices, [gate][output][input], and bias vectors, [gate][output]. -/
structure Params where
  Ww : Fin 5 → Fin 512 → Fin 300 → EReal
  Wt : Fin 5 → Fin 512 → Fin 50 → EReal
  Wr : Fin 5 → Fin 512 → Fin 50 → EReal
  Wh : Fin 5 → Fin 512 → Fin 512 → EReal
  Wl : Fin 5 → Fin 512 → Fin 512 → EReal
  Wp : Fin 5 → Fin 512 → Fin 512 → EReal
  Wk : Fin 5 → Fin 512 → Fin 512 → EReal
  bi : Fin 5 → Fin 512 → EReal
  bh : Fin 5 → Fin 512 → EReal
  bl : Fin 5 → Fin 512 → EReal
  bp : Fin 5 → Fin 512 → EReal
  bk : Fin 5 → Fin 512 → EReal

/-- One tree node's inputs. -/
structure Node where
  word : Fin 300 → EReal
  tag : Fin 50 → EReal
  rel : Fin 50 → EReal
  k : Fin 512 → EReal
  q : Fin 512 → EReal
  hp : Fin 512 → EReal
  cp : Fin 512 → EReal

/-- The three input projections of gate `g` summed (word, then tag, then relation), before the bias. -/
def lin0 (P : Params) (X : Node) (g : Fin 5) (j : Fin 512) : EReal :=
  ((∑ w : Fin 300, X.word w * P.Ww g j w) + ∑ t : Fin 50, X.tag t * P.Wt g j t) + ∑ r : Fin 50, X.rel r * P.Wr g j r

/-- First layer of gate `g`'s perceptron, output `j`. -/
def h0 (P : Params) (X : Node) (g : Fin 5) (j : Fin 512) : EReal :=
  Ideal.tanh (lin0 P X g j + P.bi g j)

/-- Hidden layer. -/
def h1 (P : Params) (X : Node) (g : Fin 5) (j : Fin 512) : EReal :=
  Ideal.tanh ((∑ h : Fin 512, h0 P X g h * P.Wh g j h) + P.bh g j)

/-- The last layer's projection, before its bias. -/
def lin2 (P : Params) (X : Node) (g : Fin 5) (j : Fin 512) : EReal :=
  ∑ h : Fin 512, h1 P X g h * P.Wl g j h

/-- Last layer. -/
def mlp (P : Params) (X : Node) (g : Fin 5) (j : Fin 512) : EReal :=
  Ideal.tanh (lin2 P X g j + P.bl g j)

/-- The perceptron's output plus the previous hidden state's projection. -/
def preA (P : Params) (X : Node) (g : Fin 5) (j : Fin 512) : EReal :=
  mlp P X g j + ∑ i : Fin 512, X.hp i * P.Wp g j i

/-- ... plus that projection's bias. -/
def preB (P : Params) (X : Node) (g : Fin 5) (j : Fin 512) : EReal :=
  preA P X g j + P.bp g j

/-- Gate `g`'s pre-activation: ... plus k's projection, plus its bias. -/
def pre (P : Params) (X : Node) (g : Fin 5) (j : Fin 512) : EReal :=
  (preB P X g j + ∑ i : Fin 512, X.k i * P.Wk g j i) + P.bk g j

/-- The new cell state. -/
def cell (P : Params) (X : Node) (j : Fin 512) : EReal :=
  (Ideal.logistic (pre P X 1 j) * X.q j + Ideal.logistic (pre P X 2 j) * X.cp j)
    + Ideal.logistic (pre P X 0 j) * Ideal.tanh (pre P X 4 j)

/-- The new hidden state. -/
def hid (P : Params) (X : Node) (j : Fin 512) : EReal :=
  Ideal.logistic (pre P X 3 j) * Ideal.tanh (cell P X j)

/-- The cell state's three terms summed in the other order (input gate first). -/
theorem cell_comm (a b c : EReal) : (a + b) + c = (c + a) + b := by
  rw [add_comm c a, add_assoc, add_assoc, add_comm b c]

/-- A dot product with its factors swapped. -/
theorem dot_comm {K : ℕ} (a b : Fin K → EReal) : ∑ k : Fin K, a k * b k = ∑ k : Fin K, b k * a k :=
  Finset.sum_congr rfl fun k _ => mul_comm (a k) (b k)

/-! ## The two array layouts -/

/-- An extended-real matrix. -/
abbrev A2 (a b : ℕ) : Type := (⟨2, ![a, b]⟩ : Shape).Idx → EReal
/-- An extended-real rank-3 array. -/
abbrev A3 (a b c : ℕ) : Type := (⟨3, ![a, b, c]⟩ : Shape).Idx → EReal

/-- The parameters out of the reference's arrays: weights [gate, out, in]; the first layer's bias is the sum of the
    word, tag and relation biases (in that grouping). -/
def refParams (W7 : A3 5 512 300) (b8 : A2 5 512) (W9 : A3 5 512 50) (b10 : A2 5 512) (W11 : A3 5 512 50) (b12 : A2 5 512)
    (W13 : A3 5 512 512) (b14 : A2 5 512) (W15 : A3 5 512 512) (b16 : A2 5 512) (W17 : A3 5 512 512) (b18 : A2 5 512)
    (W19 : A3 5 512 512) (b20 : A2 5 512) : Params where
  Ww := fun g j w => W7 (ix3 g j w)
  Wt := fun g j t => W9 (ix3 g j t)
  Wr := fun g j r => W11 (ix3 g j r)
  Wh := fun g j h => W13 (ix3 g j h)
  Wl := fun g j h => W15 (ix3 g j h)
  Wp := fun g j i => W17 (ix3 g j i)
  Wk := fun g j i => W19 (ix3 g j i)
  bi := fun g j => (b8 (ix2 g j) + b10 (ix2 g j)) + b12 (ix2 g j)
  bh := fun g j => b14 (ix2 g j)
  bl := fun g j => b16 (ix2 g j)
  bp := fun g j => b18 (ix2 g j)
  bk := fun g j => b20 (ix2 g j)

/-- Node `n` out of the reference's arrays: row `n` of each. -/
def refNode (a0 : A2 16384 300) (a1 a2 : A2 16384 50) (a3 a4 a5 a6 : A2 16384 512) (n : Fin 16384) : Node where
  word := fun w => a0 (ix2 n w)
  tag := fun t => a1 (ix2 n t)
  rel := fun r => a2 (ix2 n r)
  k := fun i => a3 (ix2 n i)
  q := fun i => a4 (ix2 n i)
  hp := fun i => a5 (ix2 n i)
  cp := fun i => a6 (ix2 n i)

/-- The hidden states of all 16384 nodes, as one array of the twenty-one argument arrays. -/
def Gh (a0 : A2 16384 300) (a1 a2 : A2 16384 50) (a3 a4 a5 a6 : A2 16384 512)
    (W7 : A3 5 512 300) (b8 : A2 5 512) (W9 : A3 5 512 50) (b10 : A2 5 512) (W11 : A3 5 512 50) (b12 : A2 5 512)
    (W13 : A3 5 512 512) (b14 : A2 5 512) (W15 : A3 5 512 512) (b16 : A2 5 512) (W17 : A3 5 512 512) (b18 : A2 5 512)
    (W19 : A3 5 512 512) (b20 : A2 5 512) : A2 16384 512 :=
  fun i => hid (refParams W7 b8 W9 b10 W11 b12 W13 b14 W15 b16 W17 b18 W19 b20) (refNode a0 a1 a2 a3 a4 a5 a6 (i 0)) (i 1)

/-- The cell states of all 16384 nodes. -/
def Gc (a0 : A2 16384 300) (a1 a2 : A2 16384 50) (a3 a4 a5 a6 : A2 16384 512)
    (W7 : A3 5 512 300) (b8 : A2 5 512) (W9 : A3 5 512 50) (b10 : A2 5 512) (W11 : A3 5 512 50) (b12 : A2 5 512)
    (W13 : A3 5 512 512) (b14 : A2 5 512) (W15 : A3 5 512 512) (b16 : A2 5 512) (W17 : A3 5 512 512) (b18 : A2 5 512)
    (W19 : A3 5 512 512) (b20 : A2 5 512) : A2 16384 512 :=
  fun i => cell (refParams W7 b8 W9 b10 W11 b12 W13 b14 W15 b16 W17 b18 W19 b20) (refNode a0 a1 a2 a3 a4 a5 a6 (i 0)) (i 1)

/-- The parameters out of the kernel's resident blocks: weights transposed to [gate, in, out]; one first-layer bias. -/
def kerParams (x7 : A3 5 300 512) (x8 x9 : A3 5 50 512) (x10 x11 x12 x13 : A3 5 512 512)
    (x14 x15 x16 x17 x18 : A2 5 512) : Params where
  Ww := fun g j w => x7 (ix3 g w j)
  Wt := fun g j t => x8 (ix3 g t j)
  Wr := fun g j r => x9 (ix3 g r j)
  Wh := fun g j h => x10 (ix3 g h j)
  Wl := fun g j h => x11 (ix3 g h j)
  Wp := fun g j i => x12 (ix3 g i j)
  Wk := fun g j i => x13 (ix3 g i j)
  bi := fun g j => x14 (ix2 g j)
  bh := fun g j => x15 (ix2 g j)
  bl := fun g j => x16 (ix2 g j)
  bp := fun g j => x17 (ix2 g j)
  bk := fun g j => x18 (ix2 g j)

/-- Row `p` of a block of 512 nodes. -/
def kerNode (x0 : A2 512 300) (x1 x2 : A2 512 50) (x3 x4 x5 x6 : A2 512 512) (p : Fin 512) : Node where
  word := fun w => x0 (ix2 p w)
  tag := fun t => x1 (ix2 p t)
  rel := fun r => x2 (ix2 p r)
  k := fun i => x3 (ix2 p i)
  q := fun i => x4 (ix2 p i)
  hp := fun i => x5 (ix2 p i)
  cp := fun i => x6 (ix2 p i)

/-- The node that row `p` of the block at grid point `t` holds: blocks are 512 consecutive nodes. -/
def nodeOf (t : Fin 32) (p : Fin 512) : Fin 16384 := ⟨512 * t.val + p.val, by have := t.isLt; have := p.isLt; omega⟩

@[simp] theorem nodeOf_val (t : Fin 32) (p : Fin 512) : (nodeOf t p).val = 512 * t.val + p.val := rfl

end Cert.TreeLstm

end
-- ==== Proof.RefValue.lean ====
/-
  The reference program's two results are the tree-LSTM hidden and cell states of every node.

  The reference computes all five gates at once over [5, 16384, 512] arrays: each projection is a contraction of a
  [gate, out, in] weight stack with a [node, in] input (weight first, then transposed to [gate, node, out]) or a batched
  contraction over the gate axis, each bias a [5, 512] array spread over the nodes; gate g is then sliced out, the
  logistic function spelt 1 / (1 + exp (-x)), and the cell state summed input gate first. Entry (n, j) of each result
  depends on node n's row only, and is the function of Spec.lean at that row: the products' factors in the other order
  and the cell state's terms in the other order are the same extended real (commutativity and associativity only).
-/
import proofs.«147965_j38689065402503_1_alg».proof.Proof.Gen.ReferenceIdeal.Read
import proofs.«147965_j38689065402503_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx Cert.TreeLstm

/-! ## Entry by entry

Every entry is read at an index written in coordinates (gate `g`, node `n`, output `j`), so that the index a layout
operation reads its operand at is again a coordinate triple or pair, and every stage of the reference becomes the
specification's function of node `n`'s row.
-/

section Stages

variable (a0 : FVec Ideal S16384x300 .f32) (a1 a2 : FVec Ideal S16384x50 .f32) (a3 a4 a5 a6 : FVec Ideal S16384x512 .f32)
    (a7 : FVec Ideal S5x512x300 .f32) (a8 : FVec Ideal S5x512 .f32) (a9 : FVec Ideal S5x512x50 .f32) (a10 : FVec Ideal S5x512 .f32)
    (a11 : FVec Ideal S5x512x50 .f32) (a12 : FVec Ideal S5x512 .f32) (a13 : FVec Ideal S5x512x512 .f32) (a14 : FVec Ideal S5x512 .f32)
    (a15 : FVec Ideal S5x512x512 .f32) (a16 : FVec Ideal S5x512 .f32) (a17 : FVec Ideal S5x512x512 .f32) (a18 : FVec Ideal S5x512 .f32)
    (a19 : FVec Ideal S5x512x512 .f32) (a20 : FVec Ideal S5x512 .f32)
variable (g : Fin 5) (n : Fin 16384) (j : Fin 512)

local notation "𝐏" => refParams a7 a8 a9 a10 a11 a12 a13 a14 a15 a16 a17 a18 a19 a20
local notation "𝐗" => refNode a0 a1 a2 a3 a4 a5 a6

/-! ### The weight-first projections

A [gate, out, in] weight stack contracted with a [node, in] input and then transposed: entry (g, n, j) is the sum over the
input axis of weight (g, j, k) times input (n, k). The product's factors commute, which gives the specification's
input-first product.
-/

theorem swap_word : idx_main_v1 (ix3 g n j) = ix3 g j n := by
  funext a; match a with | ⟨0, _⟩ => rfl | ⟨1, _⟩ => rfl | ⟨2, _⟩ => rfl
theorem wt_word (k : Fin 300) : lidx_main_v0 (ix3 g j n) k = ix3 g j k := by
  funext a; match a with | ⟨0, _⟩ => rfl | ⟨1, _⟩ => rfl | ⟨2, _⟩ => rfl
theorem in_word (k : Fin 300) : ridx_main_v0 (ix3 g j n) k = ix2 n k := by
  funext a; match a with | ⟨0, _⟩ => rfl | ⟨1, _⟩ => rfl
theorem proj_word : val_main_v1 (F := Ideal) a0 a7 (ix3 g n j) = ∑ k : Fin 300, a0 (ix2 n k) * a7 (ix3 g j k) := by
  rw [val_main_v1_apply, swap_word, val_main_v0_apply]
  refine Finset.sum_congr rfl fun k _ => ?_
  rw [wt_word, in_word, mul_comm]

theorem swap_tag : idx_main_v3 (ix3 g n j) = ix3 g j n := by
  funext a; match a with | ⟨0, _⟩ => rfl | ⟨1, _⟩ => rfl | ⟨2, _⟩ => rfl
theorem wt_tag (k : Fin 50) : lidx_main_v2 (ix3 g j n) k = ix3 g j k := by
  funext a; match a with | ⟨0, _⟩ => rfl | ⟨1, _⟩ => rfl | ⟨2, _⟩ => rfl
theorem in_tag (k : Fin 50) : ridx_main_v2 (ix3 g j n) k = ix2 n k := by
  funext a; match a with | ⟨0, _⟩ => rfl | ⟨1, _⟩ => rfl
theorem proj_tag : val_main_v3 (F := Ideal) a1 a9 (ix3 g n j) = ∑ k : Fin 50, a1 (ix2 n k) * a9 (ix3 g j k) := by
  rw [val_main_v3_apply, swap_tag, val_main_v2_apply]
  refine Finset.sum_congr rfl fun k _ => ?_
  rw [wt_tag, in_tag, mul_comm]

theorem swap_rel : idx_main_v6 (ix3 g n j) = ix3 g j n := by
  funext a; match a with | ⟨0, _⟩ => rfl | ⟨1, _⟩ => rfl | ⟨2, _⟩ => rfl
theorem wt_rel (k : Fin 50) : lidx_main_v5 (ix3 g j n) k = ix3 g j k := by
  funext a; match a with | ⟨0, _⟩ => rfl | ⟨1, _⟩ => rfl | ⟨2, _⟩ => rfl
theorem in_rel (k : Fin 50) : ridx_main_v5 (ix3 g j n) k = ix2 n k := by
  funext a; match a with | ⟨0, _⟩ => rfl | ⟨1, _⟩ => rfl
theorem proj_rel : val_main_v6 (F := Ideal) a2 a11 (ix3 g n j) = ∑ k : Fin 50, a2 (ix2 n k) * a11 (ix3 g j k) := by
  rw [val_main_v6_apply, swap_rel, val_main_v5_apply]
  refine Finset.sum_congr rfl fun k _ => ?_
  rw [wt_rel, in_rel, mul_comm]

theorem swap_hp : idx_main_v25 (ix3 g n j) = ix3 g j n := by
  funext a; match a with | ⟨0, _⟩ => rfl | ⟨1, _⟩ => rfl | ⟨2, _⟩ => rfl
theorem wt_hp (k : Fin 512) : lidx_main_v24 (ix3 g j n) k = ix3 g j k := by
  funext a; match a with | ⟨0, _⟩ => rfl | ⟨1, _⟩ => rfl | ⟨2, _⟩ => rfl
theorem in_hp (k : Fin 512) : ridx_main_v24 (ix3 g j n) k = ix2 n k := by
  funext a; match a with | ⟨0, _⟩ => rfl | ⟨1, _⟩ => rfl
theorem proj_hp : val_main_v25 (F := Ideal) a5 a17 (ix3 g n j) = ∑ k : Fin 512, a5 (ix2 n k) * a17 (ix3 g j k) := by
  rw [val_main_v25_apply, swap_hp, val_main_v24_apply]
  refine Finset.sum_congr rfl fun k _ => ?_
  rw [wt_hp, in_hp, mul_comm]

theorem swap_k : idx_main_v31 (ix3 g n j) = ix3 g j n := by
  funext a; match a with | ⟨0, _⟩ => rfl | ⟨1, _⟩ => rfl | ⟨2, _⟩ => rfl
theorem wt_k (k : Fin 512) : lidx_main_v30 (ix3 g j n) k = ix3 g j k := by
  funext a; match a with | ⟨0, _⟩ => rfl | ⟨1, _⟩ => rfl | ⟨2, _⟩ => rfl
theorem in_k (k : Fin 512) : ridx_main_v30 (ix3 g j n) k = ix2 n k := by
  funext a; match a with | ⟨0, _⟩ => rfl | ⟨1, _⟩ => rfl
theorem proj_k : val_main_v31 (F := Ideal) a3 a19 (ix3 g n j) = ∑ k : Fin 512, a3 (ix2 n k) * a19 (ix3 g j k) := by
  rw [val_main_v31_apply, swap_k, val_main_v30_apply]
  refine Finset.sum_congr rfl fun k _ => ?_
  rw [wt_k, in_k, mul_comm]

/-! ### The biases

A [5, 512] bias spread over the nodes through a unit axis: entry (g, n, j) is the bias at (g, j). The first layer's bias
is the word, tag and relation biases summed in that grouping.
-/

theorem spread_in : idx_main_v11 (ix3 g n j) = ix3 g (0 : Fin 1) j := by
  funext a; match a with | ⟨0, _⟩ => rfl | ⟨1, _⟩ => rfl | ⟨2, _⟩ => rfl
theorem row_in : idx_main_v10 (ix3 g (0 : Fin 1) j) = ix2 g j := by
  funext a; match a with | ⟨0, _⟩ => rfl | ⟨1, _⟩ => rfl
theorem bias_in : val_main_v11 (F := Ideal) a8 a10 a12 (ix3 g n j) = (a8 (ix2 g j) + a10 (ix2 g j)) + a12 (ix2 g j) := by
  rw [val_main_v11_apply, spread_in, val_main_v10_apply, row_in, val_main_v9_apply, val_main_v8_apply]
  rfl

theorem spread_hid : idx_main_v16 (ix3 g n j) = ix3 g (0 : Fin 1) j := by
  funext a; match a with | ⟨0, _⟩ => rfl | ⟨1, _⟩ => rfl | ⟨2, _⟩ => rfl
theorem row_hid : idx_main_v15 (ix3 g (0 : Fin 1) j) = ix2 g j := by
  funext a; match a with | ⟨0, _⟩ => rfl | ⟨1, _⟩ => rfl
theorem bias_hid : val_main_v16 (F := Ideal) a14 (ix3 g n j) = a14 (ix2 g j) := by
  rw [val_main_v16_apply, spread_hid, val_main_v15_apply, row_hid]

theorem spread_last : idx_main_v21 (ix3 g n j) = ix3 g (0 : Fin 1) j := by
  funext a; match a with | ⟨0, _⟩ => rfl | ⟨1, _⟩ => rfl | ⟨2, _⟩ => rfl
theorem row_last : idx_main_v20 (ix3 g (0 : Fin 1) j) = ix2 g j := by
  funext a; match a with | ⟨0, _⟩ => rfl | ⟨1, _⟩ => rfl
theorem bias_last : val_main_v21 (F := Ideal) a16 (ix3 g n j) = a16 (ix2 g j) := by
  rw [val_main_v21_apply, spread_last, val_main_v20_apply, row_last]

theorem spread_hp : idx_main_v28 (ix3 g n j) = ix3 g (0 : Fin 1) j := by
  funext a; match a with | ⟨0, _⟩ => rfl | ⟨1, _⟩ => rfl | ⟨2, _⟩ => rfl
theorem row_hp : idx_main_v27 (ix3 g (0 : Fin 1) j) = ix2 g j := by
  funext a; match a with | ⟨0, _⟩ => rfl | ⟨1, _⟩ => rfl
theorem bias_hp : val_main_v28 (F := Ideal) a18 (ix3 g n j) = a18 (ix2 g j) := by
  rw [val_main_v28_apply, spread_hp, val_main_v27_apply, row_hp]

theorem spread_k : idx_main_v34 (ix3 g n j) = ix3 g (0 : Fin 1) j := by
  funext a; match a with | ⟨0, _⟩ => rfl | ⟨1, _⟩ => rfl | ⟨2, _⟩ => rfl
theorem row_k : idx_main_v33 (ix3 g (0 : Fin 1) j) = ix2 g j := by
  funext a; match a with | ⟨0, _⟩ => rfl | ⟨1, _⟩ => rfl
theorem bias_k : val_main_v34 (F := Ideal) a20 (ix3 g n j) = a20 (ix2 g j) := by
  rw [val_main_v34_apply, spread_k, val_main_v33_apply, row_k]

/-! ### The perceptron and the pre-activation

Each layer's entry (g, n, j) is the specification's layer of node n at (g, j): a batched contraction's terms are the
previous layer's entries of the same gate and node, times the weight at (g, j, k), already in the specification's order;
the sums are grouped as the specification groups them.
-/

theorem stage_lin0 : val_main_v7 (F := Ideal) a0 a1 a2 a7 a9 a11 (ix3 g n j) = lin0 𝐏 (𝐗 n) g j := by
  rw [val_main_v7_apply, val_main_v4_apply, proj_word, proj_tag, proj_rel]
  rfl

theorem stage_h0 : val_main_v13 (F := Ideal) a0 a1 a2 a7 a8 a9 a10 a11 a12 (ix3 g n j) = h0 𝐏 (𝐗 n) g j := by
  rw [val_main_v13_apply, val_main_v12_apply, stage_lin0, bias_in]
  rfl

theorem act_hid (k : Fin 512) : lidx_main_v14 (ix3 g n j) k = ix3 g n k := by
  funext a; match a with | ⟨0, _⟩ => rfl | ⟨1, _⟩ => rfl | ⟨2, _⟩ => rfl
theorem mat_hid (k : Fin 512) : ridx_main_v14 (ix3 g n j) k = ix3 g j k := by
  funext a; match a with | ⟨0, _⟩ => rfl | ⟨1, _⟩ => rfl | ⟨2, _⟩ => rfl

theorem act_last (k : Fin 512) : lidx_main_v19 (ix3 g n j) k = ix3 g n k := by
  funext a; match a with | ⟨0, _⟩ => rfl | ⟨1, _⟩ => rfl | ⟨2, _⟩ => rfl
theorem mat_last (k : Fin 512) : ridx_main_v19 (ix3 g n j) k = ix3 g j k := by
  funext a; match a with | ⟨0, _⟩ => rfl | ⟨1, _⟩ => rfl | ⟨2, _⟩ => rfl

theorem dot_hid : val_main_v14 (F := Ideal) a0 a1 a2 a7 a8 a9 a10 a11 a12 a13 (ix3 g n j) = ∑ k : Fin 512, h0 𝐏 (𝐗 n) g k * a13 (ix3 g j k) := by
  rw [val_main_v14_apply]
  refine Finset.sum_congr rfl fun k _ => ?_
  rw [act_hid, mat_hid, stage_h0]

theorem stage_h1 : val_main_v18 (F := Ideal) a0 a1 a2 a7 a8 a9 a10 a11 a12 a13 a14 (ix3 g n j) = h1 𝐏 (𝐗 n) g j := by
  rw [val_main_v18_apply, val_main_v17_apply, dot_hid, bias_hid]
  rfl

theorem dot_last : val_main_v19 (F := Ideal) a0 a1 a2 a7 a8 a9 a10 a11 a12 a13 a14 a15 (ix3 g n j) = lin2 𝐏 (𝐗 n) g j := by
  rw [val_main_v19_apply]
  refine Finset.sum_congr rfl fun k _ => ?_
  rw [act_last, mat_last, stage_h1]
  rfl

theorem stage_mlp : val_main_v23 (F := Ideal) a0 a1 a2 a7 a8 a9 a10 a11 a12 a13 a14 a15 a16 (ix3 g n j) = mlp 𝐏 (𝐗 n) g j := by
  rw [val_main_v23_apply, val_main_v22_apply, dot_last, bias_last]
  rfl

theorem stage_pre : val_main_v35 (F := Ideal) a0 a1 a2 a3 a5 a7 a8 a9 a10 a11 a12 a13 a14 a15 a16 a17 a18 a19 a20 (ix3 g n j) = pre 𝐏 (𝐗 n) g j := by
  rw [val_main_v35_apply, val_main_v32_apply, val_main_v29_apply, val_main_v26_apply, stage_mlp, proj_hp, bias_hp, proj_k, bias_k]
  rfl

/-! ### One gate's slab

Gate g sliced out of the [5, 16384, 512] array and flattened to [16384, 512]: entry (n, j) is the pre-activation at
(g, n, j). The row-major position n * 512 + j splits back into n and j because j < 512 and n < 16384.
-/

theorem cut_0 : idx_main_v36 (ix3 (0 : Fin 1) n j) = ix3 (0 : Fin 5) n j := by
  funext a; match a with | ⟨0, _⟩ => rfl | ⟨1, _⟩ => rfl | ⟨2, _⟩ => rfl
theorem flat_0 : idx_main_v37 (ix2 n j) = ix3 (0 : Fin 1) n j := by
  funext a
  match a with
  | ⟨0, _⟩ => rfl
  | ⟨1, _⟩ => exact Fin.ext (by have hn := n.isLt; have hj := j.isLt; show (n.val * 512 + j.val) / 512 % 16384 = n.val; omega)
  | ⟨2, _⟩ => exact Fin.ext (by have hn := n.isLt; have hj := j.isLt; show (n.val * 512 + j.val) % 512 = j.val; omega)
theorem gate_pre_0 : val_main_v37 (F := Ideal) a0 a1 a2 a3 a5 a7 a8 a9 a10 a11 a12 a13 a14 a15 a16 a17 a18 a19 a20 (ix2 n j) = pre 𝐏 (𝐗 n) 0 j := by
  rw [val_main_v37_apply, flat_0, val_main_v36_apply, cut_0, stage_pre]

theorem cut_1 : idx_main_v44 (ix3 (0 : Fin 1) n j) = ix3 (1 : Fin 5) n j := by
  funext a; match a with | ⟨0, _⟩ => rfl | ⟨1, _⟩ => rfl | ⟨2, _⟩ => rfl
theorem flat_1 : idx_main_v45 (ix2 n j) = ix3 (0 : Fin 1) n j := by
  funext a
  match a with
  | ⟨0, _⟩ => rfl
  | ⟨1, _⟩ => exact Fin.ext (by have hn := n.isLt; have hj := j.isLt; show (n.val * 512 + j.val) / 512 % 16384 = n.val; omega)
  | ⟨2, _⟩ => exact Fin.ext (by have hn := n.isLt; have hj := j.isLt; show (n.val * 512 + j.val) % 512 = j.val; omega)
theorem gate_pre_1 : val_main_v45 (F := Ideal) a0 a1 a2 a3 a5 a7 a8 a9 a10 a11 a12 a13 a14 a15 a16 a17 a18 a19 a20 (ix2 n j) = pre 𝐏 (𝐗 n) 1 j := by
  rw [val_main_v45_apply, flat_1, val_main_v44_apply, cut_1, stage_pre]

theorem cut_2 : idx_main_v52 (ix3 (0 : Fin 1) n j) = ix3 (2 : Fin 5) n j := by
  funext a; match a with | ⟨0, _⟩ => rfl | ⟨1, _⟩ => rfl | ⟨2, _⟩ => rfl
theorem flat_2 : idx_main_v53 (ix2 n j) = ix3 (0 : Fin 1) n j := by
  funext a
  match a with
  | ⟨0, _⟩ => rfl
  | ⟨1, _⟩ => exact Fin.ext (by have hn := n.isLt; have hj := j.isLt; show (n.val * 512 + j.val) / 512 % 16384 = n.val; omega)
  | ⟨2, _⟩ => exact Fin.ext (by have hn := n.isLt; have hj := j.isLt; show (n.val * 512 + j.val) % 512 = j.val; omega)
theorem gate_pre_2 : val_main_v53 (F := Ideal) a0 a1 a2 a3 a5 a7 a8 a9 a10 a11 a12 a13 a14 a15 a16 a17 a18 a19 a20 (ix2 n j) = pre 𝐏 (𝐗 n) 2 j := by
  rw [val_main_v53_apply, flat_2, val_main_v52_apply, cut_2, stage_pre]

theorem cut_3 : idx_main_v60 (ix3 (0 : Fin 1) n j) = ix3 (3 : Fin 5) n j := by
  funext a; match a with | ⟨0, _⟩ => rfl | ⟨1, _⟩ => rfl | ⟨2, _⟩ => rfl
theorem flat_3 : idx_main_v61 (ix2 n j) = ix3 (0 : Fin 1) n j := by
  funext a
  match a with
  | ⟨0, _⟩ => rfl
  | ⟨1, _⟩ => exact Fin.ext (by have hn := n.isLt; have hj := j.isLt; show (n.val * 512 + j.val) / 512 % 16384 = n.val; omega)
  | ⟨2, _⟩ => exact Fin.ext (by have hn := n.isLt; have hj := j.isLt; show (n.val * 512 + j.val) % 512 = j.val; omega)
theorem gate_pre_3 : val_main_v61 (F := Ideal) a0 a1 a2 a3 a5 a7 a8 a9 a10 a11 a12 a13 a14 a15 a16 a17 a18 a19 a20 (ix2 n j) = pre 𝐏 (𝐗 n) 3 j := by
  rw [val_main_v61_apply, flat_3, val_main_v60_apply, cut_3, stage_pre]

theorem cut_4 : idx_main_v68 (ix3 (0 : Fin 1) n j) = ix3 (4 : Fin 5) n j := by
  funext a; match a with | ⟨0, _⟩ => rfl | ⟨1, _⟩ => rfl | ⟨2, _⟩ => rfl
theorem flat_4 : idx_main_v69 (ix2 n j) = ix3 (0 : Fin 1) n j := by
  funext a
  match a with
  | ⟨0, _⟩ => rfl
  | ⟨1, _⟩ => exact Fin.ext (by have hn := n.isLt; have hj := j.isLt; show (n.val * 512 + j.val) / 512 % 16384 = n.val; omega)
  | ⟨2, _⟩ => exact Fin.ext (by have hn := n.isLt; have hj := j.isLt; show (n.val * 512 + j.val) % 512 = j.val; omega)
theorem gate_pre_4 : val_main_v69 (F := Ideal) a0 a1 a2 a3 a5 a7 a8 a9 a10 a11 a12 a13 a14 a15 a16 a17 a18 a19 a20 (ix2 n j) = pre 𝐏 (𝐗 n) 4 j := by
  rw [val_main_v69_apply, flat_4, val_main_v68_apply, cut_4, stage_pre]

/-! ### The constant one

The scalar constant of bit pattern 0x3F800000, spread over [16384, 512], is the extended real 1 at every entry.
-/

theorem one_40 (i : S16384x512.Idx) : val_main_v40 (F := Ideal) i = (1 : EReal) := by
  rw [val_main_v40_apply, val_main_cst_apply, Ideal.ofBits_def, Ideal.ofBits_one_f32]

theorem one_42 (i : S16384x512.Idx) : val_main_v42 (F := Ideal) i = (1 : EReal) := by
  rw [val_main_v42_apply, val_main_cst_0_apply, Ideal.ofBits_def, Ideal.ofBits_one_f32]

theorem one_48 (i : S16384x512.Idx) : val_main_v48 (F := Ideal) i = (1 : EReal) := by
  rw [val_main_v48_apply, val_main_cst_1_apply, Ideal.ofBits_def, Ideal.ofBits_one_f32]

theorem one_50 (i : S16384x512.Idx) : val_main_v50 (F := Ideal) i = (1 : EReal) := by
  rw [val_main_v50_apply, val_main_cst_2_apply, Ideal.ofBits_def, Ideal.ofBits_one_f32]

theorem one_56 (i : S16384x512.Idx) : val_main_v56 (F := Ideal) i = (1 : EReal) := by
  rw [val_main_v56_apply, val_main_cst_3_apply, Ideal.ofBits_def, Ideal.ofBits_one_f32]

theorem one_58 (i : S16384x512.Idx) : val_main_v58 (F := Ideal) i = (1 : EReal) := by
  rw [val_main_v58_apply, val_main_cst_4_apply, Ideal.ofBits_def, Ideal.ofBits_one_f32]

theorem one_64 (i : S16384x512.Idx) : val_main_v64 (F := Ideal) i = (1 : EReal) := by
  rw [val_main_v64_apply, val_main_cst_5_apply, Ideal.ofBits_def, Ideal.ofBits_one_f32]

theorem one_66 (i : S16384x512.Idx) : val_main_v66 (F := Ideal) i = (1 : EReal) := by
  rw [val_main_v66_apply, val_main_cst_6_apply, Ideal.ofBits_def, Ideal.ofBits_one_f32]

/-! ### The gates

1 / (1 + exp (-x)) is the logistic function by definition; the update gate is the hyperbolic tangent.
-/

theorem gate_0 : val_main_v43 (F := Ideal) a0 a1 a2 a3 a5 a7 a8 a9 a10 a11 a12 a13 a14 a15 a16 a17 a18 a19 a20 (ix2 n j) = Ideal.logistic (pre 𝐏 (𝐗 n) 0 j) := by
  rw [val_main_v43_apply, val_main_v41_apply, val_main_v39_apply, val_main_v38_apply, gate_pre_0, one_42, one_40]
  rfl

theorem gate_1 : val_main_v51 (F := Ideal) a0 a1 a2 a3 a5 a7 a8 a9 a10 a11 a12 a13 a14 a15 a16 a17 a18 a19 a20 (ix2 n j) = Ideal.logistic (pre 𝐏 (𝐗 n) 1 j) := by
  rw [val_main_v51_apply, val_main_v49_apply, val_main_v47_apply, val_main_v46_apply, gate_pre_1, one_50, one_48]
  rfl

theorem gate_2 : val_main_v59 (F := Ideal) a0 a1 a2 a3 a5 a7 a8 a9 a10 a11 a12 a13 a14 a15 a16 a17 a18 a19 a20 (ix2 n j) = Ideal.logistic (pre 𝐏 (𝐗 n) 2 j) := by
  rw [val_main_v59_apply, val_main_v57_apply, val_main_v55_apply, val_main_v54_apply, gate_pre_2, one_58, one_56]
  rfl

theorem gate_3 : val_main_v67 (F := Ideal) a0 a1 a2 a3 a5 a7 a8 a9 a10 a11 a12 a13 a14 a15 a16 a17 a18 a19 a20 (ix2 n j) = Ideal.logistic (pre 𝐏 (𝐗 n) 3 j) := by
  rw [val_main_v67_apply, val_main_v65_apply, val_main_v63_apply, val_main_v62_apply, gate_pre_3, one_66, one_64]
  rfl

theorem gate_4 : val_main_v70 (F := Ideal) a0 a1 a2 a3 a5 a7 a8 a9 a10 a11 a12 a13 a14 a15 a16 a17 a18 a19 a20 (ix2 n j) = Ideal.tanh (pre 𝐏 (𝐗 n) 4 j) := by
  rw [val_main_v70_apply, gate_pre_4]
  rfl

/-! ### Cell and hidden state

The reference sums the input gate's term first and the specification sums it last: the two groupings are the same
extended real by commutativity and associativity of addition (`cell_comm`).
-/

theorem stage_cell : val_main_v75 (F := Ideal) a0 a1 a2 a3 a4 a5 a6 a7 a8 a9 a10 a11 a12 a13 a14 a15 a16 a17 a18 a19 a20 (ix2 n j) = cell 𝐏 (𝐗 n) j := by
  rw [val_main_v75_apply, val_main_v73_apply, val_main_v74_apply, val_main_v72_apply, val_main_v71_apply, gate_0, gate_1, gate_2, gate_4]
  exact (cell_comm (Ideal.logistic (pre 𝐏 (𝐗 n) 1 j) * a4 (ix2 n j)) (Ideal.logistic (pre 𝐏 (𝐗 n) 2 j) * a6 (ix2 n j))
    (Ideal.logistic (pre 𝐏 (𝐗 n) 0 j) * Ideal.tanh (pre 𝐏 (𝐗 n) 4 j))).symm

theorem stage_hid : val_main_v77 (F := Ideal) a0 a1 a2 a3 a4 a5 a6 a7 a8 a9 a10 a11 a12 a13 a14 a15 a16 a17 a18 a19 a20 (ix2 n j) = hid 𝐏 (𝐗 n) j := by
  rw [val_main_v77_apply, val_main_v76_apply, stage_cell, gate_3]
  rfl

end Stages

/-- The reference's first result (the run's `main_v77`) is the hidden states. -/
theorem ref_h (a0 : FVec Ideal S16384x300 .f32) (a1 a2 : FVec Ideal S16384x50 .f32) (a3 a4 a5 a6 : FVec Ideal S16384x512 .f32)
    (a7 : FVec Ideal S5x512x300 .f32) (a8 : FVec Ideal S5x512 .f32) (a9 : FVec Ideal S5x512x50 .f32) (a10 : FVec Ideal S5x512 .f32)
    (a11 : FVec Ideal S5x512x50 .f32) (a12 : FVec Ideal S5x512 .f32) (a13 : FVec Ideal S5x512x512 .f32) (a14 : FVec Ideal S5x512 .f32)
    (a15 : FVec Ideal S5x512x512 .f32) (a16 : FVec Ideal S5x512 .f32) (a17 : FVec Ideal S5x512x512 .f32) (a18 : FVec Ideal S5x512 .f32)
    (a19 : FVec Ideal S5x512x512 .f32) (a20 : FVec Ideal S5x512 .f32) :
    val_main_v77 (F := Ideal) a0 a1 a2 a3 a4 a5 a6 a7 a8 a9 a10 a11 a12 a13 a14 a15 a16 a17 a18 a19 a20 = Gh a0 a1 a2 a3 a4 a5 a6 a7 a8 a9 a10 a11 a12 a13 a14 a15 a16 a17 a18 a19 a20 := by
  funext i
  obtain ⟨n, j, rfl⟩ : ∃ (n : Fin 16384) (j : Fin 512), i = ix2 n j := ⟨i 0, i 1, eq_ix2 i⟩
  exact stage_hid a0 a1 a2 a3 a4 a5 a6 a7 a8 a9 a10 a11 a12 a13 a14 a15 a16 a17 a18 a19 a20 n j

/-- The reference's second result (the run's `main_v75`) is the cell states. -/
theorem ref_c (a0 : FVec Ideal S16384x300 .f32) (a1 a2 : FVec Ideal S16384x50 .f32) (a3 a4 a5 a6 : FVec Ideal S16384x512 .f32)
    (a7 : FVec Ideal S5x512x300 .f32) (a8 : FVec Ideal S5x512 .f32) (a9 : FVec Ideal S5x512x50 .f32) (a10 : FVec Ideal S5x512 .f32)
    (a11 : FVec Ideal S5x512x50 .f32) (a12 : FVec Ideal S5x512 .f32) (a13 : FVec Ideal S5x512x512 .f32) (a14 : FVec Ideal S5x512 .f32)
    (a15 : FVec Ideal S5x512x512 .f32) (a16 : FVec Ideal S5x512 .f32) (a17 : FVec Ideal S5x512x512 .f32) (a18 : FVec Ideal S5x512 .f32)
    (a19 : FVec Ideal S5x512x512 .f32) (a20 : FVec Ideal S5x512 .f32) :
    val_main_v75 (F := Ideal) a0 a1 a2 a3 a4 a5 a6 a7 a8 a9 a10 a11 a12 a13 a14 a15 a16 a17 a18 a19 a20 = Gc a0 a1 a2 a3 a4 a5 a6 a7 a8 a9 a10 a11 a12 a13 a14 a15 a16 a17 a18 a19 a20 := by
  funext i
  obtain ⟨n, j, rfl⟩ : ∃ (n : Fin 16384) (j : Fin 512), i = ix2 n j := ⟨i 0, i 1, eq_ix2 i⟩
  exact stage_cell a0 a1 a2 a3 a4 a5 a6 a7 a8 a9 a10 a11 a12 a13 a14 a15 a16 a17 a18 a19 a20 n j

end Cert.ReferenceIdeal.RefValue

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibTile.lean ====
/-
  A kernel that keeps a stack of G matrices [G, K, N] resident and works on one of them at a time reads the slab
  [1, K, N] at offset (g, 0, 0), drops its unit axis and multiplies a row block [R, K] by it into a zero accumulator;
  a stack of G bias rows [G, N] is read one row [1, N] at a time, cast to a vector and back, and spread over the R rows.
  Read at an entry (general in every extent and, for the layout facts, in the element type):
    the slab load at (0, b, c) is the stack at (g, b, c)                       (`ld_slab`);
    the row load at (0, c) is the stack of rows at (g, c)                      (`ld_row`);
    the spread bias at (p, q) is the row's entry (0, q)                        (`bias_apply`);
    the product at (p, q) is the sum over k of l (p, k) * slab (0, k, q)       (`mm_slab_apply`), at the ideal values.
-/
import Idealize.ShloMosaic.Lib.Pipeline.Value
import Idealize.ShloMosaic.Lib.ValueIdx
import Idealize.ShloMosaic.Lib.ValueLayout
import Idealize.ShloMosaic.PureOps.Ideal.Laws
import proofs.«147965_j38689065402503_1_alg».proof.Proof.LibPlainDot

noncomputable section

open scoped BigOperators

namespace Cert.Lib.Tile

open Idealize.ShloMosaic Idealize.ShloMosaic.ValueIdx

variable {α : Type} {Val : EltTy → Type} {e : EltTy}

/-- One matrix of a stack: the box [1, B, C] at offset (g, 0, 0), read at (0, b, c), is the stack at (g, b, c). -/
theorem ld_slab {A B C : ℕ} (X : (⟨3, ![A, B, C]⟩ : Shape).Idx → Val e) (g : Fin A) {off : Fin 3 → ℕ}
    (hoff : off = ![g.val, 0, 0])
    (inb : ∀ a, off a + (⟨3, ![1, B, C]⟩ : Shape).size a ≤ (⟨3, ![A, B, C]⟩ : Shape).size a)
    (b : Fin B) (c : Fin C) :
    View.ld X (Rect.unit (s := ⟨3, ![A, B, C]⟩) off (⟨3, ![1, B, C]⟩ : Shape).size inb) (ix3 (0 : Fin 1) b c)
      = X (ix3 g b c) := by
  subst hoff
  show X _ = X _
  congr 1; funext a; apply Fin.ext
  match a with
  | ⟨0, _⟩ => show g.val + 1 * 0 = g.val; omega
  | ⟨1, _⟩ => show 0 + 1 * b.val = b.val; omega
  | ⟨2, _⟩ => show 0 + 1 * c.val = c.val; omega

/-- One row of a stack of rows: the box [1, C] at offset (g, 0), read at (0, c), is the stack at (g, c). -/
theorem ld_row {A C : ℕ} (X : (⟨2, ![A, C]⟩ : Shape).Idx → Val e) (g : Fin A) {off : Fin 2 → ℕ}
    (hoff : off = ![g.val, 0])
    (inb : ∀ a, off a + (⟨2, ![1, C]⟩ : Shape).size a ≤ (⟨2, ![A, C]⟩ : Shape).size a) (c : Fin C) :
    View.ld X (Rect.unit (s := ⟨2, ![A, C]⟩) off (⟨2, ![1, C]⟩ : Shape).size inb) (ix2 (0 : Fin 1) c)
      = X (ix2 g c) := by
  subst hoff
  show X _ = X _
  congr 1; funext a; apply Fin.ext
  match a with
  | ⟨0, _⟩ => show g.val + 1 * 0 = g.val; omega
  | ⟨1, _⟩ => show 0 + 1 * c.val = c.val; omega

/-- A bias row [1, n], cast to the vector [n], back to [1, n] and spread over m rows: the entry (p, q) is the row's
    entry (0, q). -/
theorem bias_apply {m n : ℕ} (v : (⟨2, ![1, n]⟩ : Shape).Idx → α)
    (h1 : (⟨2, ![1, n]⟩ : Shape).ShapeCasts ⟨1, ![n]⟩) (h2 : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ (shapeCast ⟨1, ![n]⟩ v h1) h2) hb (ix2 p q) = v (ix2 (0 : Fin 1) q) :=
  (broadcastTo_1b_ab_apply _ hb p q).trans
    ((shapeCast_a_1a_apply _ h2 (0 : Fin 1) q).trans (shapeCast_1a_a_apply v h1 q))

/-- A row block times one matrix of a stack, into the zero accumulator, at the ideal values: the entry (p, q) is the
    sum over k of the block at (p, k) times the slab at (0, k, q). -/
theorem mm_slab_apply {R K N : ℕ} {φ₁ φ₂ : FTy}
    {d : DotDims (⟨2, ![R, K]⟩ : Shape) (⟨2, ![K, N]⟩ : Shape) (⟨2, ![R, N]⟩ : Shape)} (hd : PlainDot.IsPlain d)
    (prec : Option ContractPrecision) (l : FVec Ideal (⟨2, ![R, K]⟩ : Shape) φ₁)
    (v : FVec Ideal (⟨3, ![1, K, N]⟩ : Shape) φ₂) (h : (⟨3, ![1, K, N]⟩ : Shape).ShapeCasts ⟨2, ![K, N]⟩)
    (p : Fin R) (q : Fin N) :
    FloatOps.matmul d prec l (shapeCast (⟨2, ![K, N]⟩ : Shape) v h) (constant (⟨2, ![R, N]⟩ : Shape) .f32 0x00000000#32) (ix2 p q)
      = ∑ k : Fin K, l (ix2 p k) * v (ix3 (0 : Fin 1) k q) := by
  refine (Ideal.matmul_constant_zero_apply d prec l _ (ix2 p q)).trans ?_
  refine (PlainDot.sum_contr hd (fun i => l i) (fun i => shapeCast (⟨2, ![K, N]⟩ : Shape) v h i) p q).trans ?_
  exact Finset.sum_congr rfl fun k _ => congrArg (l (ix2 p k) * ·) (shapeCast_1ab_ab_apply v h k q)

end Cert.Lib.Tile

end
-- ==== Proof.KLib.lean ====
/-
  The tree-LSTM kernel's building blocks at its own shapes, at the ideal values, read at an entry.

  The body works on a block of 512 nodes. For gate g it loads matrix g of each resident weight stack ([5, K, 512]; the
  rectangles r0_3 … r0_22 are these slabs and the bias rows, gate by gate) and multiplies a [512, K] block by it; it
  loads row g of a bias stack [5, 512] and spreads it over the 512 rows. So:
    a product's entry (p, q) is the sum over k of the left block at (p, k) times the slab at (0, k, q)   (`mm300`, `mm50`, `mm512`);
    a product by an already unpacked matrix is the same sum over that matrix                              (`mmPlain512`);
    the spread bias at (p, q) is the row's entry (0, q)                                                    (`bias`, `biasVec`);
    the loads through r0_3 … r0_22 read the stack at the gate's index; those through r0_0, r0_1, r0_2 read everything.
  A change of float format is the identity on extended reals, and tanh and the logistic function act entry by entry.
-/
import proofs.«147965_j38689065402503_1_alg».proof.Proof.Gen.KernelIdeal.Frame
import proofs.«147965_j38689065402503_1_alg».proof.Proof.LibTile
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Blk

open Cert.KernelIdeal Cert.KernelIdeal.Gen Idealize.ShloMosaic Idealize.ShloMosaic.ValueIdx

/-! ## The three products' dimension numbers are the plain ones -/

theorem plain300 : PlainDot.IsPlain dot_S512x300_S300x512_S512x512_1_0_0_1_n_n := ⟨rfl, rfl, rfl, rfl, rfl, rfl⟩
theorem plain50 : PlainDot.IsPlain dot_S512x50_S50x512_S512x512_1_0_0_1_n_n := ⟨rfl, rfl, rfl, rfl, rfl, rfl⟩
theorem plain512 : PlainDot.IsPlain dot_S512x512_S512x512_S512x512_1_0_0_1_n_n := ⟨rfl, rfl, rfl, rfl, rfl, rfl⟩

/-! ## Entry-by-entry operations -/

theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-! ## Products -/

/-- The word projection: [512, 300] block times the gate's [300, 512] matrix. -/
theorem mm300 (l : FVec Ideal S512x300 .bf16) (v : FVec Ideal S1x300x512 .bf16) (p q : Fin 512) :
    matmul dot_S512x300_S300x512_S512x512_1_0_0_1_n_n none l (shapeCast S300x512 v shapeCasts_S1x300x512_S300x512)
      (constant S512x512 .f32 0x00000000#32) (ix2 p q) = ∑ k : Fin 300, l (ix2 p k) * v (ix3 (0 : Fin 1) k q) :=
  Cert.Lib.Tile.mm_slab_apply plain300 none l v _ p q

/-- The tag and relation projections: [512, 50] block times the gate's [50, 512] matrix. -/
theorem mm50 (l : FVec Ideal S512x50 .bf16) (v : FVec Ideal S1x50x512 .bf16) (p q : Fin 512) :
    matmul dot_S512x50_S50x512_S512x512_1_0_0_1_n_n none l (shapeCast S50x512 v shapeCasts_S1x50x512_S50x512)
      (constant S512x512 .f32 0x00000000#32) (ix2 p q) = ∑ k : Fin 50, l (ix2 p k) * v (ix3 (0 : Fin 1) k q) :=
  Cert.Lib.Tile.mm_slab_apply plain50 none l v _ p q

/-- The 512-wide projections: [512, 512] block times the gate's [512, 512] matrix. -/
theorem mm512 (l : FVec Ideal S512x512 .bf16) (v : FVec Ideal S1x512x512 .bf16) (p q : Fin 512) :
    matmul dot_S512x512_S512x512_S512x512_1_0_0_1_n_n none l (shapeCast S512x512 v shapeCasts_S1x512x512_S512x512)
      (constant S512x512 .f32 0x00000000#32) (ix2 p q) = ∑ k : Fin 512, l (ix2 p k) * v (ix3 (0 : Fin 1) k q) :=
  Cert.Lib.Tile.mm_slab_apply plain512 none l v _ p q

/-- The same product when the gate's matrix was unpacked beforehand. -/
theorem mmPlain512 (l : FVec Ideal S512x512 .bf16) (r : FVec Ideal S512x512 .bf16) (p q : Fin 512) :
    matmul dot_S512x512_S512x512_S512x512_1_0_0_1_n_n none l r (constant S512x512 .f32 0x00000000#32) (ix2 p q)
      = ∑ k : Fin 512, l (ix2 p k) * r (ix2 k q) :=
  (Ideal.matmul_constant_zero_apply _ none l r (ix2 p q)).trans (PlainDot.sum_contr plain512 (fun i => l i) (fun i => r i) p q)

/-- Unpacking the gate's [512, 512] matrix from its slab. -/
theorem unpack512 (v : FVec Ideal S1x512x512 .bf16) (k q : Fin 512) :
    shapeCast S512x512 v shapeCasts_S1x512x512_S512x512 (ix2 k q) = v (ix3 (0 : Fin 1) k q) :=
  shapeCast_1ab_ab_apply v _ k q

/-! ## Biases -/

/-- A bias row spread over the block's rows. -/
theorem bias (v : FVec Ideal S1x512 .f32) (p q : Fin 512) :
    broadcastTo S512x512 (shapeCast S1x512 (shapeCast S512 v shapeCasts_S1x512_S512) shapeCasts_S512_S1x512)
      broadcasts_S1x512_S512x512 (ix2 p q) = v (ix2 (0 : Fin 1) q) :=
  Cert.Lib.Tile.bias_apply v _ _ _ p q

/-- The bias row as a vector. -/
theorem rowVec (v : FVec Ideal S1x512 .f32) (q : Fin 512) :
    shapeCast S512 v shapeCasts_S1x512_S512 (ix1 q) = v (ix2 (0 : Fin 1) q) :=
  shapeCast_1a_a_apply v _ q

/-- A bias vector spread over the block's rows. -/
theorem biasVec (v : FVec Ideal S512 .f32) (p q : Fin 512) :
    broadcastTo S512x512 (shapeCast S1x512 v shapeCasts_S512_S1x512) broadcasts_S1x512_S512x512 (ix2 p q) = v (ix1 q) :=
  (broadcastTo_1b_ab_apply _ _ p q).trans (shapeCast_a_1a_apply v _ (0 : Fin 1) q)

/-! ## Loads -/

theorem zeros2 : (![0, 0] : Fin 2 → ℕ) = fun _ => 0 := by
  funext a; match a with | ⟨0, _⟩ => rfl | ⟨1, _⟩ => rfl

/-- The node blocks are loaded whole. -/
theorem ld_r0_0 (x : FVec Ideal S512x300 .f32) : View.ld (Val := Elt Ideal) (e' := .f32) x r0_0 = x := View.ld_unit_zero (Val := Elt Ideal) (S := S512x300) (e := .f32) zeros2 _ x
theorem ld_r0_1 (x : FVec Ideal S512x50 .f32) : View.ld (Val := Elt Ideal) (e' := .f32) x r0_1 = x := View.ld_unit_zero (Val := Elt Ideal) (S := S512x50) (e := .f32) zeros2 _ x
theorem ld_r0_2 (x : FVec Ideal S512x512 .f32) : View.ld (Val := Elt Ideal) (e' := .f32) x r0_2 = x := View.ld_unit_zero (Val := Elt Ideal) (S := S512x512) (e := .f32) zeros2 _ x

/-- Gate 0's matrices and bias rows. -/
theorem ld_r0_3 (x : FVec Ideal S5x300x512 .bf16) (k : Fin 300) (q : Fin 512) :
    View.ld (Val := Elt Ideal) (e' := .bf16) x r0_3 (ix3 (0 : Fin 1) k q) = x (ix3 (0 : Fin 5) k q) := Cert.Lib.Tile.ld_slab (Val := Elt Ideal) (e := .bf16) x 0 rfl _ k q
theorem ld_r0_4 (x : FVec Ideal S5x50x512 .bf16) (k : Fin 50) (q : Fin 512) :
    View.ld (Val := Elt Ideal) (e' := .bf16) x r0_4 (ix3 (0 : Fin 1) k q) = x (ix3 (0 : Fin 5) k q) := Cert.Lib.Tile.ld_slab (Val := Elt Ideal) (e := .bf16) x 0 rfl _ k q
theorem ld_r0_5 (x : FVec Ideal S5x512 .f32) (q : Fin 512) :
    View.ld (Val := Elt Ideal) (e' := .f32) x r0_5 (ix2 (0 : Fin 1) q) = x (ix2 (0 : Fin 5) q) := Cert.Lib.Tile.ld_row (Val := Elt Ideal) (e := .f32) x 0 rfl _ q
theorem ld_r0_6 (x : FVec Ideal S5x512x512 .bf16) (k : Fin 512) (q : Fin 512) :
    View.ld (Val := Elt Ideal) (e' := .bf16) x r0_6 (ix3 (0 : Fin 1) k q) = x (ix3 (0 : Fin 5) k q) := Cert.Lib.Tile.ld_slab (Val := Elt Ideal) (e := .bf16) x 0 rfl _ k q

/-- Gate 1's. -/
theorem ld_r0_7 (x : FVec Ideal S5x300x512 .bf16) (k : Fin 300) (q : Fin 512) :
    View.ld (Val := Elt Ideal) (e' := .bf16) x r0_7 (ix3 (0 : Fin 1) k q) = x (ix3 (1 : Fin 5) k q) := Cert.Lib.Tile.ld_slab (Val := Elt Ideal) (e := .bf16) x 1 rfl _ k q
theorem ld_r0_8 (x : FVec Ideal S5x50x512 .bf16) (k : Fin 50) (q : Fin 512) :
    View.ld (Val := Elt Ideal) (e' := .bf16) x r0_8 (ix3 (0 : Fin 1) k q) = x (ix3 (1 : Fin 5) k q) := Cert.Lib.Tile.ld_slab (Val := Elt Ideal) (e := .bf16) x 1 rfl _ k q
theorem ld_r0_9 (x : FVec Ideal S5x512 .f32) (q : Fin 512) :
    View.ld (Val := Elt Ideal) (e' := .f32) x r0_9 (ix2 (0 : Fin 1) q) = x (ix2 (1 : Fin 5) q) := Cert.Lib.Tile.ld_row (Val := Elt Ideal) (e := .f32) x 1 rfl _ q
theorem ld_r0_10 (x : FVec Ideal S5x512x512 .bf16) (k : Fin 512) (q : Fin 512) :
    View.ld (Val := Elt Ideal) (e' := .bf16) x r0_10 (ix3 (0 : Fin 1) k q) = x (ix3 (1 : Fin 5) k q) := Cert.Lib.Tile.ld_slab (Val := Elt Ideal) (e := .bf16) x 1 rfl _ k q

/-- Gate 2's. -/
theorem ld_r0_11 (x : FVec Ideal S5x300x512 .bf16) (k : Fin 300) (q : Fin 512) :
    View.ld (Val := Elt Ideal) (e' := .bf16) x r0_11 (ix3 (0 : Fin 1) k q) = x (ix3 (2 : Fin 5) k q) := Cert.Lib.Tile.ld_slab (Val := Elt Ideal) (e := .bf16) x 2 rfl _ k q
theorem ld_r0_12 (x : FVec Ideal S5x50x512 .bf16) (k : Fin 50) (q : Fin 512) :
    View.ld (Val := Elt Ideal) (e' := .bf16) x r0_12 (ix3 (0 : Fin 1) k q) = x (ix3 (2 : Fin 5) k q) := Cert.Lib.Tile.ld_slab (Val := Elt Ideal) (e := .bf16) x 2 rfl _ k q
theorem ld_r0_13 (x : FVec Ideal S5x512 .f32) (q : Fin 512) :
    View.ld (Val := Elt Ideal) (e' := .f32) x r0_13 (ix2 (0 : Fin 1) q) = x (ix2 (2 : Fin 5) q) := Cert.Lib.Tile.ld_row (Val := Elt Ideal) (e := .f32) x 2 rfl _ q
theorem ld_r0_14 (x : FVec Ideal S5x512x512 .bf16) (k : Fin 512) (q : Fin 512) :
    View.ld (Val := Elt Ideal) (e' := .bf16) x r0_14 (ix3 (0 : Fin 1) k q) = x (ix3 (2 : Fin 5) k q) := Cert.Lib.Tile.ld_slab (Val := Elt Ideal) (e := .bf16) x 2 rfl _ k q

/-- Gate 3's. -/
theorem ld_r0_15 (x : FVec Ideal S5x300x512 .bf16) (k : Fin 300) (q : Fin 512) :
    View.ld (Val := Elt Ideal) (e' := .bf16) x r0_15 (ix3 (0 : Fin 1) k q) = x (ix3 (3 : Fin 5) k q) := Cert.Lib.Tile.ld_slab (Val := Elt Ideal) (e := .bf16) x 3 rfl _ k q
theorem ld_r0_16 (x : FVec Ideal S5x50x512 .bf16) (k : Fin 50) (q : Fin 512) :
    View.ld (Val := Elt Ideal) (e' := .bf16) x r0_16 (ix3 (0 : Fin 1) k q) = x (ix3 (3 : Fin 5) k q) := Cert.Lib.Tile.ld_slab (Val := Elt Ideal) (e := .bf16) x 3 rfl _ k q
theorem ld_r0_17 (x : FVec Ideal S5x512 .f32) (q : Fin 512) :
    View.ld (Val := Elt Ideal) (e' := .f32) x r0_17 (ix2 (0 : Fin 1) q) = x (ix2 (3 : Fin 5) q) := Cert.Lib.Tile.ld_row (Val := Elt Ideal) (e := .f32) x 3 rfl _ q
theorem ld_r0_18 (x : FVec Ideal S5x512x512 .bf16) (k : Fin 512) (q : Fin 512) :
    View.ld (Val := Elt Ideal) (e' := .bf16) x r0_18 (ix3 (0 : Fin 1) k q) = x (ix3 (3 : Fin 5) k q) := Cert.Lib.Tile.ld_slab (Val := Elt Ideal) (e := .bf16) x 3 rfl _ k q

/-- Gate 4's. -/
theorem ld_r0_19 (x : FVec Ideal S5x300x512 .bf16) (k : Fin 300) (q : Fin 512) :
    View.ld (Val := Elt Ideal) (e' := .bf16) x r0_19 (ix3 (0 : Fin 1) k q) = x (ix3 (4 : Fin 5) k q) := Cert.Lib.Tile.ld_slab (Val := Elt Ideal) (e := .bf16) x 4 rfl _ k q
theorem ld_r0_20 (x : FVec Ideal S5x50x512 .bf16) (k : Fin 50) (q : Fin 512) :
    View.ld (Val := Elt Ideal) (e' := .bf16) x r0_20 (ix3 (0 : Fin 1) k q) = x (ix3 (4 : Fin 5) k q) := Cert.Lib.Tile.ld_slab (Val := Elt Ideal) (e := .bf16) x 4 rfl _ k q
theorem ld_r0_21 (x : FVec Ideal S5x512 .f32) (q : Fin 512) :
    View.ld (Val := Elt Ideal) (e' := .f32) x r0_21 (ix2 (0 : Fin 1) q) = x (ix2 (4 : Fin 5) q) := Cert.Lib.Tile.ld_row (Val := Elt Ideal) (e := .f32) x 4 rfl _ q
theorem ld_r0_22 (x : FVec Ideal S5x512x512 .bf16) (k : Fin 512) (q : Fin 512) :
    View.ld (Val := Elt Ideal) (e' := .bf16) x r0_22 (ix3 (0 : Fin 1) k q) = x (ix3 (4 : Fin 5) k q) := Cert.Lib.Tile.ld_slab (Val := Elt Ideal) (e := .bf16) x 4 rfl _ k q

end Cert.KernelIdeal.Blk

end
-- ==== Proof.PayA.lean ====
/-
  The kernel body's intermediate values, part one: the format changes, gate 0's whole pre-activation, gate 1 up to the
  down-forget term, and gate 2 up to the previous-hidden-state bias.

  The body is one straight line of 513 operations, named in consecutive stretches cut by count, so a named value ends
  wherever the count falls, not at a gate's end. Each lemma below reads one named value at row p, column j of the
  block, given what its inputs hold there: if the node blocks' row p is the node X, the slabs are gate g's matrices of
  the parameters P (transposed: slab (0, in, out) = W g out in), the bias rows gate g's biases, and an earlier named value
  is a layer of the specification at row p, then this value is the next layer: the first layer h0, the hidden layer h1,
  the last layer's projection lin2, the input projections' sum lin0, the partial pre-activations preA and preB, the
  pre-activation pre. A matrix product contributes the sum over its contracted index, a spread bias its entry, tanh and
  the logistic function act entry by entry, and a change of float format is the identity on extended reals.
-/
import proofs.«147965_j38689065402503_1_alg».proof.Proof.Gen.KernelIdeal.Frame
import proofs.«147965_j38689065402503_1_alg».proof.Proof.Spec
import proofs.«147965_j38689065402503_1_alg».proof.Proof.KLib

noncomputable section

open scoped BigOperators

namespace Cert.KernelIdeal.Blk

open Cert.KernelIdeal Cert.KernelIdeal.Gen Idealize.ShloMosaic Idealize.ShloMosaic.ValueIdx Cert.TreeLstm

variable (P : Params) (X : Node) (p : Fin 512)

/-! ## Values that only change the float format, apply one function, or re-lay a slab -/

theorem pay3_apply (v : FVec Ideal S512x300 .f32) (i : S512x300.Idx) : k0_pay3 (F := Ideal) v i = v i := rfl
theorem pay4_apply (v : FVec Ideal S512x50 .f32) (i : S512x50.Idx) : k0_pay4 (F := Ideal) v i = v i := rfl
theorem pay5_apply (v : FVec Ideal S512x50 .f32) (i : S512x50.Idx) : k0_pay5 (F := Ideal) v i = v i := rfl
theorem pay6_apply (v : FVec Ideal S512x512 .f32) (i : S512x512.Idx) : k0_pay6 (F := Ideal) v i = v i := rfl
theorem pay7_apply (v : FVec Ideal S512x512 .f32) (i : S512x512.Idx) : k0_pay7 (F := Ideal) v i = v i := rfl
theorem pay10_apply (v : FVec Ideal S512x512 .f32) (i : S512x512.Idx) :
    k0_pay10 (F := Ideal) v i = Ideal.logistic (v i) := rfl
theorem pay12_apply (v : FVec Ideal S1x512 .f32) (q : Fin 512) :
    k0_pay12 (F := Ideal) v (ix1 q) = v (ix2 (0 : Fin 1) q) := rowVec v q
theorem pay16_apply (v : FVec Ideal S1x512x512 .bf16) (k q : Fin 512) :
    k0_pay16 (F := Ideal) v (ix2 k q) = v (ix3 (0 : Fin 1) k q) := unpack512 v k q

/-! ## Gate 0 -/

/-- The first layer (word, tag and relation projections, the bias, tanh). -/
theorem pay8_spec (g : Fin 5) (v0 : FVec Ideal S512x300 .f32) (v2 : FVec Ideal S512x50 .f32) (v4 : FVec Ideal S512x50 .f32)
    (v12 : FVec Ideal S1x300x512 .bf16) (v15 : FVec Ideal S1x50x512 .bf16) (v18 : FVec Ideal S1x50x512 .bf16) (v23 : FVec Ideal S1x512 .f32)
    (hw : ∀ i, v0 (ix2 p i) = X.word i) (ht : ∀ i, v2 (ix2 p i) = X.tag i) (hr : ∀ i, v4 (ix2 p i) = X.rel i)
    (hWw : ∀ k j, v12 (ix3 (0 : Fin 1) k j) = P.Ww g j k) (hWt : ∀ k j, v15 (ix3 (0 : Fin 1) k j) = P.Wt g j k) (hWr : ∀ k j, v18 (ix3 (0 : Fin 1) k j) = P.Wr g j k) (hbi : ∀ j, v23 (ix2 (0 : Fin 1) j) = P.bi g j) (j : Fin 512) :
    k0_pay8 (F := Ideal) v0 v2 v4 v12 v15 v18 v23 (ix2 p j) = h0 P X g j := by
  unfold k0_pay8 k0_pay3 k0_pay4 k0_pay5 h0 lin0
  simp only [truncf_apply, tanh_apply, logistic_apply, addf_apply, mulf_apply, mm300, mm50, mm512, mmPlain512, unpack512, bias, biasVec, rowVec, hw, ht, hr, hWw, hWt, hWr, hbi]

/-- From the first layer to the pre-activation. -/
theorem pay9_spec (g : Fin 5) (v7 : FVec Ideal S512x512 .bf16) (v9 : FVec Ideal S512x512 .bf16) (v29 : FVec Ideal S512x512 .bf16)
    (v30 : FVec Ideal S1x512x512 .bf16) (v33 : FVec Ideal S1x512 .f32) (v40 : FVec Ideal S1x512x512 .bf16) (v43 : FVec Ideal S1x512 .f32)
    (v49 : FVec Ideal S1x512x512 .bf16) (v53 : FVec Ideal S1x512 .f32) (v58 : FVec Ideal S1x512x512 .bf16) (v62 : FVec Ideal S1x512 .f32)
    (hk : ∀ i, v7 (ix2 p i) = X.k i) (hhp : ∀ i, v9 (ix2 p i) = X.hp i) (h29 : ∀ i, v29 (ix2 p i) = h0 P X g i)
    (hWh : ∀ k j, v30 (ix3 (0 : Fin 1) k j) = P.Wh g j k) (hbh : ∀ j, v33 (ix2 (0 : Fin 1) j) = P.bh g j) (hWl : ∀ k j, v40 (ix3 (0 : Fin 1) k j) = P.Wl g j k) (hbl : ∀ j, v43 (ix2 (0 : Fin 1) j) = P.bl g j)
    (hWp : ∀ k j, v49 (ix3 (0 : Fin 1) k j) = P.Wp g j k) (hbp : ∀ j, v53 (ix2 (0 : Fin 1) j) = P.bp g j) (hWk : ∀ k j, v58 (ix3 (0 : Fin 1) k j) = P.Wk g j k) (hbk : ∀ j, v62 (ix2 (0 : Fin 1) j) = P.bk g j) (j : Fin 512) :
    k0_pay9 (F := Ideal) v7 v9 v29 v30 v33 v40 v43 v49 v53 v58 v62 (ix2 p j) = pre P X g j := by
  unfold k0_pay9 pre preB preA mlp lin2 h1
  simp only [truncf_apply, tanh_apply, logistic_apply, addf_apply, mulf_apply, mm300, mm50, mm512, mmPlain512, unpack512, bias, biasVec, rowVec, hk, hhp, h29, hWh, hbh, hWl, hbl, hWp, hbp, hWk, hbk]

/-! ## Gate 1 -/

/-- The first two layers and the last layer's projection. -/
theorem pay11_spec (g : Fin 5) (v1 : FVec Ideal S512x300 .bf16) (v3 : FVec Ideal S512x50 .bf16) (v5 : FVec Ideal S512x50 .bf16)
    (v68 : FVec Ideal S1x300x512 .bf16) (v71 : FVec Ideal S1x50x512 .bf16) (v74 : FVec Ideal S1x50x512 .bf16) (v79 : FVec Ideal S1x512 .f32)
    (v86 : FVec Ideal S1x512x512 .bf16) (v89 : FVec Ideal S1x512 .f32) (v96 : FVec Ideal S1x512x512 .bf16)
    (hw : ∀ i, v1 (ix2 p i) = X.word i) (ht : ∀ i, v3 (ix2 p i) = X.tag i) (hr : ∀ i, v5 (ix2 p i) = X.rel i)
    (hWw : ∀ k j, v68 (ix3 (0 : Fin 1) k j) = P.Ww g j k) (hWt : ∀ k j, v71 (ix3 (0 : Fin 1) k j) = P.Wt g j k) (hWr : ∀ k j, v74 (ix3 (0 : Fin 1) k j) = P.Wr g j k) (hbi : ∀ j, v79 (ix2 (0 : Fin 1) j) = P.bi g j)
    (hWh : ∀ k j, v86 (ix3 (0 : Fin 1) k j) = P.Wh g j k) (hbh : ∀ j, v89 (ix2 (0 : Fin 1) j) = P.bh g j) (hWl : ∀ k j, v96 (ix3 (0 : Fin 1) k j) = P.Wl g j k) (j : Fin 512) :
    k0_pay11 (F := Ideal) v1 v3 v5 v68 v71 v74 v79 v86 v89 v96 (ix2 p j) = lin2 P X g j := by
  unfold k0_pay11 lin2 h1 h0 lin0
  simp only [truncf_apply, tanh_apply, logistic_apply, addf_apply, mulf_apply, mm300, mm50, mm512, mmPlain512, unpack512, bias, biasVec, rowVec, hw, ht, hr, hWw, hWt, hWr, hbi, hWh, hbh, hWl]

/-- From the last layer's projection to the gate times the node's q. -/
theorem pay13_spec (g : Fin 5) (v7 : FVec Ideal S512x512 .bf16) (v9 : FVec Ideal S512x512 .bf16) (v10 : FVec Ideal S512x512 .f32) (v98 : FVec Ideal S512x512 .f32) (v100 : FVec Ideal S512 .f32)
    (v105 : FVec Ideal S1x512x512 .bf16) (v109 : FVec Ideal S1x512 .f32) (v114 : FVec Ideal S1x512x512 .bf16) (v118 : FVec Ideal S1x512 .f32)
    (hk : ∀ i, v7 (ix2 p i) = X.k i) (hhp : ∀ i, v9 (ix2 p i) = X.hp i) (hq : ∀ i, v10 (ix2 p i) = X.q i) (h98 : ∀ i, v98 (ix2 p i) = lin2 P X g i)
    (h100 : ∀ j, v100 (ix1 j) = P.bl g j)
    (hWp : ∀ k j, v105 (ix3 (0 : Fin 1) k j) = P.Wp g j k) (hbp : ∀ j, v109 (ix2 (0 : Fin 1) j) = P.bp g j) (hWk : ∀ k j, v114 (ix3 (0 : Fin 1) k j) = P.Wk g j k) (hbk : ∀ j, v118 (ix2 (0 : Fin 1) j) = P.bk g j) (j : Fin 512) :
    k0_pay13 (F := Ideal) v7 v9 v10 v98 v100 v105 v109 v114 v118 (ix2 p j) = Ideal.logistic (pre P X g j) * X.q j := by
  unfold k0_pay13 pre preB preA mlp
  simp only [truncf_apply, tanh_apply, logistic_apply, addf_apply, mulf_apply, mm300, mm50, mm512, mmPlain512, unpack512, bias, biasVec, rowVec, hk, hhp, hq, h98, h100, hWp, hbp, hWk, hbk]

/-! ## Gate 2 -/

/-- The three input projections summed. -/
theorem pay14_spec (g : Fin 5) (v1 : FVec Ideal S512x300 .bf16) (v3 : FVec Ideal S512x50 .bf16) (v5 : FVec Ideal S512x50 .bf16)
    (v125 : FVec Ideal S1x300x512 .bf16) (v128 : FVec Ideal S1x50x512 .bf16) (v131 : FVec Ideal S1x50x512 .bf16)
    (hw : ∀ i, v1 (ix2 p i) = X.word i) (ht : ∀ i, v3 (ix2 p i) = X.tag i) (hr : ∀ i, v5 (ix2 p i) = X.rel i)
    (hWw : ∀ k j, v125 (ix3 (0 : Fin 1) k j) = P.Ww g j k) (hWt : ∀ k j, v128 (ix3 (0 : Fin 1) k j) = P.Wt g j k) (hWr : ∀ k j, v131 (ix3 (0 : Fin 1) k j) = P.Wr g j k) (j : Fin 512) :
    k0_pay14 (F := Ideal) v1 v3 v5 v125 v128 v131 (ix2 p j) = lin0 P X g j := by
  unfold k0_pay14 lin0
  simp only [truncf_apply, tanh_apply, logistic_apply, addf_apply, mulf_apply, mm300, mm50, mm512, mmPlain512, unpack512, bias, biasVec, rowVec, hw, ht, hr, hWw, hWt, hWr]

/-- From the input projections to the perceptron plus the previous hidden state's projection and its bias. -/
theorem pay15_spec (g : Fin 5) (v9 : FVec Ideal S512x512 .bf16) (v135 : FVec Ideal S512x512 .f32) (v136 : FVec Ideal S1x512 .f32)
    (v143 : FVec Ideal S1x512x512 .bf16) (v146 : FVec Ideal S1x512 .f32) (v153 : FVec Ideal S1x512x512 .bf16) (v156 : FVec Ideal S1x512 .f32)
    (v162 : FVec Ideal S1x512x512 .bf16) (v166 : FVec Ideal S1x512 .f32)
    (hhp : ∀ i, v9 (ix2 p i) = X.hp i) (h135 : ∀ i, v135 (ix2 p i) = lin0 P X g i) (hbi : ∀ j, v136 (ix2 (0 : Fin 1) j) = P.bi g j)
    (hWh : ∀ k j, v143 (ix3 (0 : Fin 1) k j) = P.Wh g j k) (hbh : ∀ j, v146 (ix2 (0 : Fin 1) j) = P.bh g j) (hWl : ∀ k j, v153 (ix3 (0 : Fin 1) k j) = P.Wl g j k) (hbl : ∀ j, v156 (ix2 (0 : Fin 1) j) = P.bl g j)
    (hWp : ∀ k j, v162 (ix3 (0 : Fin 1) k j) = P.Wp g j k) (hbp : ∀ j, v166 (ix2 (0 : Fin 1) j) = P.bp g j) (j : Fin 512) :
    k0_pay15 (F := Ideal) v9 v135 v136 v143 v146 v153 v156 v162 v166 (ix2 p j) = preB P X g j := by
  unfold k0_pay15 preB preA mlp lin2 h1 h0
  simp only [truncf_apply, tanh_apply, logistic_apply, addf_apply, mulf_apply, mm300, mm50, mm512, mmPlain512, unpack512, bias, biasVec, rowVec, hhp, h135, hbi, hWh, hbh, hWl, hbl, hWp, hbp]

end Cert.KernelIdeal.Blk

end
-- ==== Proof.PayB.lean ====
/-
  The kernel body's intermediate values, part two: gate 2's end (the running cell sum), gates 3 and 4, the cell state
  and the hidden state.

  As in part one each lemma reads one named value of the body at row p, column j of the block from what its inputs hold
  there. The running values that are not layers of one gate (the down-forget term, the running cell sum, the input
  gate, the output gate) enter as arbitrary functions of the column, so that the last lemmas say: the cell value is the
  running sum plus the input gate times tanh of gate g's pre-activation, and the hidden value is the output gate times
  tanh of that.
-/
import proofs.«147965_j38689065402503_1_alg».proof.Proof.Gen.KernelIdeal.Frame
import proofs.«147965_j38689065402503_1_alg».proof.Proof.Spec
import proofs.«147965_j38689065402503_1_alg».proof.Proof.KLib

noncomputable section

open scoped BigOperators

namespace Cert.KernelIdeal.Blk

open Cert.KernelIdeal Cert.KernelIdeal.Gen Idealize.ShloMosaic Idealize.ShloMosaic.ValueIdx Cert.TreeLstm

variable (P : Params) (X : Node) (p : Fin 512)

/-! ## Gate 2's end -/

/-- k's projection and its bias complete the pre-activation; the gate times the previous cell state joins the running
    sum `T`. The gate's matrix comes already unpacked (`h172`), and the accumulator is the zero block. -/
theorem pay17_spec (g : Fin 5) (T : Fin 512 → EReal) (v7 : FVec Ideal S512x512 .bf16) (v11 : FVec Ideal S512x512 .f32) (v124 : FVec Ideal S512x512 .f32) (v170 : FVec Ideal S512x512 .f32)
    (v172 : FVec Ideal S512x512 .bf16) (v175 : FVec Ideal S1x512 .f32)
    (hk : ∀ i, v7 (ix2 p i) = X.k i) (hcp : ∀ i, v11 (ix2 p i) = X.cp i) (h124 : ∀ i, v124 (ix2 p i) = T i)
    (h170 : ∀ i, v170 (ix2 p i) = preB P X g i) (h172 : ∀ k j, v172 (ix2 k j) = P.Wk g j k)
    (hbk : ∀ j, v175 (ix2 (0 : Fin 1) j) = P.bk g j) (j : Fin 512) :
    k0_pay17 (F := Ideal) v7 v11 v124 v170 v172 (constant S512x512 .f32 0x00000000#32) v175 (ix2 p j)
      = T j + Ideal.logistic (pre P X g j) * X.cp j := by
  unfold k0_pay17 pre
  simp only [truncf_apply, tanh_apply, logistic_apply, addf_apply, mulf_apply, mm300, mm50, mm512, mmPlain512, unpack512, bias, biasVec, rowVec, hk, hcp, h124, h170, h172, hbk]

/-! ## Gate 3 -/

/-- The first two layers. -/
theorem pay18_spec (g : Fin 5) (v1 : FVec Ideal S512x300 .bf16) (v3 : FVec Ideal S512x50 .bf16) (v5 : FVec Ideal S512x50 .bf16)
    (v183 : FVec Ideal S1x300x512 .bf16) (v186 : FVec Ideal S1x50x512 .bf16) (v189 : FVec Ideal S1x50x512 .bf16) (v194 : FVec Ideal S1x512 .f32)
    (v201 : FVec Ideal S1x512x512 .bf16) (v204 : FVec Ideal S1x512 .f32)
    (hw : ∀ i, v1 (ix2 p i) = X.word i) (ht : ∀ i, v3 (ix2 p i) = X.tag i) (hr : ∀ i, v5 (ix2 p i) = X.rel i)
    (hWw : ∀ k j, v183 (ix3 (0 : Fin 1) k j) = P.Ww g j k) (hWt : ∀ k j, v186 (ix3 (0 : Fin 1) k j) = P.Wt g j k) (hWr : ∀ k j, v189 (ix3 (0 : Fin 1) k j) = P.Wr g j k) (hbi : ∀ j, v194 (ix2 (0 : Fin 1) j) = P.bi g j)
    (hWh : ∀ k j, v201 (ix3 (0 : Fin 1) k j) = P.Wh g j k) (hbh : ∀ j, v204 (ix2 (0 : Fin 1) j) = P.bh g j) (j : Fin 512) :
    k0_pay18 (F := Ideal) v1 v3 v5 v183 v186 v189 v194 v201 v204 (ix2 p j) = h1 P X g j := by
  unfold k0_pay18 h1 h0 lin0
  simp only [truncf_apply, tanh_apply, logistic_apply, addf_apply, mulf_apply, mm300, mm50, mm512, mmPlain512, unpack512, bias, biasVec, rowVec, hw, ht, hr, hWw, hWt, hWr, hbi, hWh, hbh]

/-- From the hidden layer to the gate. -/
theorem pay19_spec (g : Fin 5) (v7 : FVec Ideal S512x512 .bf16) (v9 : FVec Ideal S512x512 .bf16) (v210 : FVec Ideal S512x512 .bf16)
    (v211 : FVec Ideal S1x512x512 .bf16) (v214 : FVec Ideal S1x512 .f32) (v220 : FVec Ideal S1x512x512 .bf16) (v224 : FVec Ideal S1x512 .f32)
    (v229 : FVec Ideal S1x512x512 .bf16) (v233 : FVec Ideal S1x512 .f32)
    (hk : ∀ i, v7 (ix2 p i) = X.k i) (hhp : ∀ i, v9 (ix2 p i) = X.hp i) (h210 : ∀ i, v210 (ix2 p i) = h1 P X g i)
    (hWl : ∀ k j, v211 (ix3 (0 : Fin 1) k j) = P.Wl g j k) (hbl : ∀ j, v214 (ix2 (0 : Fin 1) j) = P.bl g j) (hWp : ∀ k j, v220 (ix3 (0 : Fin 1) k j) = P.Wp g j k) (hbp : ∀ j, v224 (ix2 (0 : Fin 1) j) = P.bp g j)
    (hWk : ∀ k j, v229 (ix3 (0 : Fin 1) k j) = P.Wk g j k) (hbk : ∀ j, v233 (ix2 (0 : Fin 1) j) = P.bk g j) (j : Fin 512) :
    k0_pay19 (F := Ideal) v7 v9 v210 v211 v214 v220 v224 v229 v233 (ix2 p j) = Ideal.logistic (pre P X g j) := by
  unfold k0_pay19 pre preB preA mlp lin2
  simp only [truncf_apply, tanh_apply, logistic_apply, addf_apply, mulf_apply, mm300, mm50, mm512, mmPlain512, unpack512, bias, biasVec, rowVec, hk, hhp, h210, hWl, hbl, hWp, hbp, hWk, hbk]

/-! ## Gate 4 -/

/-- The word projection alone. -/
theorem pay20_spec (g : Fin 5) (v1 : FVec Ideal S512x300 .bf16) (v239 : FVec Ideal S1x300x512 .bf16)
    (hw : ∀ i, v1 (ix2 p i) = X.word i) (hWw : ∀ k j, v239 (ix3 (0 : Fin 1) k j) = P.Ww g j k) (j : Fin 512) :
    k0_pay20 (F := Ideal) v1 v239 (ix2 p j) = ∑ w : Fin 300, X.word w * P.Ww g j w := by
  unfold k0_pay20
  simp only [truncf_apply, tanh_apply, logistic_apply, addf_apply, mulf_apply, mm300, mm50, mm512, mmPlain512, unpack512, bias, biasVec, rowVec, hw, hWw]

/-- The tag projection alone. -/
theorem pay21_spec (g : Fin 5) (v3 : FVec Ideal S512x50 .bf16) (v242 : FVec Ideal S1x50x512 .bf16)
    (ht : ∀ i, v3 (ix2 p i) = X.tag i) (hWt : ∀ k j, v242 (ix3 (0 : Fin 1) k j) = P.Wt g j k) (j : Fin 512) :
    k0_pay21 (F := Ideal) v3 v242 (ix2 p j) = ∑ t : Fin 50, X.tag t * P.Wt g j t := by
  unfold k0_pay21
  simp only [truncf_apply, tanh_apply, logistic_apply, addf_apply, mulf_apply, mm300, mm50, mm512, mmPlain512, unpack512, bias, biasVec, rowVec, ht, hWt]

/-- From the two projections to the perceptron plus the previous hidden state's projection. -/
theorem pay22_spec (g : Fin 5) (v5 : FVec Ideal S512x50 .bf16) (v9 : FVec Ideal S512x512 .bf16) (v241 : FVec Ideal S512x512 .f32) (v244 : FVec Ideal S512x512 .f32)
    (v245 : FVec Ideal S1x50x512 .bf16) (v250 : FVec Ideal S1x512 .f32) (v257 : FVec Ideal S1x512x512 .bf16) (v260 : FVec Ideal S1x512 .f32)
    (v267 : FVec Ideal S1x512x512 .bf16) (v270 : FVec Ideal S1x512 .f32) (v276 : FVec Ideal S1x512x512 .bf16)
    (hr : ∀ i, v5 (ix2 p i) = X.rel i) (hhp : ∀ i, v9 (ix2 p i) = X.hp i)
    (h241 : ∀ i, v241 (ix2 p i) = ∑ w : Fin 300, X.word w * P.Ww g i w)
    (h244 : ∀ i, v244 (ix2 p i) = ∑ t : Fin 50, X.tag t * P.Wt g i t)
    (hWr : ∀ k j, v245 (ix3 (0 : Fin 1) k j) = P.Wr g j k) (hbi : ∀ j, v250 (ix2 (0 : Fin 1) j) = P.bi g j) (hWh : ∀ k j, v257 (ix3 (0 : Fin 1) k j) = P.Wh g j k) (hbh : ∀ j, v260 (ix2 (0 : Fin 1) j) = P.bh g j)
    (hWl : ∀ k j, v267 (ix3 (0 : Fin 1) k j) = P.Wl g j k) (hbl : ∀ j, v270 (ix2 (0 : Fin 1) j) = P.bl g j) (hWp : ∀ k j, v276 (ix3 (0 : Fin 1) k j) = P.Wp g j k) (j : Fin 512) :
    k0_pay22 (F := Ideal) v5 v9 v241 v244 v245 v250 v257 v260 v267 v270 v276 (ix2 p j) = preA P X g j := by
  unfold k0_pay22 preA mlp lin2 h1 h0 lin0
  simp only [truncf_apply, tanh_apply, logistic_apply, addf_apply, mulf_apply, mm300, mm50, mm512, mmPlain512, unpack512, bias, biasVec, rowVec, hr, hhp, h241, h244, hWr, hbi, hWh, hbh, hWl, hbl, hWp]

/-! ## The cell state and the hidden state -/

/-- The cell value: the running sum `C` plus the input gate `S` times tanh of gate g's pre-activation. -/
theorem pay1_spec (g : Fin 5) (S C : Fin 512 → EReal) (v7 : FVec Ideal S512x512 .bf16) (v67 : FVec Ideal S512x512 .f32) (v182 : FVec Ideal S512x512 .f32) (v279 : FVec Ideal S512x512 .f32)
    (v280 : FVec Ideal S1x512 .f32) (v285 : FVec Ideal S1x512x512 .bf16) (v289 : FVec Ideal S1x512 .f32)
    (hk : ∀ i, v7 (ix2 p i) = X.k i) (h67 : ∀ i, v67 (ix2 p i) = S i) (h182 : ∀ i, v182 (ix2 p i) = C i)
    (h279 : ∀ i, v279 (ix2 p i) = preA P X g i)
    (hbp : ∀ j, v280 (ix2 (0 : Fin 1) j) = P.bp g j) (hWk : ∀ k j, v285 (ix3 (0 : Fin 1) k j) = P.Wk g j k) (hbk : ∀ j, v289 (ix2 (0 : Fin 1) j) = P.bk g j) (j : Fin 512) :
    k0_pay1 (F := Ideal) v7 v67 v182 v279 v280 v285 v289 (ix2 p j) = C j + S j * Ideal.tanh (pre P X g j) := by
  unfold k0_pay1 pre preB
  simp only [truncf_apply, tanh_apply, logistic_apply, addf_apply, mulf_apply, mm300, mm50, mm512, mmPlain512, unpack512, bias, biasVec, rowVec, hk, h67, h182, h279, hbp, hWk, hbk]

/-- The hidden value: the output gate `O` times tanh of the cell value. -/
theorem pay2_spec (g : Fin 5) (S C O : Fin 512 → EReal) (v7 : FVec Ideal S512x512 .bf16) (v67 : FVec Ideal S512x512 .f32) (v182 : FVec Ideal S512x512 .f32) (v238 : FVec Ideal S512x512 .f32) (v279 : FVec Ideal S512x512 .f32)
    (v280 : FVec Ideal S1x512 .f32) (v285 : FVec Ideal S1x512x512 .bf16) (v289 : FVec Ideal S1x512 .f32)
    (hk : ∀ i, v7 (ix2 p i) = X.k i) (h67 : ∀ i, v67 (ix2 p i) = S i) (h182 : ∀ i, v182 (ix2 p i) = C i)
    (h238 : ∀ i, v238 (ix2 p i) = O i) (h279 : ∀ i, v279 (ix2 p i) = preA P X g i)
    (hbp : ∀ j, v280 (ix2 (0 : Fin 1) j) = P.bp g j) (hWk : ∀ k j, v285 (ix3 (0 : Fin 1) k j) = P.Wk g j k) (hbk : ∀ j, v289 (ix2 (0 : Fin 1) j) = P.bk g j) (j : Fin 512) :
    k0_pay2 (F := Ideal) v7 v67 v182 v238 v279 v280 v285 v289 (ix2 p j)
      = O j * Ideal.tanh (C j + S j * Ideal.tanh (pre P X g j)) := by
  unfold k0_pay2
  simp only [mulf_apply, tanh_apply, h238,
    pay1_spec P X p g S C v7 v67 v182 v279 v280 v285 v289 hk h67 h182 h279 hbp hWk hbk j]

end Cert.KernelIdeal.Blk

end
-- ==== Proof.KernelBlock.lean ====
/-
  What one grid point leaves in the two output blocks, entry by entry: row p of the hidden-state block is the tree-LSTM
  hidden state of the node in row p of the input blocks, with the parameters read out of the resident weight and bias
  blocks (transposed layout); row p of the cell-state block is that node's cell state.

  Each output block is written by one store of the whole block, so it is that store's value; the node blocks are loaded
  whole, and gate g's matrices and bias rows are the loads at offset g of the resident stacks. The body's named values
  are then chained gate by gate: the input gate (gate 0), the down-forget gate times q (gate 1), plus the left-forget gate
  times the previous cell state (gate 2), the output gate (gate 3), and the update (gate 4) that completes the cell
  state (the running sum plus input gate times tanh of the update's pre-activation) and the hidden state (output gate
  times tanh of the cell state).
-/
import proofs.«147965_j38689065402503_1_alg».proof.Proof.Gen.KernelIdeal.Frame
import proofs.«147965_j38689065402503_1_alg».proof.Proof.Spec
import proofs.«147965_j38689065402503_1_alg».proof.Proof.KLib
import proofs.«147965_j38689065402503_1_alg».proof.Proof.PayA
import proofs.«147965_j38689065402503_1_alg».proof.Proof.PayB

noncomputable section

open scoped BigOperators

namespace Cert.KernelIdeal.Blk

open Cert.KernelIdeal Cert.KernelIdeal.Gen Idealize.ShloMosaic Idealize.ShloMosaic.ValueIdx Cert.TreeLstm

/-- The cell-state block (output window 20's buffer after the body) at (p, j). -/
theorem out20_apply (x0 : FVec Ideal S512x300 .f32) (x1 x2 : FVec Ideal S512x50 .f32) (x3 x4 x5 x6 : FVec Ideal S512x512 .f32)
    (x7 : FVec Ideal S5x300x512 .bf16) (x8 x9 : FVec Ideal S5x50x512 .bf16) (x10 x11 x12 x13 : FVec Ideal S5x512x512 .bf16)
    (x14 x15 x16 x17 x18 : FVec Ideal S5x512 .f32) (p j : Fin 512) :
    out0_20 (F := Ideal) x0 x1 x2 x3 x4 x5 x6 x7 x8 x9 x10 x11 x12 x13 x14 x15 x16 x17 x18 (ix2 p j)
      = cell (kerParams x7 x8 x9 x10 x11 x12 x13 x14 x15 x16 x17 x18) (kerNode x0 x1 x2 x3 x4 x5 x6 p) j := by
  unfold out0_20
  rw [View.canon_unit_zero zeros2]
  simp only [ld_r0_0, ld_r0_1, ld_r0_2]
  -- gate 0: the input gate
  have e8 := pay8_spec (kerParams x7 x8 x9 x10 x11 x12 x13 x14 x15 x16 x17 x18) (kerNode x0 x1 x2 x3 x4 x5 x6 p) p 0 x0 x1 x2 (View.ld (Val := Elt Ideal) (e' := .bf16) x7 r0_3) (View.ld (Val := Elt Ideal) (e' := .bf16) x8 r0_4) (View.ld (Val := Elt Ideal) (e' := .bf16) x9 r0_4) (View.ld (Val := Elt Ideal) (e' := .f32) x14 r0_5)
    (fun _ => rfl) (fun _ => rfl) (fun _ => rfl) (ld_r0_3 x7) (ld_r0_4 x8) (ld_r0_4 x9) (ld_r0_5 x14)
  have e9 := pay9_spec (kerParams x7 x8 x9 x10 x11 x12 x13 x14 x15 x16 x17 x18) (kerNode x0 x1 x2 x3 x4 x5 x6 p) p 0 (k0_pay6 x3) (k0_pay7 x5) _ (View.ld (Val := Elt Ideal) (e' := .bf16) x10 r0_6) (View.ld (Val := Elt Ideal) (e' := .f32) x15 r0_5) (View.ld (Val := Elt Ideal) (e' := .bf16) x11 r0_6) (View.ld (Val := Elt Ideal) (e' := .f32) x16 r0_5) (View.ld (Val := Elt Ideal) (e' := .bf16) x12 r0_6) (View.ld (Val := Elt Ideal) (e' := .f32) x17 r0_5) (View.ld (Val := Elt Ideal) (e' := .bf16) x13 r0_6) (View.ld (Val := Elt Ideal) (e' := .f32) x18 r0_5)
    (fun _ => rfl) (fun _ => rfl) e8 (ld_r0_6 x10) (ld_r0_5 x15) (ld_r0_6 x11) (ld_r0_5 x16) (ld_r0_6 x12) (ld_r0_5 x17) (ld_r0_6 x13) (ld_r0_5 x18)
  have e10 : ∀ i, k0_pay10 (F := Ideal) _ (ix2 p i) = Ideal.logistic (pre (kerParams x7 x8 x9 x10 x11 x12 x13 x14 x15 x16 x17 x18) (kerNode x0 x1 x2 x3 x4 x5 x6 p) 0 i) :=
    fun i => (pay10_apply _ _).trans (congrArg Ideal.logistic (e9 i))
  -- gate 1: the down-forget gate times q
  have e11 := pay11_spec (kerParams x7 x8 x9 x10 x11 x12 x13 x14 x15 x16 x17 x18) (kerNode x0 x1 x2 x3 x4 x5 x6 p) p 1 (k0_pay3 x0) (k0_pay4 x1) (k0_pay5 x2) (View.ld (Val := Elt Ideal) (e' := .bf16) x7 r0_7) (View.ld (Val := Elt Ideal) (e' := .bf16) x8 r0_8) (View.ld (Val := Elt Ideal) (e' := .bf16) x9 r0_8) (View.ld (Val := Elt Ideal) (e' := .f32) x14 r0_9) (View.ld (Val := Elt Ideal) (e' := .bf16) x10 r0_10) (View.ld (Val := Elt Ideal) (e' := .f32) x15 r0_9) (View.ld (Val := Elt Ideal) (e' := .bf16) x11 r0_10)
    (fun _ => rfl) (fun _ => rfl) (fun _ => rfl) (ld_r0_7 x7) (ld_r0_8 x8) (ld_r0_8 x9) (ld_r0_9 x14) (ld_r0_10 x10) (ld_r0_9 x15) (ld_r0_10 x11)
  have e12 : ∀ j, k0_pay12 (F := Ideal) (View.ld (Val := Elt Ideal) (e' := .f32) x16 r0_9) (ix1 j) = (kerParams x7 x8 x9 x10 x11 x12 x13 x14 x15 x16 x17 x18).bl 1 j :=
    fun j => (pay12_apply _ j).trans (ld_r0_9 x16 j)
  have e13 := pay13_spec (kerParams x7 x8 x9 x10 x11 x12 x13 x14 x15 x16 x17 x18) (kerNode x0 x1 x2 x3 x4 x5 x6 p) p 1 (k0_pay6 x3) (k0_pay7 x5) x4 _ _ (View.ld (Val := Elt Ideal) (e' := .bf16) x12 r0_10) (View.ld (Val := Elt Ideal) (e' := .f32) x17 r0_9) (View.ld (Val := Elt Ideal) (e' := .bf16) x13 r0_10) (View.ld (Val := Elt Ideal) (e' := .f32) x18 r0_9)
    (fun _ => rfl) (fun _ => rfl) (fun _ => rfl) e11 e12 (ld_r0_10 x12) (ld_r0_9 x17) (ld_r0_10 x13) (ld_r0_9 x18)
  -- gate 2: the left-forget gate times the previous cell state, added on
  have e14 := pay14_spec (kerParams x7 x8 x9 x10 x11 x12 x13 x14 x15 x16 x17 x18) (kerNode x0 x1 x2 x3 x4 x5 x6 p) p 2 (k0_pay3 x0) (k0_pay4 x1) (k0_pay5 x2) (View.ld (Val := Elt Ideal) (e' := .bf16) x7 r0_11) (View.ld (Val := Elt Ideal) (e' := .bf16) x8 r0_12) (View.ld (Val := Elt Ideal) (e' := .bf16) x9 r0_12)
    (fun _ => rfl) (fun _ => rfl) (fun _ => rfl) (ld_r0_11 x7) (ld_r0_12 x8) (ld_r0_12 x9)
  have e15 := pay15_spec (kerParams x7 x8 x9 x10 x11 x12 x13 x14 x15 x16 x17 x18) (kerNode x0 x1 x2 x3 x4 x5 x6 p) p 2 (k0_pay7 x5) _ (View.ld (Val := Elt Ideal) (e' := .f32) x14 r0_13) (View.ld (Val := Elt Ideal) (e' := .bf16) x10 r0_14) (View.ld (Val := Elt Ideal) (e' := .f32) x15 r0_13) (View.ld (Val := Elt Ideal) (e' := .bf16) x11 r0_14) (View.ld (Val := Elt Ideal) (e' := .f32) x16 r0_13) (View.ld (Val := Elt Ideal) (e' := .bf16) x12 r0_14) (View.ld (Val := Elt Ideal) (e' := .f32) x17 r0_13)
    (fun _ => rfl) e14 (ld_r0_13 x14) (ld_r0_14 x10) (ld_r0_13 x15) (ld_r0_14 x11) (ld_r0_13 x16) (ld_r0_14 x12) (ld_r0_13 x17)
  have e16 : ∀ k j, k0_pay16 (F := Ideal) (View.ld (Val := Elt Ideal) (e' := .bf16) x13 r0_14) (ix2 k j) = (kerParams x7 x8 x9 x10 x11 x12 x13 x14 x15 x16 x17 x18).Wk 2 j k :=
    fun k j => (pay16_apply _ k j).trans (ld_r0_14 x13 k j)
  have e17 := pay17_spec (kerParams x7 x8 x9 x10 x11 x12 x13 x14 x15 x16 x17 x18) (kerNode x0 x1 x2 x3 x4 x5 x6 p) p 2 (fun i => Ideal.logistic (pre (kerParams x7 x8 x9 x10 x11 x12 x13 x14 x15 x16 x17 x18) (kerNode x0 x1 x2 x3 x4 x5 x6 p) 1 i) * (kerNode x0 x1 x2 x3 x4 x5 x6 p).q i) (k0_pay6 x3) x6 _ _ _ (View.ld (Val := Elt Ideal) (e' := .f32) x18 r0_13)
    (fun _ => rfl) (fun _ => rfl) e13 e15 e16 (ld_r0_13 x18)
  -- gate 4: the update, up to the previous hidden state's projection
  have e20 := pay20_spec (kerParams x7 x8 x9 x10 x11 x12 x13 x14 x15 x16 x17 x18) (kerNode x0 x1 x2 x3 x4 x5 x6 p) p 4 (k0_pay3 x0) (View.ld (Val := Elt Ideal) (e' := .bf16) x7 r0_19) (fun _ => rfl) (ld_r0_19 x7)
  have e21 := pay21_spec (kerParams x7 x8 x9 x10 x11 x12 x13 x14 x15 x16 x17 x18) (kerNode x0 x1 x2 x3 x4 x5 x6 p) p 4 (k0_pay4 x1) (View.ld (Val := Elt Ideal) (e' := .bf16) x8 r0_20) (fun _ => rfl) (ld_r0_20 x8)
  have e22 := pay22_spec (kerParams x7 x8 x9 x10 x11 x12 x13 x14 x15 x16 x17 x18) (kerNode x0 x1 x2 x3 x4 x5 x6 p) p 4 (k0_pay5 x2) (k0_pay7 x5) _ _ (View.ld (Val := Elt Ideal) (e' := .bf16) x9 r0_20) (View.ld (Val := Elt Ideal) (e' := .f32) x14 r0_21) (View.ld (Val := Elt Ideal) (e' := .bf16) x10 r0_22) (View.ld (Val := Elt Ideal) (e' := .f32) x15 r0_21) (View.ld (Val := Elt Ideal) (e' := .bf16) x11 r0_22) (View.ld (Val := Elt Ideal) (e' := .f32) x16 r0_21) (View.ld (Val := Elt Ideal) (e' := .bf16) x12 r0_22)
    (fun _ => rfl) (fun _ => rfl) e20 e21 (ld_r0_20 x9) (ld_r0_21 x14) (ld_r0_22 x10) (ld_r0_21 x15) (ld_r0_22 x11) (ld_r0_21 x16) (ld_r0_22 x12)
  exact pay1_spec (kerParams x7 x8 x9 x10 x11 x12 x13 x14 x15 x16 x17 x18) (kerNode x0 x1 x2 x3 x4 x5 x6 p) p 4 (fun i => Ideal.logistic (pre (kerParams x7 x8 x9 x10 x11 x12 x13 x14 x15 x16 x17 x18) (kerNode x0 x1 x2 x3 x4 x5 x6 p) 0 i)) (fun i => Ideal.logistic (pre (kerParams x7 x8 x9 x10 x11 x12 x13 x14 x15 x16 x17 x18) (kerNode x0 x1 x2 x3 x4 x5 x6 p) 1 i) * (kerNode x0 x1 x2 x3 x4 x5 x6 p).q i + Ideal.logistic (pre (kerParams x7 x8 x9 x10 x11 x12 x13 x14 x15 x16 x17 x18) (kerNode x0 x1 x2 x3 x4 x5 x6 p) 2 i) * (kerNode x0 x1 x2 x3 x4 x5 x6 p).cp i)
    (k0_pay6 x3) _ _ _ (View.ld (Val := Elt Ideal) (e' := .f32) x17 r0_21) (View.ld (Val := Elt Ideal) (e' := .bf16) x13 r0_22) (View.ld (Val := Elt Ideal) (e' := .f32) x18 r0_21) (fun _ => rfl) e10 e17 e22 (ld_r0_21 x17) (ld_r0_22 x13) (ld_r0_21 x18) j

/-- The hidden-state block (output window 19's buffer after the body) at (p, j). -/
theorem out19_apply (x0 : FVec Ideal S512x300 .f32) (x1 x2 : FVec Ideal S512x50 .f32) (x3 x4 x5 x6 : FVec Ideal S512x512 .f32)
    (x7 : FVec Ideal S5x300x512 .bf16) (x8 x9 : FVec Ideal S5x50x512 .bf16) (x10 x11 x12 x13 : FVec Ideal S5x512x512 .bf16)
    (x14 x15 x16 x17 x18 : FVec Ideal S5x512 .f32) (p j : Fin 512) :
    out0_19 (F := Ideal) x0 x1 x2 x3 x4 x5 x6 x7 x8 x9 x10 x11 x12 x13 x14 x15 x16 x17 x18 (ix2 p j)
      = hid (kerParams x7 x8 x9 x10 x11 x12 x13 x14 x15 x16 x17 x18) (kerNode x0 x1 x2 x3 x4 x5 x6 p) j := by
  unfold out0_19
  rw [View.canon_unit_zero zeros2]
  simp only [ld_r0_0, ld_r0_1, ld_r0_2]
  -- gate 0: the input gate
  have e8 := pay8_spec (kerParams x7 x8 x9 x10 x11 x12 x13 x14 x15 x16 x17 x18) (kerNode x0 x1 x2 x3 x4 x5 x6 p) p 0 x0 x1 x2 (View.ld (Val := Elt Ideal) (e' := .bf16) x7 r0_3) (View.ld (Val := Elt Ideal) (e' := .bf16) x8 r0_4) (View.ld (Val := Elt Ideal) (e' := .bf16) x9 r0_4) (View.ld (Val := Elt Ideal) (e' := .f32) x14 r0_5)
    (fun _ => rfl) (fun _ => rfl) (fun _ => rfl) (ld_r0_3 x7) (ld_r0_4 x8) (ld_r0_4 x9) (ld_r0_5 x14)
  have e9 := pay9_spec (kerParams x7 x8 x9 x10 x11 x12 x13 x14 x15 x16 x17 x18) (kerNode x0 x1 x2 x3 x4 x5 x6 p) p 0 (k0_pay6 x3) (k0_pay7 x5) _ (View.ld (Val := Elt Ideal) (e' := .bf16) x10 r0_6) (View.ld (Val := Elt Ideal) (e' := .f32) x15 r0_5) (View.ld (Val := Elt Ideal) (e' := .bf16) x11 r0_6) (View.ld (Val := Elt Ideal) (e' := .f32) x16 r0_5) (View.ld (Val := Elt Ideal) (e' := .bf16) x12 r0_6) (View.ld (Val := Elt Ideal) (e' := .f32) x17 r0_5) (View.ld (Val := Elt Ideal) (e' := .bf16) x13 r0_6) (View.ld (Val := Elt Ideal) (e' := .f32) x18 r0_5)
    (fun _ => rfl) (fun _ => rfl) e8 (ld_r0_6 x10) (ld_r0_5 x15) (ld_r0_6 x11) (ld_r0_5 x16) (ld_r0_6 x12) (ld_r0_5 x17) (ld_r0_6 x13) (ld_r0_5 x18)
  have e10 : ∀ i, k0_pay10 (F := Ideal) _ (ix2 p i) = Ideal.logistic (pre (kerParams x7 x8 x9 x10 x11 x12 x13 x14 x15 x16 x17 x18) (kerNode x0 x1 x2 x3 x4 x5 x6 p) 0 i) :=
    fun i => (pay10_apply _ _).trans (congrArg Ideal.logistic (e9 i))
  -- gate 1: the down-forget gate times q
  have e11 := pay11_spec (kerParams x7 x8 x9 x10 x11 x12 x13 x14 x15 x16 x17 x18) (kerNode x0 x1 x2 x3 x4 x5 x6 p) p 1 (k0_pay3 x0) (k0_pay4 x1) (k0_pay5 x2) (View.ld (Val := Elt Ideal) (e' := .bf16) x7 r0_7) (View.ld (Val := Elt Ideal) (e' := .bf16) x8 r0_8) (View.ld (Val := Elt Ideal) (e' := .bf16) x9 r0_8) (View.ld (Val := Elt Ideal) (e' := .f32) x14 r0_9) (View.ld (Val := Elt Ideal) (e' := .bf16) x10 r0_10) (View.ld (Val := Elt Ideal) (e' := .f32) x15 r0_9) (View.ld (Val := Elt Ideal) (e' := .bf16) x11 r0_10)
    (fun _ => rfl) (fun _ => rfl) (fun _ => rfl) (ld_r0_7 x7) (ld_r0_8 x8) (ld_r0_8 x9) (ld_r0_9 x14) (ld_r0_10 x10) (ld_r0_9 x15) (ld_r0_10 x11)
  have e12 : ∀ j, k0_pay12 (F := Ideal) (View.ld (Val := Elt Ideal) (e' := .f32) x16 r0_9) (ix1 j) = (kerParams x7 x8 x9 x10 x11 x12 x13 x14 x15 x16 x17 x18).bl 1 j :=
    fun j => (pay12_apply _ j).trans (ld_r0_9 x16 j)
  have e13 := pay13_spec (kerParams x7 x8 x9 x10 x11 x12 x13 x14 x15 x16 x17 x18) (kerNode x0 x1 x2 x3 x4 x5 x6 p) p 1 (k0_pay6 x3) (k0_pay7 x5) x4 _ _ (View.ld (Val := Elt Ideal) (e' := .bf16) x12 r0_10) (View.ld (Val := Elt Ideal) (e' := .f32) x17 r0_9) (View.ld (Val := Elt Ideal) (e' := .bf16) x13 r0_10) (View.ld (Val := Elt Ideal) (e' := .f32) x18 r0_9)
    (fun _ => rfl) (fun _ => rfl) (fun _ => rfl) e11 e12 (ld_r0_10 x12) (ld_r0_9 x17) (ld_r0_10 x13) (ld_r0_9 x18)
  -- gate 2: the left-forget gate times the previous cell state, added on
  have e14 := pay14_spec (kerParams x7 x8 x9 x10 x11 x12 x13 x14 x15 x16 x17 x18) (kerNode x0 x1 x2 x3 x4 x5 x6 p) p 2 (k0_pay3 x0) (k0_pay4 x1) (k0_pay5 x2) (View.ld (Val := Elt Ideal) (e' := .bf16) x7 r0_11) (View.ld (Val := Elt Ideal) (e' := .bf16) x8 r0_12) (View.ld (Val := Elt Ideal) (e' := .bf16) x9 r0_12)
    (fun _ => rfl) (fun _ => rfl) (fun _ => rfl) (ld_r0_11 x7) (ld_r0_12 x8) (ld_r0_12 x9)
  have e15 := pay15_spec (kerParams x7 x8 x9 x10 x11 x12 x13 x14 x15 x16 x17 x18) (kerNode x0 x1 x2 x3 x4 x5 x6 p) p 2 (k0_pay7 x5) _ (View.ld (Val := Elt Ideal) (e' := .f32) x14 r0_13) (View.ld (Val := Elt Ideal) (e' := .bf16) x10 r0_14) (View.ld (Val := Elt Ideal) (e' := .f32) x15 r0_13) (View.ld (Val := Elt Ideal) (e' := .bf16) x11 r0_14) (View.ld (Val := Elt Ideal) (e' := .f32) x16 r0_13) (View.ld (Val := Elt Ideal) (e' := .bf16) x12 r0_14) (View.ld (Val := Elt Ideal) (e' := .f32) x17 r0_13)
    (fun _ => rfl) e14 (ld_r0_13 x14) (ld_r0_14 x10) (ld_r0_13 x15) (ld_r0_14 x11) (ld_r0_13 x16) (ld_r0_14 x12) (ld_r0_13 x17)
  have e16 : ∀ k j, k0_pay16 (F := Ideal) (View.ld (Val := Elt Ideal) (e' := .bf16) x13 r0_14) (ix2 k j) = (kerParams x7 x8 x9 x10 x11 x12 x13 x14 x15 x16 x17 x18).Wk 2 j k :=
    fun k j => (pay16_apply _ k j).trans (ld_r0_14 x13 k j)
  have e17 := pay17_spec (kerParams x7 x8 x9 x10 x11 x12 x13 x14 x15 x16 x17 x18) (kerNode x0 x1 x2 x3 x4 x5 x6 p) p 2 (fun i => Ideal.logistic (pre (kerParams x7 x8 x9 x10 x11 x12 x13 x14 x15 x16 x17 x18) (kerNode x0 x1 x2 x3 x4 x5 x6 p) 1 i) * (kerNode x0 x1 x2 x3 x4 x5 x6 p).q i) (k0_pay6 x3) x6 _ _ _ (View.ld (Val := Elt Ideal) (e' := .f32) x18 r0_13)
    (fun _ => rfl) (fun _ => rfl) e13 e15 e16 (ld_r0_13 x18)
  -- gate 4: the update, up to the previous hidden state's projection
  have e20 := pay20_spec (kerParams x7 x8 x9 x10 x11 x12 x13 x14 x15 x16 x17 x18) (kerNode x0 x1 x2 x3 x4 x5 x6 p) p 4 (k0_pay3 x0) (View.ld (Val := Elt Ideal) (e' := .bf16) x7 r0_19) (fun _ => rfl) (ld_r0_19 x7)
  have e21 := pay21_spec (kerParams x7 x8 x9 x10 x11 x12 x13 x14 x15 x16 x17 x18) (kerNode x0 x1 x2 x3 x4 x5 x6 p) p 4 (k0_pay4 x1) (View.ld (Val := Elt Ideal) (e' := .bf16) x8 r0_20) (fun _ => rfl) (ld_r0_20 x8)
  have e22 := pay22_spec (kerParams x7 x8 x9 x10 x11 x12 x13 x14 x15 x16 x17 x18) (kerNode x0 x1 x2 x3 x4 x5 x6 p) p 4 (k0_pay5 x2) (k0_pay7 x5) _ _ (View.ld (Val := Elt Ideal) (e' := .bf16) x9 r0_20) (View.ld (Val := Elt Ideal) (e' := .f32) x14 r0_21) (View.ld (Val := Elt Ideal) (e' := .bf16) x10 r0_22) (View.ld (Val := Elt Ideal) (e' := .f32) x15 r0_21) (View.ld (Val := Elt Ideal) (e' := .bf16) x11 r0_22) (View.ld (Val := Elt Ideal) (e' := .f32) x16 r0_21) (View.ld (Val := Elt Ideal) (e' := .bf16) x12 r0_22)
    (fun _ => rfl) (fun _ => rfl) e20 e21 (ld_r0_20 x9) (ld_r0_21 x14) (ld_r0_22 x10) (ld_r0_21 x15) (ld_r0_22 x11) (ld_r0_21 x16) (ld_r0_22 x12)
  -- gate 3: the output gate
  have e18 := pay18_spec (kerParams x7 x8 x9 x10 x11 x12 x13 x14 x15 x16 x17 x18) (kerNode x0 x1 x2 x3 x4 x5 x6 p) p 3 (k0_pay3 x0) (k0_pay4 x1) (k0_pay5 x2) (View.ld (Val := Elt Ideal) (e' := .bf16) x7 r0_15) (View.ld (Val := Elt Ideal) (e' := .bf16) x8 r0_16) (View.ld (Val := Elt Ideal) (e' := .bf16) x9 r0_16) (View.ld (Val := Elt Ideal) (e' := .f32) x14 r0_17) (View.ld (Val := Elt Ideal) (e' := .bf16) x10 r0_18) (View.ld (Val := Elt Ideal) (e' := .f32) x15 r0_17)
    (fun _ => rfl) (fun _ => rfl) (fun _ => rfl) (ld_r0_15 x7) (ld_r0_16 x8) (ld_r0_16 x9) (ld_r0_17 x14) (ld_r0_18 x10) (ld_r0_17 x15)
  have e19 := pay19_spec (kerParams x7 x8 x9 x10 x11 x12 x13 x14 x15 x16 x17 x18) (kerNode x0 x1 x2 x3 x4 x5 x6 p) p 3 (k0_pay6 x3) (k0_pay7 x5) _ (View.ld (Val := Elt Ideal) (e' := .bf16) x11 r0_18) (View.ld (Val := Elt Ideal) (e' := .f32) x16 r0_17) (View.ld (Val := Elt Ideal) (e' := .bf16) x12 r0_18) (View.ld (Val := Elt Ideal) (e' := .f32) x17 r0_17) (View.ld (Val := Elt Ideal) (e' := .bf16) x13 r0_18) (View.ld (Val := Elt Ideal) (e' := .f32) x18 r0_17)
    (fun _ => rfl) (fun _ => rfl) e18 (ld_r0_18 x11) (ld_r0_17 x16) (ld_r0_18 x12) (ld_r0_17 x17) (ld_r0_18 x13) (ld_r0_17 x18)
  exact pay2_spec (kerParams x7 x8 x9 x10 x11 x12 x13 x14 x15 x16 x17 x18) (kerNode x0 x1 x2 x3 x4 x5 x6 p) p 4 (fun i => Ideal.logistic (pre (kerParams x7 x8 x9 x10 x11 x12 x13 x14 x15 x16 x17 x18) (kerNode x0 x1 x2 x3 x4 x5 x6 p) 0 i)) (fun i => Ideal.logistic (pre (kerParams x7 x8 x9 x10 x11 x12 x13 x14 x15 x16 x17 x18) (kerNode x0 x1 x2 x3 x4 x5 x6 p) 1 i) * (kerNode x0 x1 x2 x3 x4 x5 x6 p).q i + Ideal.logistic (pre (kerParams x7 x8 x9 x10 x11 x12 x13 x14 x15 x16 x17 x18) (kerNode x0 x1 x2 x3 x4 x5 x6 p) 2 i) * (kerNode x0 x1 x2 x3 x4 x5 x6 p).cp i) (fun i => Ideal.logistic (pre (kerParams x7 x8 x9 x10 x11 x12 x13 x14 x15 x16 x17 x18) (kerNode x0 x1 x2 x3 x4 x5 x6 p) 3 i))
    (k0_pay6 x3) _ _ _ _ (View.ld (Val := Elt Ideal) (e' := .f32) x17 r0_21) (View.ld (Val := Elt Ideal) (e' := .bf16) x13 r0_22) (View.ld (Val := Elt Ideal) (e' := .f32) x18 r0_21) (fun _ => rfl) e10 e17 e19 e22 (ld_r0_21 x17) (ld_r0_22 x13) (ld_r0_21 x18) j

end Cert.KernelIdeal.Blk

end
-- ==== Proof.Point.lean ====
/-
  One grid point's blocks against the launch arrays.

  At grid point t the seven node windows (word, tag, relation, k, q, previous hidden and cell state) hold rows
  512 t … 512 t + 511 of their arrays, which no host operation touches; the twelve parameter windows hold their whole
  arrays at every point. Seven of those arrays are weight stacks the host transposed from [gate, out, in] to
  [gate, in, out] before the launch (their change of float format is the identity on extended reals), one is the sum of
  the word, tag and relation biases, and four are bias arguments as launched. So the parameters read out of the blocks in
  the kernel's layout are the parameters read out of the launch arrays in the reference's layout, and row p of the
  node blocks is node 512 t + p of the launch arrays.
-/
import proofs.«147965_j38689065402503_1_alg».proof.Proof.Gen.KernelIdeal.Value
import proofs.«147965_j38689065402503_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.TreeLstm

variable (m : (ℓ : Loc nD τ sig) → Buf (Elt Ideal) ℓ)

/-! ## The index maps, decided over the 32 grid points

On each axis a block's coordinate in its array is (block index) × (block extent) + (coordinate inside the block). -/

/-- The seven node windows step with the grid: block row t, block column 0. -/
theorem idx_nodes : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- The seven weight windows stay at block (0, 0, 0). -/
theorem idx_weights : ∀ t : Fin cfg0.N,
    (win0_7.index t (0 : Fin 3) = 0 ∧ win0_7.index t (1 : Fin 3) = 0 ∧ win0_7.index t (2 : Fin 3) = 0)
    ∧ (win0_8.index t (0 : Fin 3) = 0 ∧ win0_8.index t (1 : Fin 3) = 0 ∧ win0_8.index t (2 : Fin 3) = 0)
    ∧ (win0_9.index t (0 : Fin 3) = 0 ∧ win0_9.index t (1 : Fin 3) = 0 ∧ win0_9.index t (2 : Fin 3) = 0)
    ∧ (win0_10.index t (0 : Fin 3) = 0 ∧ win0_10.index t (1 : Fin 3) = 0 ∧ win0_10.index t (2 : Fin 3) = 0)
    ∧ (win0_11.index t (0 : Fin 3) = 0 ∧ win0_11.index t (1 : Fin 3) = 0 ∧ win0_11.index t (2 : Fin 3) = 0)
    ∧ (win0_12.index t (0 : Fin 3) = 0 ∧ win0_12.index t (1 : Fin 3) = 0 ∧ win0_12.index t (2 : Fin 3) = 0)
    ∧ (win0_13.index t (0 : Fin 3) = 0 ∧ win0_13.index t (1 : Fin 3) = 0 ∧ win0_13.index t (2 : Fin 3) = 0) :=
  (by decide +kernel : ∀ t : Fin grid0.N, _)

/-- The five bias windows stay at block (0, 0). -/
theorem idx_biases : ∀ t : Fin cfg0.N,
    (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0) :=
  (by decide +kernel : ∀ t : Fin grid0.N, _)

/-! ## The arrays the host wrote before the launch

Each weight stack is transposed on its last two axes and then narrowed in float format; on extended reals the
narrowing is the identity, so entry (g, k, j) of the staged stack is entry (g, j, k) of the launched one. The input
bias is the word, tag and relation biases summed in that order. -/

/-- The staged word weights at (g, k, j) are the launched ones at (g, j, k). -/
theorem entry_word (c : Dev nD) (g : Fin 5) (k : Fin 300) (j : Fin 512) :
    V m c main_v3 (ix3 g k j) = m ((c.tc : Thread nD τ).loc main_arg7) (ix3 g j k) := by
  have e : (V m c main_v3 : FVec Ideal S5x300x512 .bf16)
      = (truncf .bf16 (transpose S5x300x512 [0, 2, 1] (m ((c.tc : Thread nD τ).loc main_arg7) : FVec Ideal S5x512x300 .f32)
          transposes_S5x512x300_S5x300x512_0_2_1) bitsLt_bf16_f32 : FVec Ideal S5x300x512 .bf16) := by
    dsimp only [Gen.V, Gen.hostOps0]; after_results
  refine (congrFun e (ix3 g k j)).trans ?_
  rw [ValueIdx.truncf_apply, ValueIdx.transpose_ix3_021_apply]

/-- The staged tag weights at (g, k, j) are the launched ones at (g, j, k). -/
theorem entry_tag (c : Dev nD) (g : Fin 5) (k : Fin 50) (j : Fin 512) :
    V m c main_v5 (ix3 g k j) = m ((c.tc : Thread nD τ).loc main_arg9) (ix3 g j k) := by
  have e : (V m c main_v5 : FVec Ideal S5x50x512 .bf16)
      = (truncf .bf16 (transpose S5x50x512 [0, 2, 1] (m ((c.tc : Thread nD τ).loc main_arg9) : FVec Ideal S5x512x50 .f32)
          transposes_S5x512x50_S5x50x512_0_2_1) bitsLt_bf16_f32 : FVec Ideal S5x50x512 .bf16) := by
    dsimp only [Gen.V, Gen.hostOps0]; after_results
  refine (congrFun e (ix3 g k j)).trans ?_
  rw [ValueIdx.truncf_apply, ValueIdx.transpose_ix3_021_apply]

/-- The staged relation weights at (g, k, j) are the launched ones at (g, j, k). -/
theorem entry_rel (c : Dev nD) (g : Fin 5) (k : Fin 50) (j : Fin 512) :
    V m c main_v7 (ix3 g k j) = m ((c.tc : Thread nD τ).loc main_arg11) (ix3 g j k) := by
  have e : (V m c main_v7 : FVec Ideal S5x50x512 .bf16)
      = (truncf .bf16 (transpose S5x50x512 [0, 2, 1] (m ((c.tc : Thread nD τ).loc main_arg11) : FVec Ideal S5x512x50 .f32)
          transposes_S5x512x50_S5x50x512_0_2_1) bitsLt_bf16_f32 : FVec Ideal S5x50x512 .bf16) := by
    dsimp only [Gen.V, Gen.hostOps0]; after_results
  refine (congrFun e (ix3 g k j)).trans ?_
  rw [ValueIdx.truncf_apply, ValueIdx.transpose_ix3_021_apply]

/-- The staged hidden-layer weights at (g, k, j) are the launched ones at (g, j, k). -/
theorem entry_hid (c : Dev nD) (g : Fin 5) (k : Fin 512) (j : Fin 512) :
    V m c main_v9 (ix3 g k j) = m ((c.tc : Thread nD τ).loc main_arg13) (ix3 g j k) := by
  have e : (V m c main_v9 : FVec Ideal S5x512x512 .bf16)
      = (truncf .bf16 (transpose S5x512x512 [0, 2, 1] (m ((c.tc : Thread nD τ).loc main_arg13) : FVec Ideal S5x512x512 .f32)
          transposes_S5x512x512_S5x512x512_0_2_1) bitsLt_bf16_f32 : FVec Ideal S5x512x512 .bf16) := by
    dsimp only [Gen.V, Gen.hostOps0]; after_results
  refine (congrFun e (ix3 g k j)).trans ?_
  rw [ValueIdx.truncf_apply, ValueIdx.transpose_ix3_021_apply]

/-- The staged last-layer weights at (g, k, j) are the launched ones at (g, j, k). -/
theorem entry_last (c : Dev nD) (g : Fin 5) (k : Fin 512) (j : Fin 512) :
    V m c main_v11 (ix3 g k j) = m ((c.tc : Thread nD τ).loc main_arg15) (ix3 g j k) := by
  have e : (V m c main_v11 : FVec Ideal S5x512x512 .bf16)
      = (truncf .bf16 (transpose S5x512x512 [0, 2, 1] (m ((c.tc : Thread nD τ).loc main_arg15) : FVec Ideal S5x512x512 .f32)
          transposes_S5x512x512_S5x512x512_0_2_1) bitsLt_bf16_f32 : FVec Ideal S5x512x512 .bf16) := by
    dsimp only [Gen.V, Gen.hostOps0]; after_results
  refine (congrFun e (ix3 g k j)).trans ?_
  rw [ValueIdx.truncf_apply, ValueIdx.transpose_ix3_021_apply]

/-- The staged weights of the previous hidden state at (g, k, j) are the launched ones at (g, j, k). -/
theorem entry_hp (c : Dev nD) (g : Fin 5) (k : Fin 512) (j : Fin 512) :
    V m c main_v13 (ix3 g k j) = m ((c.tc : Thread nD τ).loc main_arg17) (ix3 g j k) := by
  have e : (V m c main_v13 : FVec Ideal S5x512x512 .bf16)
      = (truncf .bf16 (transpose S5x512x512 [0, 2, 1] (m ((c.tc : Thread nD τ).loc main_arg17) : FVec Ideal S5x512x512 .f32)
          transposes_S5x512x512_S5x512x512_0_2_1) bitsLt_bf16_f32 : FVec Ideal S5x512x512 .bf16) := by
    dsimp only [Gen.V, Gen.hostOps0]; after_results
  refine (congrFun e (ix3 g k j)).trans ?_
  rw [ValueIdx.truncf_apply, ValueIdx.transpose_ix3_021_apply]

/-- The staged weights of k at (g, k, j) are the launched ones at (g, j, k). -/
theorem entry_k (c : Dev nD) (g : Fin 5) (k : Fin 512) (j : Fin 512) :
    V m c main_v15 (ix3 g k j) = m ((c.tc : Thread nD τ).loc main_arg19) (ix3 g j k) := by
  have e : (V m c main_v15 : FVec Ideal S5x512x512 .bf16)
      = (truncf .bf16 (transpose S5x512x512 [0, 2, 1] (m ((c.tc : Thread nD τ).loc main_arg19) : FVec Ideal S5x512x512 .f32)
          transposes_S5x512x512_S5x512x512_0_2_1) bitsLt_bf16_f32 : FVec Ideal S5x512x512 .bf16) := by
    dsimp only [Gen.V, Gen.hostOps0]; after_results
  refine (congrFun e (ix3 g k j)).trans ?_
  rw [ValueIdx.truncf_apply, ValueIdx.transpose_ix3_021_apply]

/-- The staged input bias is the word and tag biases summed, then the relation bias added, entry by entry. -/
theorem entry_bias (c : Dev nD) :
    (V m c main_v1 : FVec Ideal S5x512 .f32)
      = (addf (addf (m ((c.tc : Thread nD τ).loc main_arg8) : FVec Ideal S5x512 .f32) (m ((c.tc : Thread nD τ).loc main_arg10) : FVec Ideal S5x512 .f32))
          (m ((c.tc : Thread nD τ).loc main_arg12) : FVec Ideal S5x512 .f32) : FVec Ideal S5x512 .f32) := by
  dsimp only [Gen.V, Gen.hostOps0]; after_results

/-! ## The node windows: row p of the block at point t is row 512 t + p of the launch array -/

/-- Words. -/
theorem node_word (c : Dev nD) (t : Fin cfg0.N) (p : Fin 512) (i : Fin 300) :
    iblk m c 0 t (ix2 p i) = m ((c.tc : Thread nD τ).loc main_arg0) (ix2 (nodeOf t p) i) := by
  obtain ⟨⟨e0, e1⟩, -⟩ := idx_nodes t
  refine Eq.trans ?_ (congrFun (V_main_arg0 m c) (ix2 (nodeOf t p) i))
  show V m c main_arg0 (((cfg0.win 0).blk t).view.emb (ix2 p i)) = V m c main_arg0 (ix2 (nodeOf t p) i)
  refine congrArg _ ?_
  funext a; apply Fin.ext
  match a with
  | ⟨0, _⟩ => show win0_0.index t (0 : Fin 2) * 512 + 1 * p.val = 512 * t.val + p.val; omega
  | ⟨1, _⟩ => show win0_0.index t (1 : Fin 2) * 300 + 1 * i.val = i.val; omega

/-- Tags. -/
theorem node_tag (c : Dev nD) (t : Fin cfg0.N) (p : Fin 512) (i : Fin 50) :
    iblk m c 1 t (ix2 p i) = m ((c.tc : Thread nD τ).loc main_arg1) (ix2 (nodeOf t p) i) := by
  obtain ⟨-, ⟨e0, e1⟩, -⟩ := idx_nodes t
  refine Eq.trans ?_ (congrFun (V_main_arg1 m c) (ix2 (nodeOf t p) i))
  show V m c main_arg1 (((cfg0.win 1).blk t).view.emb (ix2 p i)) = V m c main_arg1 (ix2 (nodeOf t p) i)
  refine congrArg _ ?_
  funext a; apply Fin.ext
  match a with
  | ⟨0, _⟩ => show win0_1.index t (0 : Fin 2) * 512 + 1 * p.val = 512 * t.val + p.val; omega
  | ⟨1, _⟩ => show win0_1.index t (1 : Fin 2) * 50 + 1 * i.val = i.val; omega

/-- Relations. -/
theorem node_rel (c : Dev nD) (t : Fin cfg0.N) (p : Fin 512) (i : Fin 50) :
    iblk m c 2 t (ix2 p i) = m ((c.tc : Thread nD τ).loc main_arg2) (ix2 (nodeOf t p) i) := by
  obtain ⟨-, -, ⟨e0, e1⟩, -⟩ := idx_nodes t
  refine Eq.trans ?_ (congrFun (V_main_arg2 m c) (ix2 (nodeOf t p) i))
  show V m c main_arg2 (((cfg0.win 2).blk t).view.emb (ix2 p i)) = V m c main_arg2 (ix2 (nodeOf t p) i)
  refine congrArg _ ?_
  funext a; apply Fin.ext
  match a with
  | ⟨0, _⟩ => show win0_2.index t (0 : Fin 2) * 512 + 1 * p.val = 512 * t.val + p.val; omega
  | ⟨1, _⟩ => show win0_2.index t (1 : Fin 2) * 50 + 1 * i.val = i.val; omega

/-- The memory vector k. -/
theorem node_k (c : Dev nD) (t : Fin cfg0.N) (p : Fin 512) (i : Fin 512) :
    iblk m c 3 t (ix2 p i) = m ((c.tc : Thread nD τ).loc main_arg3) (ix2 (nodeOf t p) i) := by
  obtain ⟨-, -, -, ⟨e0, e1⟩, -⟩ := idx_nodes t
  refine Eq.trans ?_ (congrFun (V_main_arg3 m c) (ix2 (nodeOf t p) i))
  show V m c main_arg3 (((cfg0.win 3).blk t).view.emb (ix2 p i)) = V m c main_arg3 (ix2 (nodeOf t p) i)
  refine congrArg _ ?_
  funext a; apply Fin.ext
  match a with
  | ⟨0, _⟩ => show win0_3.index t (0 : Fin 2) * 512 + 1 * p.val = 512 * t.val + p.val; omega
  | ⟨1, _⟩ => show win0_3.index t (1 : Fin 2) * 512 + 1 * i.val = i.val; omega

/-- The memory vector q. -/
theorem node_q (c : Dev nD) (t : Fin cfg0.N) (p : Fin 512) (i : Fin 512) :
    iblk m c 4 t (ix2 p i) = m ((c.tc : Thread nD τ).loc main_arg4) (ix2 (nodeOf t p) i) := by
  obtain ⟨-, -, -, -, ⟨e0, e1⟩, -⟩ := idx_nodes t
  refine Eq.trans ?_ (congrFun (V_main_arg4 m c) (ix2 (nodeOf t p) i))
  show V m c main_arg4 (((cfg0.win 4).blk t).view.emb (ix2 p i)) = V m c main_arg4 (ix2 (nodeOf t p) i)
  refine congrArg _ ?_
  funext a; apply Fin.ext
  match a with
  | ⟨0, _⟩ => show win0_4.index t (0 : Fin 2) * 512 + 1 * p.val = 512 * t.val + p.val; omega
  | ⟨1, _⟩ => show win0_4.index t (1 : Fin 2) * 512 + 1 * i.val = i.val; omega

/-- The previous hidden state. -/
theorem node_hp (c : Dev nD) (t : Fin cfg0.N) (p : Fin 512) (i : Fin 512) :
    iblk m c 5 t (ix2 p i) = m ((c.tc : Thread nD τ).loc main_arg5) (ix2 (nodeOf t p) i) := by
  obtain ⟨-, -, -, -, -, ⟨e0, e1⟩, -⟩ := idx_nodes t
  refine Eq.trans ?_ (congrFun (V_main_arg5 m c) (ix2 (nodeOf t p) i))
  show V m c main_arg5 (((cfg0.win 5).blk t).view.emb (ix2 p i)) = V m c main_arg5 (ix2 (nodeOf t p) i)
  refine congrArg _ ?_
  funext a; apply Fin.ext
  match a with
  | ⟨0, _⟩ => show win0_5.index t (0 : Fin 2) * 512 + 1 * p.val = 512 * t.val + p.val; omega
  | ⟨1, _⟩ => show win0_5.index t (1 : Fin 2) * 512 + 1 * i.val = i.val; omega

/-- The previous cell state. -/
theorem node_cp (c : Dev nD) (t : Fin cfg0.N) (p : Fin 512) (i : Fin 512) :
    iblk m c 6 t (ix2 p i) = m ((c.tc : Thread nD τ).loc main_arg6) (ix2 (nodeOf t p) i) := by
  obtain ⟨-, -, -, -, -, -, e0, e1⟩ := idx_nodes t
  refine Eq.trans ?_ (congrFun (V_main_arg6 m c) (ix2 (nodeOf t p) i))
  show V m c main_arg6 (((cfg0.win 6).blk t).view.emb (ix2 p i)) = V m c main_arg6 (ix2 (nodeOf t p) i)
  refine congrArg _ ?_
  funext a; apply Fin.ext
  match a with
  | ⟨0, _⟩ => show win0_6.index t (0 : Fin 2) * 512 + 1 * p.val = 512 * t.val + p.val; omega
  | ⟨1, _⟩ => show win0_6.index t (1 : Fin 2) * 512 + 1 * i.val = i.val; omega

/-! ## The weight windows: the whole staged stack at every point, read back to the launch array -/

/-- Word weights. -/
theorem wgt_word (c : Dev nD) (t : Fin cfg0.N) (g : Fin 5) (k : Fin 300) (j : Fin 512) :
    iblk m c 7 t (ix3 g k j) = m ((c.tc : Thread nD τ).loc main_arg7) (ix3 g j k) := by
  obtain ⟨⟨e0, e1, e2⟩, -⟩ := idx_weights t
  refine Eq.trans ?_ (entry_word m c g k j)
  show V m c main_v3 (((cfg0.win 7).blk t).view.emb (ix3 g k j)) = V m c main_v3 (ix3 g k j)
  refine congrArg _ ?_
  funext a; apply Fin.ext
  match a with
  | ⟨0, _⟩ => show win0_7.index t (0 : Fin 3) * 5 + 1 * g.val = g.val; omega
  | ⟨1, _⟩ => show win0_7.index t (1 : Fin 3) * 300 + 1 * k.val = k.val; omega
  | ⟨2, _⟩ => show win0_7.index t (2 : Fin 3) * 512 + 1 * j.val = j.val; omega

/-- Tag weights. -/
theorem wgt_tag (c : Dev nD) (t : Fin cfg0.N) (g : Fin 5) (k : Fin 50) (j : Fin 512) :
    iblk m c 8 t (ix3 g k j) = m ((c.tc : Thread nD τ).loc main_arg9) (ix3 g j k) := by
  obtain ⟨-, ⟨e0, e1, e2⟩, -⟩ := idx_weights t
  refine Eq.trans ?_ (entry_tag m c g k j)
  show V m c main_v5 (((cfg0.win 8).blk t).view.emb (ix3 g k j)) = V m c main_v5 (ix3 g k j)
  refine congrArg _ ?_
  funext a; apply Fin.ext
  match a with
  | ⟨0, _⟩ => show win0_8.index t (0 : Fin 3) * 5 + 1 * g.val = g.val; omega
  | ⟨1, _⟩ => show win0_8.index t (1 : Fin 3) * 50 + 1 * k.val = k.val; omega
  | ⟨2, _⟩ => show win0_8.index t (2 : Fin 3) * 512 + 1 * j.val = j.val; omega

/-- Relation weights. -/
theorem wgt_rel (c : Dev nD) (t : Fin cfg0.N) (g : Fin 5) (k : Fin 50) (j : Fin 512) :
    iblk m c 9 t (ix3 g k j) = m ((c.tc : Thread nD τ).loc main_arg11) (ix3 g j k) := by
  obtain ⟨-, -, ⟨e0, e1, e2⟩, -⟩ := idx_weights t
  refine Eq.trans ?_ (entry_rel m c g k j)
  show V m c main_v7 (((cfg0.win 9).blk t).view.emb (ix3 g k j)) = V m c main_v7 (ix3 g k j)
  refine congrArg _ ?_
  funext a; apply Fin.ext
  match a with
  | ⟨0, _⟩ => show win0_9.index t (0 : Fin 3) * 5 + 1 * g.val = g.val; omega
  | ⟨1, _⟩ => show win0_9.index t (1 : Fin 3) * 50 + 1 * k.val = k.val; omega
  | ⟨2, _⟩ => show win0_9.index t (2 : Fin 3) * 512 + 1 * j.val = j.val; omega

/-- Hidden-layer weights. -/
theorem wgt_hid (c : Dev nD) (t : Fin cfg0.N) (g : Fin 5) (k : Fin 512) (j : Fin 512) :
    iblk m c 10 t (ix3 g k j) = m ((c.tc : Thread nD τ).loc main_arg13) (ix3 g j k) := by
  obtain ⟨-, -, -, ⟨e0, e1, e2⟩, -⟩ := idx_weights t
  refine Eq.trans ?_ (entry_hid m c g k j)
  show V m c main_v9 (((cfg0.win 10).blk t).view.emb (ix3 g k j)) = V m c main_v9 (ix3 g k j)
  refine congrArg _ ?_
  funext a; apply Fin.ext
  match a with
  | ⟨0, _⟩ => show win0_10.index t (0 : Fin 3) * 5 + 1 * g.val = g.val; omega
  | ⟨1, _⟩ => show win0_10.index t (1 : Fin 3) * 512 + 1 * k.val = k.val; omega
  | ⟨2, _⟩ => show win0_10.index t (2 : Fin 3) * 512 + 1 * j.val = j.val; omega

/-- Last-layer weights. -/
theorem wgt_last (c : Dev nD) (t : Fin cfg0.N) (g : Fin 5) (k : Fin 512) (j : Fin 512) :
    iblk m c 11 t (ix3 g k j) = m ((c.tc : Thread nD τ).loc main_arg15) (ix3 g j k) := by
  obtain ⟨-, -, -, -, ⟨e0, e1, e2⟩, -⟩ := idx_weights t
  refine Eq.trans ?_ (entry_last m c g k j)
  show V m c main_v11 (((cfg0.win 11).blk t).view.emb (ix3 g k j)) = V m c main_v11 (ix3 g k j)
  refine congrArg _ ?_
  funext a; apply Fin.ext
  match a with
  | ⟨0, _⟩ => show win0_11.index t (0 : Fin 3) * 5 + 1 * g.val = g.val; omega
  | ⟨1, _⟩ => show win0_11.index t (1 : Fin 3) * 512 + 1 * k.val = k.val; omega
  | ⟨2, _⟩ => show win0_11.index t (2 : Fin 3) * 512 + 1 * j.val = j.val; omega

/-- Weights of the previous hidden state. -/
theorem wgt_hp (c : Dev nD) (t : Fin cfg0.N) (g : Fin 5) (k : Fin 512) (j : Fin 512) :
    iblk m c 12 t (ix3 g k j) = m ((c.tc : Thread nD τ).loc main_arg17) (ix3 g j k) := by
  obtain ⟨-, -, -, -, -, ⟨e0, e1, e2⟩, -⟩ := idx_weights t
  refine Eq.trans ?_ (entry_hp m c g k j)
  show V m c main_v13 (((cfg0.win 12).blk t).view.emb (ix3 g k j)) = V m c main_v13 (ix3 g k j)
  refine congrArg _ ?_
  funext a; apply Fin.ext
  match a with
  | ⟨0, _⟩ => show win0_12.index t (0 : Fin 3) * 5 + 1 * g.val = g.val; omega
  | ⟨1, _⟩ => show win0_12.index t (1 : Fin 3) * 512 + 1 * k.val = k.val; omega
  | ⟨2, _⟩ => show win0_12.index t (2 : Fin 3) * 512 + 1 * j.val = j.val; omega

/-- Weights of k. -/
theorem wgt_k (c : Dev nD) (t : Fin cfg0.N) (g : Fin 5) (k : Fin 512) (j : Fin 512) :
    iblk m c 13 t (ix3 g k j) = m ((c.tc : Thread nD τ).loc main_arg19) (ix3 g j k) := by
  obtain ⟨-, -, -, -, -, -, e0, e1, e2⟩ := idx_weights t
  refine Eq.trans ?_ (entry_k m c g k j)
  show V m c main_v15 (((cfg0.win 13).blk t).view.emb (ix3 g k j)) = V m c main_v15 (ix3 g k j)
  refine congrArg _ ?_
  funext a; apply Fin.ext
  match a with
  | ⟨0, _⟩ => show win0_13.index t (0 : Fin 3) * 5 + 1 * g.val = g.val; omega
  | ⟨1, _⟩ => show win0_13.index t (1 : Fin 3) * 512 + 1 * k.val = k.val; omega
  | ⟨2, _⟩ => show win0_13.index t (2 : Fin 3) * 512 + 1 * j.val = j.val; omega

/-! ## The bias windows: the whole array at every point -/

/-- The input bias: the staged sum, read back to the three launched biases. -/
theorem bias_in (c : Dev nD) (t : Fin cfg0.N) (g : Fin 5) (j : Fin 512) :
    iblk m c 14 t (ix2 g j)
      = (addf (addf (m ((c.tc : Thread nD τ).loc main_arg8) : FVec Ideal S5x512 .f32) (m ((c.tc : Thread nD τ).loc main_arg10) : FVec Ideal S5x512 .f32))
          (m ((c.tc : Thread nD τ).loc main_arg12) : FVec Ideal S5x512 .f32) : FVec Ideal S5x512 .f32) (ix2 g j) := by
  obtain ⟨⟨e0, e1⟩, -⟩ := idx_biases t
  refine Eq.trans ?_ (congrFun (entry_bias m c) (ix2 g j))
  show V m c main_v1 (((cfg0.win 14).blk t).view.emb (ix2 g j)) = V m c main_v1 (ix2 g j)
  refine congrArg _ ?_
  funext a; apply Fin.ext
  match a with
  | ⟨0, _⟩ => show win0_14.index t (0 : Fin 2) * 5 + 1 * g.val = g.val; omega
  | ⟨1, _⟩ => show win0_14.index t (1 : Fin 2) * 512 + 1 * j.val = j.val; omega

/-- The hidden layer's bias. -/
theorem bias_hid (c : Dev nD) (t : Fin cfg0.N) (g : Fin 5) (j : Fin 512) :
    iblk m c 15 t (ix2 g j) = m ((c.tc : Thread nD τ).loc main_arg14) (ix2 g j) := by
  obtain ⟨-, ⟨e0, e1⟩, -⟩ := idx_biases t
  refine Eq.trans ?_ (congrFun (V_main_arg14 m c) (ix2 g j))
  show V m c main_arg14 (((cfg0.win 15).blk t).view.emb (ix2 g j)) = V m c main_arg14 (ix2 g j)
  refine congrArg _ ?_
  funext a; apply Fin.ext
  match a with
  | ⟨0, _⟩ => show win0_15.index t (0 : Fin 2) * 5 + 1 * g.val = g.val; omega
  | ⟨1, _⟩ => show win0_15.index t (1 : Fin 2) * 512 + 1 * j.val = j.val; omega

/-- The last layer's bias. -/
theorem bias_last (c : Dev nD) (t : Fin cfg0.N) (g : Fin 5) (j : Fin 512) :
    iblk m c 16 t (ix2 g j) = m ((c.tc : Thread nD τ).loc main_arg16) (ix2 g j) := by
  obtain ⟨-, -, ⟨e0, e1⟩, -⟩ := idx_biases t
  refine Eq.trans ?_ (congrFun (V_main_arg16 m c) (ix2 g j))
  show V m c main_arg16 (((cfg0.win 16).blk t).view.emb (ix2 g j)) = V m c main_arg16 (ix2 g j)
  refine congrArg _ ?_
  funext a; apply Fin.ext
  match a with
  | ⟨0, _⟩ => show win0_16.index t (0 : Fin 2) * 5 + 1 * g.val = g.val; omega
  | ⟨1, _⟩ => show win0_16.index t (1 : Fin 2) * 512 + 1 * j.val = j.val; omega

/-- The bias of the previous hidden state's projection. -/
theorem bias_hp (c : Dev nD) (t : Fin cfg0.N) (g : Fin 5) (j : Fin 512) :
    iblk m c 17 t (ix2 g j) = m ((c.tc : Thread nD τ).loc main_arg18) (ix2 g j) := by
  obtain ⟨-, -, -, ⟨e0, e1⟩, -⟩ := idx_biases t
  refine Eq.trans ?_ (congrFun (V_main_arg18 m c) (ix2 g j))
  show V m c main_arg18 (((cfg0.win 17).blk t).view.emb (ix2 g j)) = V m c main_arg18 (ix2 g j)
  refine congrArg _ ?_
  funext a; apply Fin.ext
  match a with
  | ⟨0, _⟩ => show win0_17.index t (0 : Fin 2) * 5 + 1 * g.val = g.val; omega
  | ⟨1, _⟩ => show win0_17.index t (1 : Fin 2) * 512 + 1 * j.val = j.val; omega

/-- The bias of k's projection. -/
theorem bias_k (c : Dev nD) (t : Fin cfg0.N) (g : Fin 5) (j : Fin 512) :
    iblk m c 18 t (ix2 g j) = m ((c.tc : Thread nD τ).loc main_arg20) (ix2 g j) := by
  obtain ⟨-, -, -, -, e0, e1⟩ := idx_biases t
  refine Eq.trans ?_ (congrFun (V_main_arg20 m c) (ix2 g j))
  show V m c main_arg20 (((cfg0.win 18).blk t).view.emb (ix2 g j)) = V m c main_arg20 (ix2 g j)
  refine congrArg _ ?_
  funext a; apply Fin.ext
  match a with
  | ⟨0, _⟩ => show win0_18.index t (0 : Fin 2) * 5 + 1 * g.val = g.val; omega
  | ⟨1, _⟩ => show win0_18.index t (1 : Fin 2) * 512 + 1 * j.val = j.val; omega

/-! ## The two layouts hold the same parameters and the same node

Both sides are records of functions; two records are equal when their fields are, and each field is one of the
reads above at every index. The input bias closes by reading the entrywise sum at its index. -/

/-- The parameters in the resident blocks at any point are the launch arrays' parameters. -/
theorem point_params (c : Dev nD) (t : Fin cfg0.N) :
    kerParams (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
      = refParams (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold kerParams refParams
  rw [Params.mk.injEq]
  refine ⟨?_, ?_, ?_, ?_, ?_, ?_, ?_, ?_, ?_, ?_, ?_, ?_⟩
  · funext g j w; exact wgt_word m c t g w j
  · funext g j w; exact wgt_tag m c t g w j
  · funext g j w; exact wgt_rel m c t g w j
  · funext g j h; exact wgt_hid m c t g h j
  · funext g j h; exact wgt_last m c t g h j
  · funext g j i; exact wgt_hp m c t g i j
  · funext g j i; exact wgt_k m c t g i j
  · funext g j
    refine (bias_in m c t g j).trans ?_
    rw [ValueIdx.addf_apply, ValueIdx.addf_apply]
  · funext g j; exact bias_hid m c t g j
  · funext g j; exact bias_last m c t g j
  · funext g j; exact bias_hp m c t g j
  · funext g j; exact bias_k m c t g j

/-- Row `p` of the node blocks at point `t` is node 512 t + p of the launch arrays. -/
theorem point_node (c : Dev nD) (t : Fin cfg0.N) (p : Fin 512) :
    kerNode (iblk m c 0 t) (iblk m c 1 t) (iblk m c 2 t) (iblk m c 3 t) (iblk m c 4 t) (iblk m c 5 t) (iblk m c 6 t) p
      = refNode (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (nodeOf t p) := by
  unfold kerNode refNode
  rw [Node.mk.injEq]
  refine ⟨?_, ?_, ?_, ?_, ?_, ?_, ?_⟩
  · funext w; exact node_word m c t p w
  · funext i; exact node_tag m c t p i
  · funext i; exact node_rel m c t p i
  · funext i; exact node_k m c t p i
  · funext i; exact node_q m c t p i
  · funext i; exact node_hp m c t p i
  · funext i; exact node_cp m c t p i

end Cert.KernelIdeal.Whole

end
-- ==== Proof.Final.lean ====
/-
  From blocks to arrays: after the kernel's run the two output arrays hold the hidden and the cell states of all 16384
  nodes.

  Grid point t works on nodes 512 t … 512 t + 511: the seven node windows' blocks are rows 512 t … of their arrays, the
  twelve parameter windows' blocks are their whole arrays at every point. The weight arrays the region finds were made
  by the host before the launch: each [5, out, in] stack transposed to [5, in, out] (the change of float format is the
  identity on extended reals), and the first layer's bias is the sum of the word, tag and relation biases. So row p of
  the block point t writes back is the state of node 512 t + p computed from the launch arrays, the 32 blocks cover
  the output arrays, and each output array is the whole-array function of Spec.lean.
-/
import proofs.«147965_j38689065402503_1_alg».proof.Proof.Gen.KernelIdeal.Value
import proofs.«147965_j38689065402503_1_alg».proof.Proof.Spec
import proofs.«147965_j38689065402503_1_alg».proof.Proof.KLib
import proofs.«147965_j38689065402503_1_alg».proof.Proof.KernelBlock
import proofs.«147965_j38689065402503_1_alg».proof.Proof.Point
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.TreeLstm
open Idealize.ShloMosaic.Pipeline (Dat)

variable (m : (ℓ : Loc nD τ sig) → Buf (Elt Ideal) ℓ)

/-! ## Output window 19: the hidden states -/

/-- Window 19's index map over the grid: point t's block is block row t, block column 0 (decided over the 32 points). -/
theorem out_index19 : ∀ t : Fin cfg0.N, win0_19.index t (0 : Fin 2) = t.val ∧ win0_19.index t (1 : Fin 2) = 0 :=
  (by decide +kernel : ∀ t : Fin grid0.N, _)

/-- The hidden-state array at an index whose row is node `n` and whose column is `j`. -/
theorem Gh_at (a0 : A2 16384 300) (a1 a2 : A2 16384 50) (a3 a4 a5 a6 : A2 16384 512)
    (W7 : A3 5 512 300) (b8 : A2 5 512) (W9 : A3 5 512 50) (b10 : A2 5 512) (W11 : A3 5 512 50) (b12 : A2 5 512)
    (W13 : A3 5 512 512) (b14 : A2 5 512) (W15 : A3 5 512 512) (b16 : A2 5 512) (W17 : A3 5 512 512) (b18 : A2 5 512)
    (W19 : A3 5 512 512) (b20 : A2 5 512)
    (i : (⟨2, ![16384, 512]⟩ : Shape).Idx) (n : Fin 16384) (j : Fin 512) (hn : (i 0).val = n.val) (hj : (i 1).val = j.val) :
    Gh a0 a1 a2 a3 a4 a5 a6 W7 b8 W9 b10 W11 b12 W13 b14 W15 b16 W17 b18 W19 b20 i = hid (refParams W7 b8 W9 b10 W11 b12 W13 b14 W15 b16 W17 b18 W19 b20) (refNode a0 a1 a2 a3 a4 a5 a6 n) j := by
  have e0 : i 0 = n := Fin.ext hn
  have e1 : i 1 = j := Fin.ext hj
  show hid _ (refNode a0 a1 a2 a3 a4 a5 a6 (i 0)) (i 1) = _
  rw [e0, e1]

/-- What point t writes back to window 19's array is block t of the hidden-state array of the launch arrays: entry
    (p, j) of the block is the hidden state of the node in row p of the point's node blocks, that node is node 512 t + p
    of the launch arrays, and the block's entry (p, j) sits at row 512 t + p, column j of the array. -/
theorem flushed19_eq (c : Dev nD) (t : Fin cfg0.N) :
    (dats m 0 c).flushed 19 t = ((cfg0.win 19).blk t).view.read (Elt Ideal) (Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  rw [Value.flushed19]
  funext y
  obtain ⟨p, j, rfl⟩ : ∃ (p : Fin 512) (j : Fin 512), y = ix2 p j := ⟨y 0, y 1, ValueIdx.eq_ix2 y⟩
  show out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 p j) = Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (((cfg0.win 19).blk t).view.emb (ix2 p j))
  rw [Blk.out19_apply, point_params m c t, point_node m c t p]
  obtain ⟨e0, e1⟩ := out_index19 t
  have ht : t.val < 32 := t.isLt
  refine (Gh_at _ _ _ _ _ _ _ _ _ _ _ _ _ _ _ _ _ _ _ _ _ _ (nodeOf t p) j ?_ ?_).symm
  · show win0_19.index t (0 : Fin 2) * 512 + 1 * p.val = 512 * t.val + p.val
    omega
  · show win0_19.index t (1 : Fin 2) * 512 + 1 * j.val = j.val
    omega

/-- An index of the array is in point t's block iff each coordinate is in the block's range on its axis. -/
theorem mem_blk19 (t : Fin cfg0.N) (i : S16384x512.Idx) :
    i ∈ ((cfg0.win 19).blk t).view.set ↔ ∀ a : Fin 2, win0_19.index t a * S512x512.size a ≤ (i a).val ∧ (i a).val < win0_19.index t a * S512x512.size a + S512x512.size a := by
  show i ∈ ((View.whole main_v16_0).slice (win0_19.rect t)).set ↔ _
  rw [View.set_slice_whole, Rect.mem_set_unit]
  exact Iff.rfl

/-- The 32 blocks cover the array: row r lies in the block of point r / 512, and every point writes back. -/
theorem cover19 (i : S16384x512.Idx) :
    ∃ t : Fin cfg0.N, (cfg0.win 19).flush t = true ∧ i ∈ ((cfg0.win 19).blk t).view.set := by
  have hi0 : (i 0).val < 16384 := (i 0).isLt
  have hi1 : (i 1).val < 512 := (i 1).isLt
  have hq : (i 0).val / 512 < 32 := by omega
  obtain ⟨e0, e1⟩ := out_index19 (⟨(i 0).val / 512, hq⟩ : Fin cfg0.N)
  have e0' : win0_19.index (⟨(i 0).val / 512, hq⟩ : Fin cfg0.N) (0 : Fin 2) = (i 0).val / 512 := e0
  refine ⟨⟨(i 0).val / 512, hq⟩, flush0_19 _, ?_⟩
  rw [mem_blk19]
  intro a
  match a with
  | ⟨0, _⟩ =>
    show win0_19.index (⟨(i 0).val / 512, hq⟩ : Fin cfg0.N) (0 : Fin 2) * 512 ≤ (i 0).val ∧ (i 0).val < win0_19.index (⟨(i 0).val / 512, hq⟩ : Fin cfg0.N) (0 : Fin 2) * 512 + 512
    omega
  | ⟨1, _⟩ =>
    show win0_19.index (⟨(i 0).val / 512, hq⟩ : Fin cfg0.N) (1 : Fin 2) * 512 ≤ (i 1).val ∧ (i 1).val < win0_19.index (⟨(i 0).val / 512, hq⟩ : Fin cfg0.N) (1 : Fin 2) * 512 + 512
    omega

/-! ## Output window 20: the cell states -/

/-- Window 20's index map over the grid: point t's block is block row t, block column 0 (decided over the 32 points). -/
theorem out_index20 : ∀ t : Fin cfg0.N, win0_20.index t (0 : Fin 2) = t.val ∧ win0_20.index t (1 : Fin 2) = 0 :=
  (by decide +kernel : ∀ t : Fin grid0.N, _)

/-- The cell-state array at an index whose row is node `n` and whose column is `j`. -/
theorem Gc_at (a0 : A2 16384 300) (a1 a2 : A2 16384 50) (a3 a4 a5 a6 : A2 16384 512)
    (W7 : A3 5 512 300) (b8 : A2 5 512) (W9 : A3 5 512 50) (b10 : A2 5 512) (W11 : A3 5 512 50) (b12 : A2 5 512)
    (W13 : A3 5 512 512) (b14 : A2 5 512) (W15 : A3 5 512 512) (b16 : A2 5 512) (W17 : A3 5 512 512) (b18 : A2 5 512)
    (W19 : A3 5 512 512) (b20 : A2 5 512)
    (i : (⟨2, ![16384, 512]⟩ : Shape).Idx) (n : Fin 16384) (j : Fin 512) (hn : (i 0).val = n.val) (hj : (i 1).val = j.val) :
    Gc a0 a1 a2 a3 a4 a5 a6 W7 b8 W9 b10 W11 b12 W13 b14 W15 b16 W17 b18 W19 b20 i = cell (refParams W7 b8 W9 b10 W11 b12 W13 b14 W15 b16 W17 b18 W19 b20) (refNode a0 a1 a2 a3 a4 a5 a6 n) j := by
  have e0 : i 0 = n := Fin.ext hn
  have e1 : i 1 = j := Fin.ext hj
  show cell _ (refNode a0 a1 a2 a3 a4 a5 a6 (i 0)) (i 1) = _
  rw [e0, e1]

/-- What point t writes back to window 20's array is block t of the cell-state array of the launch arrays: entry
    (p, j) of the block is the cell state of the node in row p of the point's node blocks, that node is node 512 t + p
    of the launch arrays, and the block's entry (p, j) sits at row 512 t + p, column j of the array. -/
theorem flushed20_eq (c : Dev nD) (t : Fin cfg0.N) :
    (dats m 0 c).flushed 20 t = ((cfg0.win 20).blk t).view.read (Elt Ideal) (Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  rw [Value.flushed20]
  funext y
  obtain ⟨p, j, rfl⟩ : ∃ (p : Fin 512) (j : Fin 512), y = ix2 p j := ⟨y 0, y 1, ValueIdx.eq_ix2 y⟩
  show out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix2 p j) = Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (((cfg0.win 20).blk t).view.emb (ix2 p j))
  rw [Blk.out20_apply, point_params m c t, point_node m c t p]
  obtain ⟨e0, e1⟩ := out_index20 t
  have ht : t.val < 32 := t.isLt
  refine (Gc_at _ _ _ _ _ _ _ _ _ _ _ _ _ _ _ _ _ _ _ _ _ _ (nodeOf t p) j ?_ ?_).symm
  · show win0_20.index t (0 : Fin 2) * 512 + 1 * p.val = 512 * t.val + p.val
    omega
  · show win0_20.index t (1 : Fin 2) * 512 + 1 * j.val = j.val
    omega

/-- An index of the array is in point t's block iff each coordinate is in the block's range on its axis. -/
theorem mem_blk20 (t : Fin cfg0.N) (i : S16384x512.Idx) :
    i ∈ ((cfg0.win 20).blk t).view.set ↔ ∀ a : Fin 2, win0_20.index t a * S512x512.size a ≤ (i a).val ∧ (i a).val < win0_20.index t a * S512x512.size a + S512x512.size a := by
  show i ∈ ((View.whole main_v16_1).slice (win0_20.rect t)).set ↔ _
  rw [View.set_slice_whole, Rect.mem_set_unit]
  exact Iff.rfl

/-- The 32 blocks cover the array: row r lies in the block of point r / 512, and every point writes back. -/
theorem cover20 (i : S16384x512.Idx) :
    ∃ t : Fin cfg0.N, (cfg0.win 20).flush t = true ∧ i ∈ ((cfg0.win 20).blk t).view.set := by
  have hi0 : (i 0).val < 16384 := (i 0).isLt
  have hi1 : (i 1).val < 512 := (i 1).isLt
  have hq : (i 0).val / 512 < 32 := by omega
  obtain ⟨e0, e1⟩ := out_index20 (⟨(i 0).val / 512, hq⟩ : Fin cfg0.N)
  have e0' : win0_20.index (⟨(i 0).val / 512, hq⟩ : Fin cfg0.N) (0 : Fin 2) = (i 0).val / 512 := e0
  refine ⟨⟨(i 0).val / 512, hq⟩, flush0_20 _, ?_⟩
  rw [mem_blk20]
  intro a
  match a with
  | ⟨0, _⟩ =>
    show win0_20.index (⟨(i 0).val / 512, hq⟩ : Fin cfg0.N) (0 : Fin 2) * 512 ≤ (i 0).val ∧ (i 0).val < win0_20.index (⟨(i 0).val / 512, hq⟩ : Fin cfg0.N) (0 : Fin 2) * 512 + 512
    omega
  | ⟨1, _⟩ =>
    show win0_20.index (⟨(i 0).val / 512, hq⟩ : Fin cfg0.N) (1 : Fin 2) * 512 ≤ (i 1).val ∧ (i 1).val < win0_20.index (⟨(i 0).val / 512, hq⟩ : Fin cfg0.N) (1 : Fin 2) * 512 + 512
    omega

/-- After the run, the first output array (window 19: `main_v16_0`) is the hidden states of the launch arrays. -/
theorem final19 (c : Dev nD) :
    (dats m 0 c).arrAt 19 cfg0.N = Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  exact (dats m 0 c).arrAt_eq_of_cover 19 (Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) (fun t _ => flushed19_eq m c t) cover19

/-- After the run, the second output array (window 20: `main_v16_1`) is the cell states of the launch arrays. -/
theorem final20 (c : Dev nD) :
    (dats m 0 c).arrAt 20 cfg0.N = Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  exact (dats m 0 c).arrAt_eq_of_cover 20 (Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) (fun t _ => flushed20_eq m c t) cover20

end Cert.KernelIdeal.Whole

end
-- ==== Proof.lean ====
/- The proof of `Cert.Claim` (proofs.«147965_j38689065402503_1_alg».proof.Defs): a tree-composition LSTM cell over 16384
   nodes, as a Pallas kernel against its jnp reference, equal over the extended reals.

   Both programs compute, for every node n and every output j, the cell state and the hidden state of Proof/Spec.lean:
   five gates, each a three-layer perceptron of the node's word, tag and relation vectors plus linear maps of its
   previous hidden state and of k, then logistic / tanh gates combined into the new cell state and hidden state.
   The kernel takes 512 nodes per grid point, keeps the weights resident (transposed and re-typed by the host before the
   launch, which is the identity on extended reals up to the index swap), runs the five gates one after the other and
   accumulates the cell state as it goes; the reference runs all gates at once over [5, 16384, 512] arrays, with the
   weight as the left factor of some products, the logistic function spelt 1 / (1 + exp (-x)), and the cell state's
   terms in another order. Over the extended reals these differ by commutativity and associativity of + and * only, so
   the precondition (finite inputs) is never opened.
   Proof/Spec.lean is the mathematics; Proof/RefValue.lean reads the reference's two results as that function;
   Proof/KLib.lean, PayA.lean, PayB.lean and KernelBlock.lean read what one grid point writes back; Proof/Point.lean
   and Final.lean turn the 32 blocks into the whole output arrays. The frames are the generated ones (the reference's
   is its generated run with the results dropped), and `preserves` has no entry to state. -/
import proofs.«147965_j38689065402503_1_alg».proof.Defs
import proofs.«147965_j38689065402503_1_alg».proof.Proof.Gen.Kernel
import proofs.«147965_j38689065402503_1_alg».proof.Proof.Gen.Kernel.Skeleton
import proofs.«147965_j38689065402503_1_alg».proof.Proof.Gen.Kernel.Launch
import proofs.«147965_j38689065402503_1_alg».proof.Proof.Gen.Kernel.Points
import proofs.«147965_j38689065402503_1_alg».proof.Proof.Gen.Kernel.Frame
import proofs.«147965_j38689065402503_1_alg».proof.Proof.Gen.KernelIdeal
import proofs.«147965_j38689065402503_1_alg».proof.Proof.Gen.KernelIdeal.Skeleton
import proofs.«147965_j38689065402503_1_alg».proof.Proof.Gen.KernelIdeal.Launch
import proofs.«147965_j38689065402503_1_alg».proof.Proof.Gen.KernelIdeal.Points
import proofs.«147965_j38689065402503_1_alg».proof.Proof.Gen.KernelIdeal.Frame
import proofs.«147965_j38689065402503_1_alg».proof.Proof.Gen.ReferenceIdeal
import proofs.«147965_j38689065402503_1_alg».proof.Proof.Gen.KernelIdeal.Value
import proofs.«147965_j38689065402503_1_alg».proof.Proof.Gen.ReferenceIdeal.Run
import proofs.«147965_j38689065402503_1_alg».proof.Proof.Gen.ReferenceIdeal.Read
import proofs.«147965_j38689065402503_1_alg».proof.Proof.Gen.Pre_finite_inputs
import proofs.«147965_j38689065402503_1_alg».proof.Proof.Spec
import proofs.«147965_j38689065402503_1_alg».proof.Proof.RefValue
import proofs.«147965_j38689065402503_1_alg».proof.Proof.Final
import Idealize.ShloMosaic.Adequacy
import Idealize.ShloMosaic.Init

noncomputable section

namespace Cert.Proof

open Idealize.ShloMosaic Idealize.SL.Sem Cert.TreeLstm

/-- The kernel as printed runs and leaves its arguments unchanged: the generated frame. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is host operations only: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

set_option maxHeartbeats 4000000 in
/-- From memories that agree on the 21 arguments both programs end with the hidden states in their first result and the
    cell states in their second: the same two functions of the arguments. -/
theorem algebraic : Cert.algebraic_KernelIdeal_ReferenceIdeal := by
  intro m ρ m' ρ' _ hagree
  refine ⟨fun c => Gh (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => Gc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun r h c => ⟨(h c).1.trans (Cert.KernelIdeal.Whole.final19 m c), (h c).2.1.trans (Cert.KernelIdeal.Whole.final20 m c), (h c).2.2⟩)
      (Cert.KernelIdeal.Value.run_blocks (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17, h18, h19, h20⟩ := hagree c
      rw [Cert.ReferenceIdeal.Read.val_main_v77_eq, Cert.ReferenceIdeal.RefValue.ref_h,
        h0, h1, h2, h3, h4, h5, h6, h7, h8, h9, h10, h11, h12, h13, h14, h15, h16, h17, h18, h19, h20]
    · obtain ⟨h0, h1, h2, h3, h4, h5, h6, h7, h8, h9, h10, h11, h12, h13, h14, h15, h16, h17, h18, h19, h20⟩ := hagree c
      rw [Cert.ReferenceIdeal.Read.val_main_v75_eq, Cert.ReferenceIdeal.RefValue.ref_c,
        h0, h1, h2, h3, h4, h5, h6, h7, h8, h9, h10, h11, h12, h13, h14, h15, h16, h17, h18, h19, h20]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
